-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S2048x256 : Shape := ⟨2, ![2048, 256]⟩
abbrev S256 : Shape := ⟨1, ![256]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S2048x256 .f32) (main_arg13 : FVec F S256 .f32) (main_v48 : IVec S_ 1) (main_v49 : FVec F S2048x256 .f32) (main_v50 : FVec F S2048x256 .f32) : IVec S_ 1 :=
  let main_v51 : IVec S2048x256 1 := cmpf .olt main_v49 main_v50
  let main_c_19 : IVec S_ 1 := constantI S_ 1 1#1
  let main_v52 : IVec S_ 1 := (fun x v => Host.reduce IntOp.andi x v reducesTo_S2048x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S2048x256 .f32 := Host.absf main_arg12
  let main_cst_22 : FVec F S_ .f32 := constant S_ .f32 0x7F800000#32
  let main_v60 : FVec F S2048x256 .f32 := broadcastInDim S2048x256 ![] bcast_S_S2048x256 main_cst_22
  let main_v61 : IVec S2048x256 1 := cmpf .olt main_v59 main_v60
  let main_c_23 : IVec S_ 1 := constantI S_ 1 1#1
  let main_v62 : IVec S_ 1 := (fun x v => Host.reduce IntOp.andi x v reducesTo_S2048x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S2048x256 .f32) (main_arg11 : FVec F S256 .f32) (main_arg12 : FVec F S2048x256 .f32) (main_arg13 : FVec F S256 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S2048x256 .f32 := Host.absf main_arg10
  let main_cst_18 : FVec F S_ .f32 := constant S_ .f32 0x7F800000#32
  let main_v50 : FVec F S2048x256 .f32 := broadcastInDim S2048x256 ![] bcast_S_S2048x256 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S2048x256 .f32) (main_arg11 : FVec F S256 .f32) (main_arg12 : FVec F S2048x256 .f32) (main_arg13 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x2048x1024 .f32) (main_arg1 : FVec F S4x2048x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S2048x256 .f32) (main_arg11 : FVec F S256 .f32) (main_arg12 : FVec F S2048x256 .f32) (main_arg13 : FVec F S256 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S2048x256 : Shape := ⟨2, ![2048, 256]⟩
abbrev S256 : Shape := ⟨1, ![256]⟩
abbrev S_ : Shape := ⟨0, ![]⟩
abbrev S1x1024 : Shape := ⟨2, ![1, 1024]⟩
abbrev S256x1 : Shape := ⟨2, ![256, 1]⟩
abbrev S4x16x256x64 : Shape := ⟨4, ![4, 16, 256, 64]⟩
abbrev S1x512x1024 : Shape := ⟨3, ![1, 512, 1024]⟩
abbrev S1x16x256x64 : Shape := ⟨4, ![1, 16, 256, 64]⟩
abbrev S256x1024 : Shape := ⟨2, ![256, 1024]⟩
abbrev S512x1024 : Shape := ⟨2, ![512, 1024]⟩
abbrev S512x256 : Shape := ⟨2, ![512, 256]⟩
abbrev S256x16x64 : Shape := ⟨3, ![256, 16, 64]⟩
abbrev S16x256x64 : Shape := ⟨3, ![16, 256, 64]⟩
abbrev S1x256x1024 : Shape := ⟨3, ![1, 256, 1024]⟩
abbrev S16x256x256 : Shape := ⟨3, ![16, 256, 256]⟩
abbrev S16x256 : Shape := ⟨2, ![16, 256]⟩
abbrev S16x256x1 : Shape := ⟨3, ![16, 256, 1]⟩

abbrev nBuf : Space → Nat
  | .hbm => 35
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2048x256, .f32⟩
  | .hbm, ⟨11, _⟩ => ⟨S256, .f32⟩
  | .hbm, ⟨12, _⟩ => ⟨S2048x256, .f32⟩
  | .hbm, ⟨13, _⟩ => ⟨S256, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1x1024, .f32⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S2048x256, .bf16⟩
  | .hbm, ⟨26, _⟩ => ⟨S2048x256, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S256x1, .f32⟩
  | .hbm, ⟨31, _⟩ => ⟨S256x1, .f32⟩
  | .hbm, ⟨32, _⟩ => ⟨S4x16x256x64, .bf16⟩
  | .hbm, ⟨33, _⟩ => ⟨S4x16x256x64, .bf16⟩
  | .hbm, ⟨34, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S2048x256, .bf16⟩
  | .local _ .vmem, ⟨7, _⟩ => ⟨S2048x256, .bf16⟩
  | .local _ .vmem, ⟨8, _⟩ => ⟨S256x1, .f32⟩
  | .local _ .vmem, ⟨9, _⟩ => ⟨S256x1, .f32⟩
  | .local _ .vmem, ⟨10, _⟩ => ⟨S1x16x256x64, .bf16⟩
  | .local _ .vmem, ⟨11, _⟩ => ⟨S1x16x256x64, .bf16⟩
  | .local _ .vmem, ⟨12, _⟩ => ⟨S1x16x256x64, .bf16⟩
  | .local _ .vmem, ⟨13, _⟩ => ⟨S1x16x256x64, .bf16⟩
  | .local _ .vmem, ⟨14, _⟩ => ⟨S256x1024, .f32⟩
  | .local _ .vmem, ⟨15, _⟩ => ⟨S256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1024x1024, .bf16⟩
  | .local _ .vmem, ⟨19, _⟩ => ⟨S1x1024, .f32⟩
  | .local _ .vmem, ⟨20, _⟩ => ⟨S1x16x256x64, .bf16⟩
  | .local _ .vmem, ⟨21, _⟩ => ⟨S1x16x256x64, .bf16⟩
  | .local _ .vmem, ⟨22, _⟩ => ⟨S1x16x256x64, .bf16⟩
  | .local _ .vmem, ⟨23, _⟩ => ⟨S1x16x256x64, .bf16⟩
  | .local _ .vmem, ⟨24, _⟩ => ⟨S1024x1024, .bf16⟩
  | .local _ .vmem, ⟨25, _⟩ => ⟨S1x1024, .f32⟩
  | .local _ .vmem, ⟨26, _⟩ => ⟨S1x256x1024, .f32⟩
  | .local _ .vmem, ⟨27, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v22 : BitVec 32 := Scalar.muli arg1 c512_i32
  v22
def k0_off1 (i : grid0.Coords) : Fin 2 → Nat :=
  let arg1 : BitVec 32 := BitVec.ofNat 32 (i 1).val
  let c512_i32 : BitVec 32 := 512#32
  let v22 : BitVec 32 := Scalar.muli arg1 c512_i32
  let v23 : BitVec 32 := v22
  let v24 : Index := Scalar.indexCast v23
  let c0_12 : Index := 0#32
  ![v24.toNat, 0]
def k0_cond2 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_24 : BitVec 32 := 0#32
  let v44 : BitVec 1 := Scalar.cmpi .ne v43 c0_i32_24
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x16x256x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x16x256x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  bcast_S_S1024x1024 : S_.BroadcastsInDim S1024x1024 (![] : Fin 0 → Fin S1024x1024.rank)
  bitsLt_bf16_f32 : FTy.bits .bf16 < FTy.bits .f32
  bcast_S_S1024 : S_.BroadcastsInDim S1024 (![] : Fin 0 → Fin S1024.rank)
  shapeCasts_S1024_S1x1024 : S1024.ShapeCasts S1x1024
  shapeCasts_S256_S256x1 : S256.ShapeCasts S256x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  h_S512x256 : 0 < S512x256.numel
  shapeCasts_S512x256_S512x256 : S512x256.ShapeCasts S512x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  shapeCasts_S256x1024_S256x16x64 : S256x1024.ShapeCasts S256x16x64
  transposes_S256x16x64_p1_0_2_S16x256x64 : S256x16x64.Transposes [1, 0, 2] S16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  shapeCasts_S16x256x64_S1x16x256x64 : S16x256x64.ShapeCasts S1x16x256x64
  packedbf16_S1x16x256x64_S1x16x256x64_0_0_0_0 : (Rect.unit (s := S1x16x256x64) ![0, 0, 0, 0] S1x16x256x64.size inb_S1x16x256x64_S1x16x256x64_0_0_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  reduces_S16x256x256_S16x256 : S16x256x256.Reduces [2] S16x256
  shapeCasts_S16x256_S16x256x1 : S16x256.ShapeCasts S16x256x1
  broadcasts_S16x256x1_S16x256x256 : S16x256x1.Broadcasts S16x256x256
  transposes_S16x256x64_p1_0_2_S256x16x64 : S16x256x64.Transposes [1, 0, 2] S256x16x64
  shapeCasts_S256x16x64_S256x1024 : S256x16x64.ShapeCasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S512x256_S512x1024_S256x1024_0_0_1_1_n_n_wf : DotDims.WF S512x256 S512x1024 S256x1024 [0] [0] [1] [1] [] []
  dot_S256x1024_S1024x1024_S256x1024_1_0_0_1_n_n_wf : DotDims.WF S256x1024 S1024x1024 S256x1024 [1] [0] [0] [1] [] []
  dot_S16x256x64_S16x256x64_S16x256x256_2_2_1_1_0_0_wf : DotDims.WF S16x256x64 S16x256x64 S16x256x256 [2] [2] [1] [1] [0] [0]
  dot_S16x256x256_S16x256x64_S16x256x64_2_1_1_2_0_0_wf : DotDims.WF S16x256x256 S16x256x64 S16x256x64 [2] [1] [1] [2] [0] [0]
  hrank0 : 0 < grid0.rank
  k0_mult1_dvd : ∀ i : grid0.Coords, 512 ∣ (k0_mult1 i).toNat
  k0_off1_inb : ∀ i : grid0.Coords, ∀ a, (k0_off1 i) a + S512x256.size a ≤ S2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x256.size a
  hwx0_5 : ∀ i : grid0.Coords, EltTy.bits .bf16 = 32 ∨ (Rect.block (s := S2048x256) S2048x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x256.size a
  hwx0_6 : ∀ i : grid0.Coords, EltTy.bits .bf16 = 32 ∨ (Rect.block (s := S2048x256) S2048x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .f32 = 32 ∨ (Rect.block (s := S256x1) S256x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x256x64.size a ≤ S4x16x256x64.size a
  hwx0_9 : ∀ i : grid0.Coords, EltTy.bits .bf16 = 32 ∨ (Rect.block (s := S4x16x256x64) S1x16x256x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x16x256x64.size a ≤ S4x16x256x64.size a
  hwx0_10 : ∀ i : grid0.Coords, EltTy.bits .bf16 = 32 ∨ (Rect.block (s := S4x16x256x64) S1x16x256x64.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .f32 = 32 ∨ (Rect.block (s := S4x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x256x64.size a ≤ S4x16x256x64.size a
  hwx1_3 : ∀ i : grid1.Coords, EltTy.bits .bf16 = 32 ∨ (Rect.block (s := S4x16x256x64) S1x16x256x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x256x64.size a ≤ S4x16x256x64.size a
  hwx1_4 : ∀ i : grid1.Coords, EltTy.bits .bf16 = 32 ∨ (Rect.block (s := S4x16x256x64) S1x16x256x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x1024.size a ≤ S4x2048x1024.size a
  hwx1_7 : ∀ i : grid1.Coords, EltTy.bits .f32 = 32 ∨ (Rect.block (s := S4x2048x1024) S1x256x1024.size (cc1_transform_7 i) (hinb1_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x256_S512x1024_S256x1024_0_0_1_1_n_n : DotDims S512x256 S512x1024 S256x1024 where
  lhsContracting := [0]
  rhsContracting := [0]
  lhsNonContracting := [1]
  rhsNonContracting := [1]
  lhsBatch := []
  rhsBatch := []
  wf := dot_S512x256_S512x1024_S256x1024_0_0_1_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S16x256x64_S16x256x64_S16x256x256_2_2_1_1_0_0 : DotDims S16x256x64 S16x256x64 S16x256x256 where
  lhsContracting := [2]
  rhsContracting := [2]
  lhsNonContracting := [1]
  rhsNonContracting := [1]
  lhsBatch := [0]
  rhsBatch := [0]
  wf := dot_S16x256x64_S16x256x64_S16x256x256_2_2_1_1_0_0_wf
def dot_S16x256x256_S16x256x64_S16x256x64_2_1_1_2_0_0 : DotDims S16x256x256 S16x256x64 S16x256x64 where
  lhsContracting := [2]
  rhsContracting := [1]
  lhsNonContracting := [1]
  rhsNonContracting := [2]
  lhsBatch := [0]
  rhsBatch := [0]
  wf := dot_S16x256x256_S16x256x64_S16x256x64_2_1_1_2_0_0_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2048x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S2048x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16_0) S1x16x256x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v16_1) S1x16x256x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16_0) S1x16x256x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_1) S1x16x256x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S1x256x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S2048x256 : Shape := ⟨2, ![2048, 256]⟩
abbrev S256 : Shape := ⟨1, ![256]⟩
abbrev S1x1x1024 : Shape := ⟨3, ![1, 1, 1024]⟩
abbrev S4x1024x2048 : Shape := ⟨3, ![4, 1024, 2048]⟩
abbrev S4x1024x256 : Shape := ⟨3, ![4, 1024, 256]⟩
abbrev S1x1x256 : Shape := ⟨3, ![1, 1, 256]⟩
abbrev S4x256x1024 : Shape := ⟨3, ![4, 256, 1024]⟩
abbrev S4x2048x16x64 : Shape := ⟨4, ![4, 2048, 16, 64]⟩
abbrev S4x16x2048x64 : Shape := ⟨4, ![4, 16, 2048, 64]⟩
abbrev S_ : Shape := ⟨0, ![]⟩
abbrev S4x256x16x64 : Shape := ⟨4, ![4, 256, 16, 64]⟩
abbrev S4x16x256x64 : Shape := ⟨4, ![4, 16, 256, 64]⟩
abbrev S4x16x2048x256 : Shape := ⟨4, ![4, 16, 2048, 256]⟩
abbrev S4x16x2048 : Shape := ⟨3, ![4, 16, 2048]⟩
abbrev S4x16x2048x1 : Shape := ⟨4, ![4, 16, 2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2048x256, .f32⟩
  | .hbm, ⟨11, _⟩ => ⟨S256, .f32⟩
  | .hbm, ⟨12, _⟩ => ⟨S2048x256, .f32⟩
  | .hbm, ⟨13, _⟩ => ⟨S256, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x1024x2048, .f32⟩
  | .hbm, ⟨27, _⟩ => ⟨S4x1024x256, .f32⟩
  | .hbm, ⟨28, _⟩ => ⟨S1x1x256, .f32⟩
  | .hbm, ⟨29, _⟩ => ⟨S4x1024x256, .f32⟩
  | .hbm, ⟨30, _⟩ => ⟨S4x1024x256, .f32⟩
  | .hbm, ⟨31, _⟩ => ⟨S4x256x1024, .f32⟩
  | .hbm, ⟨32, _⟩ => ⟨S4x1024x2048, .f32⟩
  | .hbm, ⟨33, _⟩ => ⟨S4x1024x256, .f32⟩
  | .hbm, ⟨34, _⟩ => ⟨S1x1x256, .f32⟩
  | .hbm, ⟨35, _⟩ => ⟨S4x1024x256, .f32⟩
  | .hbm, ⟨36, _⟩ => ⟨S4x1024x256, .f32⟩
  | .hbm, ⟨37, _⟩ => ⟨S4x256x1024, .f32⟩
  | .hbm, ⟨38, _⟩ => ⟨S4x2048x16x64, .f32⟩
  | .hbm, ⟨39, _⟩ => ⟨S4x16x2048x64, .f32⟩
  | .hbm, ⟨40, _⟩ => ⟨S_, .f32⟩
  | .hbm, ⟨41, _⟩ => ⟨S4x16x2048x64, .f32⟩
  | .hbm, ⟨42, _⟩ => ⟨S4x16x2048x64, .f32⟩
  | .hbm, ⟨43, _⟩ => ⟨S4x256x16x64, .f32⟩
  | .hbm, ⟨44, _⟩ => ⟨S4x16x256x64, .f32⟩
  | .hbm, ⟨45, _⟩ => ⟨S4x256x16x64, .f32⟩
  | .hbm, ⟨46, _⟩ => ⟨S4x16x256x64, .f32⟩
  | .hbm, ⟨47, _⟩ => ⟨S4x16x2048x256, .f32⟩
  | .hbm, ⟨48, _⟩ => ⟨S_, .f32⟩
  | .hbm, ⟨49, _⟩ => ⟨S4x16x2048, .f32⟩
  | .hbm, ⟨50, _⟩ => ⟨S_, .f32⟩
  | .hbm, ⟨51, _⟩ => ⟨S4x16x2048, .f32⟩
  | .hbm, ⟨52, _⟩ => ⟨S4x16x2048, .f32⟩
  | .hbm, ⟨53, _⟩ => ⟨S4x16x2048x1, .f32⟩
  | .hbm, ⟨54, _⟩ => ⟨S4x16x2048x256, .f32⟩
  | .hbm, ⟨55, _⟩ => ⟨S4x16x2048x256, .f32⟩
  | .hbm, ⟨56, _⟩ => ⟨S4x16x2048x256, .f32⟩
  | .hbm, ⟨57, _⟩ => ⟨S_, .f32⟩
  | .hbm, ⟨58, _⟩ => ⟨S4x16x2048, .f32⟩
  | .hbm, ⟨59, _⟩ => ⟨S4x16x2048x1, .f32⟩
  | .hbm, ⟨60, _⟩ => ⟨S4x16x2048x256, .f32⟩
  | .hbm, ⟨61, _⟩ => ⟨S4x16x2048x256, .f32⟩
  | .hbm, ⟨62, _⟩ => ⟨S4x16x2048x64, .f32⟩
  | .hbm, ⟨63, _⟩ => ⟨S4x2048x16x64, .f32⟩
  | .hbm, ⟨64, _⟩ => ⟨S4x2048x1024, .f32⟩
  | .hbm, ⟨65, _⟩ => ⟨S4x2048x1024, .f32⟩
  | .hbm, ⟨66, _⟩ => ⟨S1x1x1024, .f32⟩
  | .hbm, ⟨67, _⟩ => ⟨S4x2048x1024, .f32⟩
  | .hbm, ⟨68, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_0 : Ref sig .tc := ⟨.hbm, 48, rfl⟩
abbrev main_v33 : Ref sig .tc := ⟨.hbm, 49, rfl⟩
abbrev main_cst_1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  transposes_S4x2048x1024_S4x1024x2048_0_2_1 : S4x2048x1024.Transposes [0, 2, 1] S4x1024x2048
  bcast_S256_S1x1x256_2 : S256.BroadcastsInDim S1x1x256 (![2] : Fin 1 → Fin S1x1x256.rank)
  bcast_S1x1x256_S4x1024x256_0_1_2 : S1x1x256.BroadcastsInDim S4x1024x256 (![0, 1, 2] : Fin 3 → Fin S4x1024x256.rank)
  transposes_S4x1024x256_S4x256x1024_0_2_1 : S4x1024x256.Transposes [0, 2, 1] S4x256x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x64 : S_.BroadcastsInDim S4x16x2048x64 (![] : Fin 0 → Fin S4x16x2048x64.rank)
  shapeCasts_S4x256x1024_S4x256x16x64 : S4x256x1024.ShapeCasts S4x256x16x64
  transposes_S4x256x16x64_S4x16x256x64_0_2_1_3 : S4x256x16x64.Transposes [0, 2, 1, 3] S4x16x256x64
  reducesTo_S4x16x2048x256_S4x16x2048_d3 : S4x16x2048x256.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x256_0_1_2_3 : S4x16x2048x1.BroadcastsInDim S4x16x2048x256 (![0, 1, 2, 3] : Fin 4 → Fin S4x16x2048x256.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_0_01_1_n_n_wf : DotDims.WF S4x2048x1024 S1024x1024 S4x2048x1024 [2] [0] [0, 1] [1] [] []
  dot_S4x1024x2048_S2048x256_S4x1024x256_2_0_01_1_n_n_wf : DotDims.WF S4x1024x2048 S2048x256 S4x1024x256 [2] [0] [0, 1] [1] [] []
  dot_S4x16x2048x64_S4x16x256x64_S4x16x2048x256_3_3_2_2_01_01_wf : DotDims.WF S4x16x2048x64 S4x16x256x64 S4x16x2048x256 [3] [3] [2] [2] [0, 1] [0, 1]
  dot_S4x16x2048x256_S4x16x256x64_S4x16x2048x64_3_2_2_3_01_01_wf : DotDims.WF S4x16x2048x256 S4x16x256x64 S4x16x2048x64 [3] [2] [2] [3] [0, 1] [0, 1]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x1024x2048_S2048x256_S4x1024x256_2_0_01_1_n_n : DotDims S4x1024x2048 S2048x256 S4x1024x256 where
  lhsContracting := [2]
  rhsContracting := [0]
  lhsNonContracting := [0, 1]
  rhsNonContracting := [1]
  lhsBatch := []
  rhsBatch := []
  wf := dot_S4x1024x2048_S2048x256_S4x1024x256_2_0_01_1_n_n_wf
def dot_S4x16x2048x64_S4x16x256x64_S4x16x2048x256_3_3_2_2_01_01 : DotDims S4x16x2048x64 S4x16x256x64 S4x16x2048x256 where
  lhsContracting := [3]
  rhsContracting := [3]
  lhsNonContracting := [2]
  rhsNonContracting := [2]
  lhsBatch := [0, 1]
  rhsBatch := [0, 1]
  wf := dot_S4x16x2048x64_S4x16x256x64_S4x16x2048x256_3_3_2_2_01_01_wf
def dot_S4x16x2048x256_S4x16x256x64_S4x16x2048x64_3_2_2_3_01_01 : DotDims S4x16x2048x256 S4x16x256x64 S4x16x2048x64 where
  lhsContracting := [3]
  rhsContracting := [2]
  lhsNonContracting := [2]
  rhsNonContracting := [3]
  lhsBatch := [0, 1]
  rhsBatch := [0, 1]
  wf := dot_S4x16x2048x256_S4x16x256x64_S4x16x2048x64_3_2_2_3_01_01_wf

class Facts : Prop extends Facts₀ where

variable [Facts]
-- ==== Proof.K.R0Body.lean ====
import proofs.«430223_j86457691669062_3_alg».proof.Proof.Gen.Kernel.Launch
import proofs.«430223_j86457691669062_3_alg».proof.Proof.Gen.Kernel.Skeleton
import proofs.«430223_j86457691669062_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the body of the fused K/V projection and sequence projection, case by case

The grid is (batch, row tile). At every point the body adds one row tile's contribution to two accumulators kept in
scratch, `Eᵀ·(x·Wk + bk)` and `Fᵀ·(x·Wv + bv)` restricted to the tile's 512 rows; at the first tile of a batch it
first resets both to zero, and at the last tile it adds the column biases and writes both, split by head, to the outputs. -/

/-- The first conditional's guard (the tile index is zero), from the grid coordinates. -/
abbrev cond0_0 (i : grid0.Coords) : Prop := (Scalar.cmpi .ne (Scalar.extui (Scalar.cmpi .eq (BitVec.ofNat 32 (i 1).val) 0#32)) 0#32) = 1#1
/-- The second conditional's guard (the tile index is the last). -/
abbrev cond0_1 (i : grid0.Coords) : Prop := k0_cond2 i = 1#1

/-- The first guard holds at the first tile of each batch. -/
theorem hcond0_0 : ∀ t : Fin cfg0.N, cond0_0 (grid0.coords t) ↔ t.val % 4 = 0 :=
  (by decide +kernel : ∀ t : Fin grid0.N, cond0_0 (grid0.coords t) ↔ t.val % 4 = 0)
/-- The second guard holds at the last tile of each batch. -/
theorem hcond0_1 : ∀ t : Fin cfg0.N, cond0_1 (grid0.coords t) ↔ t.val % 4 = 3 :=
  (by decide +kernel : ∀ t : Fin grid0.N, cond0_1 (grid0.coords t) ↔ t.val % 4 = 3)

/-- The 512 rows of a resident (2048, 256) operand that the point's tile reads. -/
def tile0 (i : grid0.Coords) (x : Vec F S2048x256 .bf16) : Vec F S512x256 .bf16 :=
  View.ld x (Rect.unit (s := S2048x256) (k0_off1 i) S512x256.size (k0_off1_inb i))

/-- One tile's update of the key accumulator: `acc + Eₜᵀ·(x·Wk + bk)`. -/
def kstep (x : Vec F S1x512x1024 .f32) (wk : Vec F S1024x1024 .bf16) (bk : Vec F S1x1024 .f32) (et : Vec F S512x256 .bf16)
    (acc : Vec F S256x1024 .f32) : Vec F S256x1024 .f32 := k0_pay1 (k0_pay10 x wk bk et acc)
/-- One tile's update of the value accumulator: `acc + Fₜᵀ·(x·Wv + bv)`. -/
def vstep (x : Vec F S1x512x1024 .f32) (wv : Vec F S1024x1024 .bf16) (bv : Vec F S1x1024 .f32) (ft : Vec F S512x256 .bf16)
    (acc : Vec F S256x1024 .f32) : Vec F S256x1024 .f32 := k0_pay2 (k0_pay8 x wv bv) (k0_pay9 ft) acc

/-- Zero offsets, however spelt, are the zero function. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A buffer after ONE store through its whole-shape rectangle reads as the payload, whatever it held. -/
theorem read_writes_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-- A buffer whose LAST store went through its whole-shape rectangle reads as that store's payload, whatever the
    earlier stores were. -/
theorem read_writes_cons_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons.2 (Or.inl rfl), View.mem_set_unit_zero h inb y⟩)).trans
    (View.canon_cons_unit_zero h inb w L)

set_option maxHeartbeats 4000000 in
/-- First tile of a batch: both accumulators are reset, then updated; the outputs are not touched. -/
theorem run0_A (c : Dev nD) (i : grid0.Coords) (hc0 : cond0_0 i) (hc1 : ¬cond0_1 i) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S256x1 .f32) (harg9 : arg9.IsWhole) (arg10 : Memref sig .tc .vmem S256x1 .f32) (harg10 : arg10.IsWhole) (arg11 : Memref sig .tc .vmem S1x16x256x64 .bf16) (harg11 : arg11.IsWhole) (arg12 : Memref sig .tc .vmem S1x16x256x64 .bf16) (harg12 : arg12.IsWhole) (arg13 : Memref sig .tc .vmem S256x1024 .f32) (harg13 : arg13.IsWhole) (arg14 : Memref sig .tc .vmem S256x1024 .f32) (harg14 : arg14.IsWhole)
    (x0 : Vec F S1x512x1024 .f32) (x1 : Vec F S1024x1024 .bf16) (x2 : Vec F S1x1024 .f32) (x3 : Vec F S1024x1024 .bf16) (x4 : Vec F S1x1024 .f32) (x5 x6 : Vec F S2048x256 .bf16) (x7 x8 : Vec F S256x1 .f32) (xo9 xo10 : Vec F S1x16x256x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ owns (c : Thread nD τ) arg12 fullShare xo10
        ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ owns (c : Thread nD τ) arg12 fullShare xo10
            ∗ owns (c : Thread nD τ) arg13 fullShare (kstep x0 x1 x2 (tile0 i x5) (k0_pay5 (F := F))) ∗ owns (c : Thread nD τ) arg14 fullShare (vstep x0 x3 x4 (tile0 i x6) (k0_pay6 (F := F)))) -∗ K ⟨⟩))
      ⊢ wp frame (wpE (defs₀ (F := F)) Variants.none c none) E (cc0__kv_ef_kernel i arg2 harg2 arg3 harg3 arg4 harg4 arg5 harg5 arg6 harg6 arg7 harg7 arg8 harg8 arg9 harg9 arg10 harg10 arg11 harg11 arg12 harg12 arg13 harg13 arg14 harg14) K := by
  simp only [cc0__kv_ef_kernel_eq_skeleton]; unfold cc0__kv_ef_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds13, %fs13, -, HS13⟩, ⟨%ds14, %fs14, -, HS14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS13]
  · iexists _; isplitr
    swap; · iexact HS13
    ipureintro
    refine (read_writes_cons_unit_zero _ _ hz2 _ _ _).trans ?_
    dsimp only
    unfold kstep tile0
    sl_unfold_words
    simp only [View.readAt_eq_ld, harg2.read_unread, harg3.read_unread, harg4.read_unread, harg5.read_unread, harg6.read_unread, harg7.read_unread, harg8.read_unread, harg9.read_unread, harg10.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]
  iexists _; isplitr
  swap; · iexact HS14
  ipureintro
  refine (read_writes_cons_unit_zero _ _ hz2 _ _ _).trans ?_
  dsimp only
  unfold vstep tile0
  sl_unfold_words
  simp only [View.readAt_eq_ld, harg2.read_unread, harg3.read_unread, harg4.read_unread, harg5.read_unread, harg6.read_unread, harg7.read_unread, harg8.read_unread, harg9.read_unread, harg10.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]

set_option maxHeartbeats 4000000 in
/-- A middle tile: both accumulators are updated from what the tile before left; the outputs are not touched. -/
theorem run0_B (c : Dev nD) (i : grid0.Coords) (hc0 : ¬cond0_0 i) (hc1 : ¬cond0_1 i) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S256x1 .f32) (harg9 : arg9.IsWhole) (arg10 : Memref sig .tc .vmem S256x1 .f32) (harg10 : arg10.IsWhole) (arg11 : Memref sig .tc .vmem S1x16x256x64 .bf16) (harg11 : arg11.IsWhole) (arg12 : Memref sig .tc .vmem S1x16x256x64 .bf16) (harg12 : arg12.IsWhole) (arg13 : Memref sig .tc .vmem S256x1024 .f32) (harg13 : arg13.IsWhole) (arg14 : Memref sig .tc .vmem S256x1024 .f32) (harg14 : arg14.IsWhole)
    (x0 : Vec F S1x512x1024 .f32) (x1 : Vec F S1024x1024 .bf16) (x2 : Vec F S1x1024 .f32) (x3 : Vec F S1024x1024 .bf16) (x4 : Vec F S1x1024 .f32) (x5 x6 : Vec F S2048x256 .bf16) (x7 x8 : Vec F S256x1 .f32) (xo9 xo10 : Vec F S1x16x256x64 .bf16) (xs13 xs14 : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ owns (c : Thread nD τ) arg12 fullShare xo10
        ∗ owns (c : Thread nD τ) arg13 fullShare xs13 ∗ owns (c : Thread nD τ) arg14 fullShare xs14
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ owns (c : Thread nD τ) arg12 fullShare xo10
            ∗ owns (c : Thread nD τ) arg13 fullShare (kstep x0 x1 x2 (tile0 i x5) xs13) ∗ owns (c : Thread nD τ) arg14 fullShare (vstep x0 x3 x4 (tile0 i x6) xs14)) -∗ K ⟨⟩))
      ⊢ wp frame (wpE (defs₀ (F := F)) Variants.none c none) E (cc0__kv_ef_kernel i arg2 harg2 arg3 harg3 arg4 harg4 arg5 harg5 arg6 harg6 arg7 harg7 arg8 harg8 arg9 harg9 arg10 harg10 arg11 harg11 arg12 harg12 arg13 harg13 arg14 harg14) K := by
  simp only [cc0__kv_ef_kernel_eq_skeleton]; unfold cc0__kv_ef_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs13, %hfs13, HS13⟩, ⟨%fs14, %hfs14, HS14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs13; obtain rfl := harg14.eq_unread hfs14
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS13]
  · iexists _; isplitr
    swap; · iexact HS13
    ipureintro
    refine (read_writes_unit_zero _ _ hz2 _ _).trans ?_
    dsimp only
    unfold kstep tile0
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2]
  iexists _; isplitr
  swap; · iexact HS14
  ipureintro
  refine (read_writes_unit_zero _ _ hz2 _ _).trans ?_
  dsimp only
  unfold vstep tile0
  simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2]

set_option maxHeartbeats 4000000 in
/-- Last tile of a batch: both accumulators are updated, and each, with its column bias added, is written split by head. -/
theorem run0_C (c : Dev nD) (i : grid0.Coords) (hc0 : ¬cond0_0 i) (hc1 : cond0_1 i) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S256x1 .f32) (harg9 : arg9.IsWhole) (arg10 : Memref sig .tc .vmem S256x1 .f32) (harg10 : arg10.IsWhole) (arg11 : Memref sig .tc .vmem S1x16x256x64 .bf16) (harg11 : arg11.IsWhole) (arg12 : Memref sig .tc .vmem S1x16x256x64 .bf16) (harg12 : arg12.IsWhole) (arg13 : Memref sig .tc .vmem S256x1024 .f32) (harg13 : arg13.IsWhole) (arg14 : Memref sig .tc .vmem S256x1024 .f32) (harg14 : arg14.IsWhole)
    (x0 : Vec F S1x512x1024 .f32) (x1 : Vec F S1024x1024 .bf16) (x2 : Vec F S1x1024 .f32) (x3 : Vec F S1024x1024 .bf16) (x4 : Vec F S1x1024 .f32) (x5 x6 : Vec F S2048x256 .bf16) (x7 x8 : Vec F S256x1 .f32) (xs13 xs14 : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
        ∗ owns (c : Thread nD τ) arg13 fullShare xs13 ∗ owns (c : Thread nD τ) arg14 fullShare xs14
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay3 (kstep x0 x1 x2 (tile0 i x5) xs13) x7) ∗ owns (c : Thread nD τ) arg12 fullShare (k0_pay4 (vstep x0 x3 x4 (tile0 i x6) xs14) x8)
            ∗ owns (c : Thread nD τ) arg13 fullShare (kstep x0 x1 x2 (tile0 i x5) xs13) ∗ owns (c : Thread nD τ) arg14 fullShare (vstep x0 x3 x4 (tile0 i x6) xs14)) -∗ K ⟨⟩))
      ⊢ wp frame (wpE (defs₀ (F := F)) Variants.none c none) E (cc0__kv_ef_kernel i arg2 harg2 arg3 harg3 arg4 harg4 arg5 harg5 arg6 harg6 arg7 harg7 arg8 harg8 arg9 harg9 arg10 harg10 arg11 harg11 arg12 harg12 arg13 harg13 arg14 harg14) K := by
  simp only [cc0__kv_ef_kernel_eq_skeleton]; unfold cc0__kv_ef_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs13, %hfs13, HS13⟩, ⟨%fs14, %hfs14, HS14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs13; obtain rfl := harg14.eq_unread hfs14
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    refine (read_writes_unit_zero _ _ hz4 _ _).trans ?_
    unfold kstep tile0
    sl_unfold_words
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]
  isplitl [H10]
  · iexists _; isplitr
    swap; · iexact H10
    ipureintro
    refine (read_writes_unit_zero _ _ hz4 _ _).trans ?_
    unfold vstep tile0
    sl_unfold_words
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]
  isplitl [HS13]
  · iexists _; isplitr
    swap; · iexact HS13
    ipureintro
    unfold kstep tile0
    sl_unfold_words
    refine (read_writes_unit_zero _ _ hz2 _ _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]
  iexists _; isplitr
  swap; · iexact HS14
  ipureintro
  unfold vstep tile0
  sl_unfold_words
  refine (read_writes_unit_zero _ _ hz2 _ _).trans ?_
  simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]

end Cert.Kernel.Hand

end
-- ==== Proof.K.R0Dat.lean ====
import proofs.«430223_j86457691669062_3_alg».proof.Proof.K.R0Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: what the accumulators and the outputs hold point by point, and the pipeline's proof data

At a PARAMETER `V`: the TensorCore's buffer contents when the region is entered. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators after the body at position `n`: at the first tile of a batch one update of zero, at every later
    tile one update of what the tile before left. -/
def acc0 (c : Dev nD) : (n : ℕ) → n < cfg0.N → Vec F S256x1024 .f32 × Vec F S256x1024 .f32
  | 0, hn => (kstep (iblk0 V c 0 ⟨0, hn⟩) (iblk0 V c 1 ⟨0, hn⟩) (iblk0 V c 2 ⟨0, hn⟩) (tile0 (grid0.coords ⟨0, hn⟩) (iblk0 V c 5 ⟨0, hn⟩)) (k0_pay5 (F := F)), vstep (iblk0 V c 0 ⟨0, hn⟩) (iblk0 V c 3 ⟨0, hn⟩) (iblk0 V c 4 ⟨0, hn⟩) (tile0 (grid0.coords ⟨0, hn⟩) (iblk0 V c 6 ⟨0, hn⟩)) (k0_pay6 (F := F)))
  | n + 1, hn =>
    if (n + 1) % 4 = 0 then
      (kstep (iblk0 V c 0 ⟨n + 1, hn⟩) (iblk0 V c 1 ⟨n + 1, hn⟩) (iblk0 V c 2 ⟨n + 1, hn⟩) (tile0 (grid0.coords ⟨n + 1, hn⟩) (iblk0 V c 5 ⟨n + 1, hn⟩)) (k0_pay5 (F := F)), vstep (iblk0 V c 0 ⟨n + 1, hn⟩) (iblk0 V c 3 ⟨n + 1, hn⟩) (iblk0 V c 4 ⟨n + 1, hn⟩) (tile0 (grid0.coords ⟨n + 1, hn⟩) (iblk0 V c 6 ⟨n + 1, hn⟩)) (k0_pay6 (F := F)))
    else
      (kstep (iblk0 V c 0 ⟨n + 1, hn⟩) (iblk0 V c 1 ⟨n + 1, hn⟩) (iblk0 V c 2 ⟨n + 1, hn⟩) (tile0 (grid0.coords ⟨n + 1, hn⟩) (iblk0 V c 5 ⟨n + 1, hn⟩)) (acc0 c n (Nat.lt_of_succ_lt hn)).1, vstep (iblk0 V c 0 ⟨n + 1, hn⟩) (iblk0 V c 3 ⟨n + 1, hn⟩) (iblk0 V c 4 ⟨n + 1, hn⟩) (tile0 (grid0.coords ⟨n + 1, hn⟩) (iblk0 V c 6 ⟨n + 1, hn⟩)) (acc0 c n (Nat.lt_of_succ_lt hn)).2)

/-- At the first tile of a batch the accumulators restart from zero. -/
theorem acc0_first (c : Dev nD) (t : Fin cfg0.N) (h : t.val % 4 = 0) :
    acc0 V c t.val t.isLt = (kstep (iblk0 V c 0 t) (iblk0 V c 1 t) (iblk0 V c 2 t) (tile0 (grid0.coords t) (iblk0 V c 5 t)) (k0_pay5 (F := F)), vstep (iblk0 V c 0 t) (iblk0 V c 3 t) (iblk0 V c 4 t) (tile0 (grid0.coords t) (iblk0 V c 6 t)) (k0_pay6 (F := F))) := by
  obtain ⟨n, hn⟩ := t
  cases n with
  | zero => exact rfl
  | succ n => exact (if_pos h).trans rfl

/-- At a later tile they continue from the tile before. -/
theorem acc0_next (c : Dev nD) (t : Fin cfg0.N) (h : ¬t.val % 4 = 0) :
    acc0 V c t.val t.isLt = (kstep (iblk0 V c 0 t) (iblk0 V c 1 t) (iblk0 V c 2 t) (tile0 (grid0.coords t) (iblk0 V c 5 t)) (acc0 V c (t.val - 1) (Nat.lt_of_le_of_lt (Nat.sub_le _ _) t.isLt)).1, vstep (iblk0 V c 0 t) (iblk0 V c 3 t) (iblk0 V c 4 t) (tile0 (grid0.coords t) (iblk0 V c 6 t)) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The scratch operands as memrefs. -/
abbrev scM0_0 : Memref sig .tc .vmem S256x1024 .f32 := Memref.whole cc0_scratch0
abbrev scM0_1 : Memref sig .tc .vmem S256x1024 .f32 := Memref.whole cc0_scratch1

/-- The core's scoped buffers that are neither a staging buffer of this region nor its scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region invariant before position `n`: before the first point every scoped buffer at anything; afterwards the two
    accumulators at what the point before left, the other scoped buffers at anything; the generator register at some state. -/
def PhiS (c : Dev nD) : (n : ℕ) → n ≤ cfg0.N → sProp 𝕄
  | 0, _ => Pipeline.ΦA spec0 c
  | n + 1, hn => iprop(iprop(owns (c : Thread nD τ) scM0_0 fullShare ((acc0 V c n hn).1) ∗ owns (c : Thread nD τ) scM0_1 fullShare ((acc0 V c n hn).2) ∗ rest0 (F := F) c) ∗ (∃ r, prngReg c r))

/-- The proof data of pipeline 0 on core `c`: the arrays as the region finds them; after the body at point `t` each input's
    buffer at its block and each output's at the accumulator plus its column bias, split by head (what the last tile stores;
    at the other tiles the output windows are idle and this value is not consulted); the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => k0_pay3 (acc0 V c t.val t.isLt).1 (iblk0 V c 7 t)
    | ⟨10, _⟩ => k0_pay4 (acc0 V c t.val t.isLt).2 (iblk0 V c 8 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = k0_pay3 (acc0 V c t.val t.isLt).1 (iblk0 V c 7 t) := by dsimp only [dat0]
theorem after0_10 (c : Dev nD) (t : Fin cfg0.N) : (dat0 V c).after 10 t = k0_pay4 (acc0 V c t.val t.isLt).2 (iblk0 V c 8 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]

/-! ## The inputs' buffers hold their blocks at every point -/

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input window 4's current staging buffer holds its block at every point, fetched there or not. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input window 5's current staging buffer holds its block at every point, fetched there or not. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
/-- Input window 6's current staging buffer holds its block at every point, fetched there or not. -/
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
/-- Input window 7's current staging buffer holds its block at every point, fetched there or not. -/
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
/-- Input window 8's current staging buffer holds its block at every point, fetched there or not. -/
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)

/-! ## Where the windows are idle, and where the outputs are written back -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Away from the last tile of a batch output 9 is idle: the body stores nothing into it. -/
theorem idleAt0_9 : ∀ t : Fin cfg0.N, ¬t.val % 4 = 3 → cfg0.idle 9 (grid0.coords t) = true :=
  (by decide +kernel : ∀ t : Fin grid0.N, ¬t.val % 4 = 3 → idle0 9 (grid0.coords t) = true)
/-- Away from the last tile of a batch output 10 is idle. -/
theorem idleAt0_10 : ∀ t : Fin cfg0.N, ¬t.val % 4 = 3 → cfg0.idle 10 (grid0.coords t) = true :=
  (by decide +kernel : ∀ t : Fin grid0.N, ¬t.val % 4 = 3 → idle0 10 (grid0.coords t) = true)
/-- At the last tile of a batch output 9 is live: the body stores all of it. -/
theorem liveAt0_9 : ∀ t : Fin cfg0.N, t.val % 4 = 3 → cfg0.idle 9 (grid0.coords t) = false :=
  (by decide +kernel : ∀ t : Fin grid0.N, t.val % 4 = 3 → idle0 9 (grid0.coords t) = false)
/-- At the last tile of a batch output 10 is live. -/
theorem liveAt0_10 : ∀ t : Fin cfg0.N, t.val % 4 = 3 → cfg0.idle 10 (grid0.coords t) = false :=
  (by decide +kernel : ∀ t : Fin grid0.N, t.val % 4 = 3 → idle0 10 (grid0.coords t) = false)
/-- Away from the last tile of a batch output 9's block is not written back. -/
theorem noFlush0_9 (t : Fin cfg0.N) (h : ¬t.val % 4 = 3) : (cfg0.win 9).flush t = false :=
  Bool.eq_false_iff.mpr fun hf => h ((flush0_9 t).mp hf)
/-- Away from the last tile of a batch output 10's block is not written back. -/
theorem noFlush0_10 (t : Fin cfg0.N) (h : ¬t.val % 4 = 3) : (cfg0.win 10).flush t = false :=
  Bool.eq_false_iff.mpr fun hf => h ((flush0_10 t).mp hf)

/-! ## The invariant, position by position -/

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(owns (c : Thread nD τ) scM0_0 fullShare ((acc0 V c n hn).1) ∗ owns (c : Thread nD τ) scM0_1 fullShare ((acc0 V c n hn).2) ∗ rest0 (F := F) c) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(owns (c : Thread nD τ) scM0_0 fullShare ((acc0 V c (n - 1) (by omega)).1) ∗ owns (c : Thread nD τ) scM0_1 fullShare ((acc0 V c (n - 1) (by omega)).2) ∗ rest0 (F := F) c) ∗ (∃ r, prngReg c r)) := by
  cases n with
  | zero => exact absurd rfl hz
  | succ n => rfl

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- The launch's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## The body obligation, at a generic point -/

/-- Each window's current staging memref at point `t`, spelled as the pipeline passes it, and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x256x64 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16x256x64 .bf16 := win0_10.stage (cfg0.slots t 10)
abbrev hs0_10 (t : Fin cfg0.N) : (ms0_10 t).IsWhole := hstage0_10 ((cfg0.slots t 10).cast nbuf0_10)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 4000000 in
/-- The body at any point: the inputs' buffers hold their blocks; the point's tile says which of the three cases it is in;
    the invariant hands the body the accumulators (at anything at the very first point, else at what the point before
    left) and takes them back at this point's contents; the outputs' buffers come back untouched away from the last
    tile and stored whole at it; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS V c (t.val + 1) t.isLt from rfl, PhiS_succ]
  by_cases h0 : t.val % 4 = 0
  · by_cases h3 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t h3) (noFlush0_9 t h3)]
      rw [Dat.leavesExact_idle (dat0 V c) 10 t (idleAt0_10 t h3) (noFlush0_10 t h3)]
      rw [acc0_first V c t h0]
      (try dsimp only)
      by_cases hz : t.val = 0
      · rw [PhiS_castSucc V c t, PhiS_zero V c _ _ hz, PhiA0_eq]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run0_A c (grid0.coords t) ((hcond0_0 t).mpr h0) (fun h => h3 ((hcond0_1 t).mp h)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        iintro ⟨H0, H1, H2, H3, H4, H5, H6, H7, H8, H9, H10, HS0, HS1⟩
        isplitl [HS0 HS1 Hr Hg]
        · isplitr [Hg]
          · isplitl [HS0]; · iexact HS0
            isplitl [HS1]; · iexact HS1
            iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        iexists _; iexact H10
      · rw [PhiS_castSucc V c t, PhiS_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run0_A c (grid0.coords t) ((hcond0_0 t).mpr h0) (fun h => h3 ((hcond0_1 t).mp h)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        iintro ⟨H0, H1, H2, H3, H4, H5, H6, H7, H8, H9, H10, HS0, HS1⟩
        isplitl [HS0 HS1 Hr Hg]
        · isplitr [Hg]
          · isplitl [HS0]; · iexact HS0
            isplitl [HS1]; · iexact HS1
            iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        iexists _; iexact H10
  · have hz : t.val ≠ 0 := fun hz => h0 (by rw [hz])
    by_cases h3 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t h3], after0_9]
      rw [show (dat0 V c).leavesExact 10 t = owns (c : Thread nD τ) (ms0_10 t) fullShare ((dat0 V c).after 10 t) from by
        unfold Dat.leavesExact; rw [liveAt0_10 t h3], after0_10]
      rw [acc0_next V c t h0]
      (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run0_C c (grid0.coords t) (fun h => h0 ((hcond0_0 t).mp h)) ((hcond0_1 t).mpr h3) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hr Hg]
      · isplitr [Hg]
        · isplitl [HS0]; · iexact HS0
          isplitl [HS1]; · iexact HS1
          iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t h3) (noFlush0_9 t h3)]
      rw [Dat.leavesExact_idle (dat0 V c) 10 t (idleAt0_10 t h3) (noFlush0_10 t h3)]
      rw [acc0_next V c t h0]
      (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run0_B c (grid0.coords t) (fun h => h0 ((hcond0_0 t).mp h)) (fun h => h3 ((hcond0_1 t).mp h)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hr Hg]
      · isplitr [Hg]
        · isplitl [HS0]; · iexact HS0
          isplitl [HS1]; · iexact HS1
          iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem body_obligation0 (c : Dev nD) : BodyObligation (dat0 (F := F) V c) (defs₀ (F := F)) Variants.none () Set.univ := by
  intro t
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives the launch's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitr [Hg]
  · isplitl [HS0]; · iexists _; iexact HS0
    isplitl [HS1]; · iexists _; iexact HS1
    iexact Hr
  · iexact Hg

/-- After the last point the invariant gives the scoped rest back: the accumulators' contents are forgotten. -/
theorem hout0 (c : Dev nD) : (dat0 V c).Φ (Fin.last cfg0.N) ⊢ Pipeline.ΦA spec0 c :=
  Phi_out0 V c _ (by rw [Fin.val_last]; have : cfg0.N = 16 := N_0; omega)

end

end Cert.Kernel.Hand

end
-- ==== Proof.K.R1Dat.lean ====
/- Region 1 of the program, the attention-and-output-projection kernel on a 4 x 8 grid, at the buffer contents
   the region is entered with: each window's block at a grid point, what the body leaves in the output window's
   staging buffer as a function of the seven input blocks, the body's triple, the pipeline's proof data and its
   body obligation. The body reads its seven input windows whole and writes its output window whole, so what it
   leaves is the payload of the blocks themselves. -/
import proofs.«430223_j86457691669062_3_alg».proof.Proof.Gen.Kernel.Launch
import proofs.«430223_j86457691669062_3_alg».proof.Proof.Gen.Kernel.Skeleton
import proofs.«430223_j86457691669062_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's rectangles: each whole buffer, at zero offsets -/

/-- The zero offsets of a rank-2, rank-3 and rank-4 buffer, however spelt. -/
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The whole [1, 256, 1024] buffer (the activations' block and the output's). -/
abbrev rAct : Rect S1x256x1024 := Rect.unit (s := S1x256x1024) ![0, 0, 0] S1x256x1024.size inb_S1x256x1024_S1x256x1024_0_0_0
/-- The whole [1024, 1024] buffer (a projection's weights). -/
abbrev rWgt : Rect S1024x1024 := Rect.unit (s := S1024x1024) ![0, 0] S1024x1024.size inb_S1024x1024_S1024x1024_0_0
/-- The whole [1, 1024] buffer (a projection's bias). -/
abbrev rBias : Rect S1x1024 := Rect.unit (s := S1x1024) ![0, 0] S1x1024.size inb_S1x1024_S1x1024_0_0
/-- The whole [1, 16, 256, 64] buffer (the compressed keys and values of one batch element, head by head). -/
abbrev rKV : Rect S1x16x256x64 := Rect.unit (s := S1x16x256x64) ![0, 0, 0, 0] S1x16x256x64.size inb_S1x16x256x64_S1x16x256x64_0_0_0_0

/-! ## What the body leaves in the output window's buffer -/

/-- What the body leaves in the output window's staging buffer, from the seven input blocks: its one store, of the
    output projection (`k1_pay1`) of the attention (`k1_pay2`) of the blocks read through the whole-buffer
    rectangles. -/
def out1_7 (x0 : Vec F S1x256x1024 .f32) (x1 : Vec F S1024x1024 .bf16) (x2 : Vec F S1x1024 .f32) (x3 x4 : Vec F S1x16x256x64 .bf16)
    (x5 : Vec F S1024x1024 .bf16) (x6 : Vec F S1x1024 .f32) : Vec F S1x256x1024 .f32 :=
  View.canon [⟨rAct, k1_pay1 (k1_pay2 (View.ld x0 rAct) (View.ld x1 rWgt) (View.ld x2 rBias) (View.ld x3 rKV) (View.ld x4 rKV) (View.ld x5 rWgt)) (View.ld x6 rBias)⟩]

/-- The same with the whole-buffer reads and the one-piece canon removed: the payload of the blocks themselves. -/
theorem out1_7_eq (x0 : Vec F S1x256x1024 .f32) (x1 : Vec F S1024x1024 .bf16) (x2 : Vec F S1x1024 .f32) (x3 x4 : Vec F S1x16x256x64 .bf16)
    (x5 : Vec F S1024x1024 .bf16) (x6 : Vec F S1x1024 .f32) :
    out1_7 x0 x1 x2 x3 x4 x5 x6 = k1_pay1 (k1_pay2 x0 x1 x2 x3 x4 x5) x6 := by
  unfold out1_7
  rw [View.canon_unit_zero zeros3]
  simp only [View.ld_unit_zero (S := S1x256x1024) zeros3, View.ld_unit_zero (S := S1024x1024) zeros2,
    View.ld_unit_zero (S := S1x1024) zeros2, View.ld_unit_zero (S := S1x16x256x64) zeros4]

/-- The one store covers the output buffer: its rectangle is the whole of it. -/
theorem cover1_7 (p0 : Vec F S1x256x1024 .f32) (y : S1x256x1024.Idx) :
    ∃ pc ∈ ([⟨rAct, p0⟩] : List (View.Piece (Elt F) S1x256x1024 .f32)), y ∈ pc.1.set :=
  ⟨_, List.mem_singleton_self _, View.mem_set_unit_zero zeros3 inb_S1x256x1024_S1x256x1024_0_0_0 y⟩

/-! ## The body's triple -/

set_option maxHeartbeats 1000000 in
/-- The kernel body on whole staging memrefs, the seven inputs' at read contents `x0 … x6` and the output's at
    anything, runs to the continuation holding the inputs' as they were and the output's at `out1_7` of them. -/
theorem sound_kernel1 (c : Dev nD) (E : Set ℕ)
    (arg2 : Memref sig .tc .vmem S1x256x1024 .f32) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1x16x256x64 .bf16) (harg5 : arg5.IsWhole)
    (arg6 : Memref sig .tc .vmem S1x16x256x64 .bf16) (harg6 : arg6.IsWhole)
    (arg7 : Memref sig .tc .vmem S1024x1024 .bf16) (harg7 : arg7.IsWhole)
    (arg8 : Memref sig .tc .vmem S1x1024 .f32) (harg8 : arg8.IsWhole)
    (arg9 : Memref sig .tc .vmem S1x256x1024 .f32) (harg9 : arg9.IsWhole)
    (i : grid1.Coords)
    (x0 : Vec F S1x256x1024 .f32) (x1 : Vec F S1024x1024 .bf16) (x2 : Vec F S1x1024 .f32) (x3 x4 : Vec F S1x16x256x64 .bf16)
    (x5 : Vec F S1024x1024 .bf16) (x6 : Vec F S1x1024 .f32)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ (∃ d, owns (c : Thread nD τ) arg9 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare (out1_7 x0 x1 x2 x3 x4 x5 x6)) -∗ K ⟨⟩))
      ⊢ wp frame (wpE (defs₀ (F := F)) Variants.none c none) E (cc1__attn_o_kernel i arg2 harg2 arg3 harg3 arg4 harg4 arg5 harg5 arg6 harg6 arg7 harg7 arg8 harg8 arg9 harg9) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

section
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the window was fetched
    there (unfetched, its block index has not moved), for any proof data whose array is the entry contents and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the window was fetched
    there (unfetched, its block index has not moved), for any proof data whose array is the entry contents and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the window was fetched
    there (unfetched, its block index has not moved), for any proof data whose array is the entry contents and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the window was fetched
    there (unfetched, its block index has not moved), for any proof data whose array is the entry contents and whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the window was fetched
    there (unfetched, its block index has not moved), for any proof data whose array is the entry contents and whose
    body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not the window was fetched
    there (unfetched, its block index has not moved), for any proof data whose array is the entry contents and whose
    body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether or not the window was fetched
    there (unfetched, its block index has not moved), for any proof data whose array is the entry contents and whose
    body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them; after the body at point `t` each
    input's buffer at its block and the output's at `out1_7` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ (grid1.coords t) (iblk1 V c 0 t) (iblk1 V c 1 t) (iblk1 V c 2 t) (iblk1 V c 3 t)
    (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
import proofs.«430223_j86457691669062_3_alg».proof.Proof.K.R0Dat
import proofs.«430223_j86457691669062_3_alg».proof.Proof.K.R1Dat
import proofs.«430223_j86457691669062_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run: @main as a host stretch and two kernel regions, from the launch to the return

The buffer contents at each boundary are a fold through @main: the launch memory; after the host stretch
(`StableHlo.after`); after region 0, its arrays at what its write-backs leave; after region 1 likewise. Each region
is entered from "every unscoped buffer at the boundary's contents" and left at the next boundary's. The launch then
says every weakly fair execution ends with every unscoped buffer at the last boundary's contents, from which the frame
(the arguments as launched) and the result's contents are read. -/

variable (m : (ℓ : Loc nD τ sig) → Buf (Elt F) ℓ)

/-- Core `c`'s buffers at launch, -/
abbrev W0 : Dev nD → Valuation τ sig (Elt F) := fun c b => m (c, b)
/-- after the host stretch (region 0's entry), -/
abbrev W1 : Dev nD → Valuation τ sig (Elt F) := fun c => StableHlo.after hostOps0 (W0 m c)
/-- the same read at the TensorCore's references. -/
abbrev U1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-! ## The arguments end as launched -/

/-- `main_arg0` ends as launched: no host operation writes it and no region changes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (U2 m) c).arrAt_in 0 rfl _).trans (A_eq1 (U2 m) c 0))
    _ = W1 m c (Proc.devRef .tc main_arg0) := W2_of_ne m c main_arg0 (by decide)
    _ = m ((c : Thread nD τ).loc main_arg0) := Gen.V1_of m c main_arg0 (by decide)

/-- `main_arg1` ends as launched: no host operation writes it and no region changes it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (U1 m) c).arrAt_in 0 rfl _).trans (A_eq0 (U1 m) c 0))
    _ = m ((c : Thread nD τ).loc main_arg1) := Gen.V1_of m c main_arg1 (by decide)

/-- `main_arg2` ends as launched: no host operation writes it and no region changes it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := Gen.V1_of m c main_arg2 (by decide)

/-- `main_arg3` ends as launched: no host operation writes it and no region changes it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)

/-- `main_arg4` ends as launched: no host operation writes it and no region changes it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := Gen.V1_of m c main_arg4 (by decide)

/-- `main_arg5` ends as launched: no host operation writes it and no region changes it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := Gen.V1_of m c main_arg5 (by decide)

/-- `main_arg6` ends as launched: no host operation writes it and no region changes it. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = m ((c : Thread nD τ).loc main_arg6) := Gen.V1_of m c main_arg6 (by decide)

/-- `main_arg7` ends as launched: no host operation writes it and no region changes it. -/
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = m ((c : Thread nD τ).loc main_arg7) := Gen.V1_of m c main_arg7 (by decide)

/-- `main_arg8` ends as launched: no host operation writes it and no region changes it. -/
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := W2_of_ne m c main_arg8 (by decide)
    _ = m ((c : Thread nD τ).loc main_arg8) := Gen.V1_of m c main_arg8 (by decide)

/-- `main_arg9` ends as launched: no host operation writes it and no region changes it. -/
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = m ((c : Thread nD τ).loc main_arg9) := Gen.V1_of m c main_arg9 (by decide)

/-- `main_arg10` ends as launched: no host operation writes it and no region changes it. -/
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := W2_of_ne m c main_arg10 (by decide)
    _ = m ((c : Thread nD τ).loc main_arg10) := Gen.V1_of m c main_arg10 (by decide)

/-- `main_arg11` ends as launched: no host operation writes it and no region changes it. -/
theorem W3_main_arg11 (c : Dev nD) : W3 m c (Proc.devRef .tc main_arg11) = m ((c : Thread nD τ).loc main_arg11) :=
  calc W3 m c (Proc.devRef .tc main_arg11)
    _ = W2 m c (Proc.devRef .tc main_arg11) := W3_of_ne m c main_arg11 (by decide)
    _ = W1 m c (Proc.devRef .tc main_arg11) := W2_of_ne m c main_arg11 (by decide)
    _ = m ((c : Thread nD τ).loc main_arg11) := Gen.V1_of m c main_arg11 (by decide)

/-- `main_arg12` ends as launched: no host operation writes it and no region changes it. -/
theorem W3_main_arg12 (c : Dev nD) : W3 m c (Proc.devRef .tc main_arg12) = m ((c : Thread nD τ).loc main_arg12) :=
  calc W3 m c (Proc.devRef .tc main_arg12)
    _ = W2 m c (Proc.devRef .tc main_arg12) := W3_of_ne m c main_arg12 (by decide)
    _ = W1 m c (Proc.devRef .tc main_arg12) := W2_of_ne m c main_arg12 (by decide)
    _ = m ((c : Thread nD τ).loc main_arg12) := Gen.V1_of m c main_arg12 (by decide)

/-- `main_arg13` ends as launched: no host operation writes it and no region changes it. -/
theorem W3_main_arg13 (c : Dev nD) : W3 m c (Proc.devRef .tc main_arg13) = m ((c : Thread nD τ).loc main_arg13) :=
  calc W3 m c (Proc.devRef .tc main_arg13)
    _ = W2 m c (Proc.devRef .tc main_arg13) := W3_of_ne m c main_arg13 (by decide)
    _ = W1 m c (Proc.devRef .tc main_arg13) := W2_of_ne m c main_arg13 (by decide)
    _ = m ((c : Thread nD τ).loc main_arg13) := Gen.V1_of m c main_arg13 (by decide)

/-! ## The proof data family and the thread state -/

/-- No pipeline has a prefetched table. -/
abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (U1 m) c
  | ⟨1, _⟩ => fun c => dat1 (U2 m) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- The host stretch as a segment. -/
abbrev hseg0 : Pipeline.HostSeg (Name := ℕ) (U := UR sig nD τ) (pcfgs (F := F)) defs₀ 𝒱₀ Lz lvz :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) Rr
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0: entered from every unscoped buffer at `W1`, left at `W2`. Its arrays are split out of the unscoped buffers
    and put back at the exit contents; the scoped rest and the generator register go into the region's invariant, which
    carries the two accumulators from point to point, and come back; nothing is owed. -/
def reg0 : Pipeline.RegionSeg (pcfgs (F := F)) padm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ B : sProp 𝕄, iprop((∃ r, prngReg c r) ∗ B ∗ Pipeline.scopedRest spec0 c) ⊢ (Pipeline.ΦA spec0 c : sProp 𝕄) := fun B => by
      unfold Pipeline.ΦA
      iintro ⟨Hp, -, Hr⟩
      isplitl [Hr]; · iexact Hr
      iexact Hp
    exact (h1 _).trans (hin0 (U1 m) c)
  hout c := by
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    rw [Pipeline.ownSems0_none]
    exact (hout0 (U1 m) c).trans h2
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`; its invariant is the scoped rest and the generator
    register, untouched. -/
def reg1 : Pipeline.RegionSeg (pcfgs (F := F)) padm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ Lz lvz 1 fun _ _ => rfl
  pre c := iprop(StableHlo.held (c : Thread nD τ) (Pipeline.ucRefs τ sig) (W2 m c) ∗ Rr c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev rsegs : List (Pipeline.Seg (pcfgs (F := F)) padm (pdats m) () defs₀ 𝒱₀ Lz lvz) :=
  [ .host (hseg0 m), .region (reg0 m), .region (reg1 m) ]
/-- @main is the run of the segments. -/
theorem main_run (c : Dev nD) : main (F := F) c = Pipeline.Seg.run (rsegs m) := (main_chain c).trans (by chain_rfl)

variable (ρ : Dev nD → PrngReg)

set_option backward.isDefEq.respectTransparency.types false in
/-- From any memory with zero counters every weakly fair execution of @main terminates, nothing faulting, and every final
    state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) padm (pdats m) () cellOf_inj emb₁ defs₀ 𝒱₀ Lz lvz m ρ main (rsegs m)
    (fun c Q => by rw [main_run m c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tlast m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c),
      (h c _ (mem_uc main_arg11 (by decide))).trans (W3_main_arg11 m c),
      (h c _ (mem_uc main_arg12 (by decide))).trans (W3_main_arg12 m c),
      (h c _ (mem_uc main_arg13 (by decide))).trans (W3_main_arg13 m c)⟩) (run_all m ρ)

/-- The run with the result named: it ends at what region 1's write-backs leave in its output array, the arguments as
    launched. -/
theorem run_result : θ_run defs (onTc (τ := τ) (main (F := F))) ⟨m, fun _ => 0, ρ⟩ (fun r => ∀ c : Dev nD,
      r.2.mem ((c.tc : Thread nD τ).loc main_v17) = (dat1 (U2 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v17 (by decide))).trans (W3_arr m c 7),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c),
      (h c _ (mem_uc main_arg11 (by decide))).trans (W3_main_arg11 m c),
      (h c _ (mem_uc main_arg12 (by decide))).trans (W3_main_arg12 m c),
      (h c _ (mem_uc main_arg13 (by decide))).trans (W3_main_arg13 m c)⟩) (run_all m ρ)

end Cert.Kernel.Hand

end
-- ==== Proof.KI.R0Body.lean ====
import proofs.«430223_j86457691669062_3_alg».proof.Proof.Gen.KernelIdeal.Launch
import proofs.«430223_j86457691669062_3_alg».proof.Proof.Gen.KernelIdeal.Skeleton
import proofs.«430223_j86457691669062_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the body of the fused K/V projection and sequence projection, case by case

The grid is (batch, row tile). At every point the body adds one row tile's contribution to two accumulators kept in
scratch, `Eᵀ·(x·Wk + bk)` and `Fᵀ·(x·Wv + bv)` restricted to the tile's 512 rows; at the first tile of a batch it
first resets both to zero, and at the last tile it adds the column biases and writes both, split by head, to the outputs. -/

/-- The first conditional's guard (the tile index is zero), from the grid coordinates. -/
abbrev cond0_0 (i : grid0.Coords) : Prop := (Scalar.cmpi .ne (Scalar.extui (Scalar.cmpi .eq (BitVec.ofNat 32 (i 1).val) 0#32)) 0#32) = 1#1
/-- The second conditional's guard (the tile index is the last). -/
abbrev cond0_1 (i : grid0.Coords) : Prop := k0_cond2 i = 1#1

/-- The first guard holds at the first tile of each batch. -/
theorem hcond0_0 : ∀ t : Fin cfg0.N, cond0_0 (grid0.coords t) ↔ t.val % 4 = 0 :=
  (by decide +kernel : ∀ t : Fin grid0.N, cond0_0 (grid0.coords t) ↔ t.val % 4 = 0)
/-- The second guard holds at the last tile of each batch. -/
theorem hcond0_1 : ∀ t : Fin cfg0.N, cond0_1 (grid0.coords t) ↔ t.val % 4 = 3 :=
  (by decide +kernel : ∀ t : Fin grid0.N, cond0_1 (grid0.coords t) ↔ t.val % 4 = 3)

/-- The 512 rows of a resident (2048, 256) operand that the point's tile reads. -/
def tile0 (i : grid0.Coords) (x : Vec F S2048x256 .bf16) : Vec F S512x256 .bf16 :=
  View.ld x (Rect.unit (s := S2048x256) (k0_off1 i) S512x256.size (k0_off1_inb i))

/-- One tile's update of the key accumulator: `acc + Eₜᵀ·(x·Wk + bk)`. -/
def kstep (x : Vec F S1x512x1024 .f32) (wk : Vec F S1024x1024 .bf16) (bk : Vec F S1x1024 .f32) (et : Vec F S512x256 .bf16)
    (acc : Vec F S256x1024 .f32) : Vec F S256x1024 .f32 := k0_pay1 (k0_pay10 x wk bk et acc)
/-- One tile's update of the value accumulator: `acc + Fₜᵀ·(x·Wv + bv)`. -/
def vstep (x : Vec F S1x512x1024 .f32) (wv : Vec F S1024x1024 .bf16) (bv : Vec F S1x1024 .f32) (ft : Vec F S512x256 .bf16)
    (acc : Vec F S256x1024 .f32) : Vec F S256x1024 .f32 := k0_pay2 (k0_pay8 x wv bv) (k0_pay9 ft) acc

/-- Zero offsets, however spelt, are the zero function. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A buffer after ONE store through its whole-shape rectangle reads as the payload, whatever it held. -/
theorem read_writes_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-- A buffer whose LAST store went through its whole-shape rectangle reads as that store's payload, whatever the
    earlier stores were. -/
theorem read_writes_cons_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons.2 (Or.inl rfl), View.mem_set_unit_zero h inb y⟩)).trans
    (View.canon_cons_unit_zero h inb w L)

set_option maxHeartbeats 4000000 in
/-- First tile of a batch: both accumulators are reset, then updated; the outputs are not touched. -/
theorem run0_A (c : Dev nD) (i : grid0.Coords) (hc0 : cond0_0 i) (hc1 : ¬cond0_1 i) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S256x1 .f32) (harg9 : arg9.IsWhole) (arg10 : Memref sig .tc .vmem S256x1 .f32) (harg10 : arg10.IsWhole) (arg11 : Memref sig .tc .vmem S1x16x256x64 .bf16) (harg11 : arg11.IsWhole) (arg12 : Memref sig .tc .vmem S1x16x256x64 .bf16) (harg12 : arg12.IsWhole) (arg13 : Memref sig .tc .vmem S256x1024 .f32) (harg13 : arg13.IsWhole) (arg14 : Memref sig .tc .vmem S256x1024 .f32) (harg14 : arg14.IsWhole)
    (x0 : Vec F S1x512x1024 .f32) (x1 : Vec F S1024x1024 .bf16) (x2 : Vec F S1x1024 .f32) (x3 : Vec F S1024x1024 .bf16) (x4 : Vec F S1x1024 .f32) (x5 x6 : Vec F S2048x256 .bf16) (x7 x8 : Vec F S256x1 .f32) (xo9 xo10 : Vec F S1x16x256x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ owns (c : Thread nD τ) arg12 fullShare xo10
        ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ owns (c : Thread nD τ) arg12 fullShare xo10
            ∗ owns (c : Thread nD τ) arg13 fullShare (kstep x0 x1 x2 (tile0 i x5) (k0_pay5 (F := F))) ∗ owns (c : Thread nD τ) arg14 fullShare (vstep x0 x3 x4 (tile0 i x6) (k0_pay6 (F := F)))) -∗ K ⟨⟩))
      ⊢ wp frame (wpE (defs₀ (F := F)) Variants.none c none) E (cc0__kv_ef_kernel i arg2 harg2 arg3 harg3 arg4 harg4 arg5 harg5 arg6 harg6 arg7 harg7 arg8 harg8 arg9 harg9 arg10 harg10 arg11 harg11 arg12 harg12 arg13 harg13 arg14 harg14) K := by
  simp only [cc0__kv_ef_kernel_eq_skeleton]; unfold cc0__kv_ef_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds13, %fs13, -, HS13⟩, ⟨%ds14, %fs14, -, HS14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS13]
  · iexists _; isplitr
    swap; · iexact HS13
    ipureintro
    refine (read_writes_cons_unit_zero _ _ hz2 _ _ _).trans ?_
    dsimp only
    unfold kstep tile0
    sl_unfold_words
    simp only [View.readAt_eq_ld, harg2.read_unread, harg3.read_unread, harg4.read_unread, harg5.read_unread, harg6.read_unread, harg7.read_unread, harg8.read_unread, harg9.read_unread, harg10.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]
  iexists _; isplitr
  swap; · iexact HS14
  ipureintro
  refine (read_writes_cons_unit_zero _ _ hz2 _ _ _).trans ?_
  dsimp only
  unfold vstep tile0
  sl_unfold_words
  simp only [View.readAt_eq_ld, harg2.read_unread, harg3.read_unread, harg4.read_unread, harg5.read_unread, harg6.read_unread, harg7.read_unread, harg8.read_unread, harg9.read_unread, harg10.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]

set_option maxHeartbeats 4000000 in
/-- A middle tile: both accumulators are updated from what the tile before left; the outputs are not touched. -/
theorem run0_B (c : Dev nD) (i : grid0.Coords) (hc0 : ¬cond0_0 i) (hc1 : ¬cond0_1 i) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S256x1 .f32) (harg9 : arg9.IsWhole) (arg10 : Memref sig .tc .vmem S256x1 .f32) (harg10 : arg10.IsWhole) (arg11 : Memref sig .tc .vmem S1x16x256x64 .bf16) (harg11 : arg11.IsWhole) (arg12 : Memref sig .tc .vmem S1x16x256x64 .bf16) (harg12 : arg12.IsWhole) (arg13 : Memref sig .tc .vmem S256x1024 .f32) (harg13 : arg13.IsWhole) (arg14 : Memref sig .tc .vmem S256x1024 .f32) (harg14 : arg14.IsWhole)
    (x0 : Vec F S1x512x1024 .f32) (x1 : Vec F S1024x1024 .bf16) (x2 : Vec F S1x1024 .f32) (x3 : Vec F S1024x1024 .bf16) (x4 : Vec F S1x1024 .f32) (x5 x6 : Vec F S2048x256 .bf16) (x7 x8 : Vec F S256x1 .f32) (xo9 xo10 : Vec F S1x16x256x64 .bf16) (xs13 xs14 : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ owns (c : Thread nD τ) arg12 fullShare xo10
        ∗ owns (c : Thread nD τ) arg13 fullShare xs13 ∗ owns (c : Thread nD τ) arg14 fullShare xs14
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9 ∗ owns (c : Thread nD τ) arg12 fullShare xo10
            ∗ owns (c : Thread nD τ) arg13 fullShare (kstep x0 x1 x2 (tile0 i x5) xs13) ∗ owns (c : Thread nD τ) arg14 fullShare (vstep x0 x3 x4 (tile0 i x6) xs14)) -∗ K ⟨⟩))
      ⊢ wp frame (wpE (defs₀ (F := F)) Variants.none c none) E (cc0__kv_ef_kernel i arg2 harg2 arg3 harg3 arg4 harg4 arg5 harg5 arg6 harg6 arg7 harg7 arg8 harg8 arg9 harg9 arg10 harg10 arg11 harg11 arg12 harg12 arg13 harg13 arg14 harg14) K := by
  simp only [cc0__kv_ef_kernel_eq_skeleton]; unfold cc0__kv_ef_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs13, %hfs13, HS13⟩, ⟨%fs14, %hfs14, HS14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs13; obtain rfl := harg14.eq_unread hfs14
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS13]
  · iexists _; isplitr
    swap; · iexact HS13
    ipureintro
    refine (read_writes_unit_zero _ _ hz2 _ _).trans ?_
    dsimp only
    unfold kstep tile0
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2]
  iexists _; isplitr
  swap; · iexact HS14
  ipureintro
  refine (read_writes_unit_zero _ _ hz2 _ _).trans ?_
  dsimp only
  unfold vstep tile0
  simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2]

set_option maxHeartbeats 4000000 in
/-- Last tile of a batch: both accumulators are updated, and each, with its column bias added, is written split by head. -/
theorem run0_C (c : Dev nD) (i : grid0.Coords) (hc0 : ¬cond0_0 i) (hc1 : cond0_1 i) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S256x1 .f32) (harg9 : arg9.IsWhole) (arg10 : Memref sig .tc .vmem S256x1 .f32) (harg10 : arg10.IsWhole) (arg11 : Memref sig .tc .vmem S1x16x256x64 .bf16) (harg11 : arg11.IsWhole) (arg12 : Memref sig .tc .vmem S1x16x256x64 .bf16) (harg12 : arg12.IsWhole) (arg13 : Memref sig .tc .vmem S256x1024 .f32) (harg13 : arg13.IsWhole) (arg14 : Memref sig .tc .vmem S256x1024 .f32) (harg14 : arg14.IsWhole)
    (x0 : Vec F S1x512x1024 .f32) (x1 : Vec F S1024x1024 .bf16) (x2 : Vec F S1x1024 .f32) (x3 : Vec F S1024x1024 .bf16) (x4 : Vec F S1x1024 .f32) (x5 x6 : Vec F S2048x256 .bf16) (x7 x8 : Vec F S256x1 .f32) (xs13 xs14 : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
        ∗ owns (c : Thread nD τ) arg13 fullShare xs13 ∗ owns (c : Thread nD τ) arg14 fullShare xs14
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay3 (kstep x0 x1 x2 (tile0 i x5) xs13) x7) ∗ owns (c : Thread nD τ) arg12 fullShare (k0_pay4 (vstep x0 x3 x4 (tile0 i x6) xs14) x8)
            ∗ owns (c : Thread nD τ) arg13 fullShare (kstep x0 x1 x2 (tile0 i x5) xs13) ∗ owns (c : Thread nD τ) arg14 fullShare (vstep x0 x3 x4 (tile0 i x6) xs14)) -∗ K ⟨⟩))
      ⊢ wp frame (wpE (defs₀ (F := F)) Variants.none c none) E (cc0__kv_ef_kernel i arg2 harg2 arg3 harg3 arg4 harg4 arg5 harg5 arg6 harg6 arg7 harg7 arg8 harg8 arg9 harg9 arg10 harg10 arg11 harg11 arg12 harg12 arg13 harg13 arg14 harg14) K := by
  simp only [cc0__kv_ef_kernel_eq_skeleton]; unfold cc0__kv_ef_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs13, %hfs13, HS13⟩, ⟨%fs14, %hfs14, HS14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs13; obtain rfl := harg14.eq_unread hfs14
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    refine (read_writes_unit_zero _ _ hz4 _ _).trans ?_
    unfold kstep tile0
    sl_unfold_words
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]
  isplitl [H10]
  · iexists _; isplitr
    swap; · iexact H10
    ipureintro
    refine (read_writes_unit_zero _ _ hz4 _ _).trans ?_
    unfold vstep tile0
    sl_unfold_words
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]
  isplitl [HS13]
  · iexists _; isplitr
    swap; · iexact HS13
    ipureintro
    unfold kstep tile0
    sl_unfold_words
    refine (read_writes_unit_zero _ _ hz2 _ _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]
  iexists _; isplitr
  swap; · iexact HS14
  ipureintro
  unfold vstep tile0
  sl_unfold_words
  refine (read_writes_unit_zero _ _ hz2 _ _).trans ?_
  simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1x512x1024) hz3, View.ld_unit_zero (S := S1024x1024) hz2, View.ld_unit_zero (S := S1x1024) hz2, View.ld_unit_zero (S := S256x1024) hz2, View.ld_unit_zero (S := S256x1) hz2, View.readCov_unit_zero (S := S256x1024) _ hz2]

end Cert.KernelIdeal.Hand

end
-- ==== Proof.KI.R0Dat.lean ====
import proofs.«430223_j86457691669062_3_alg».proof.Proof.KI.R0Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: what the accumulators and the outputs hold point by point, and the pipeline's proof data

At a PARAMETER `V`: the TensorCore's buffer contents when the region is entered. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two accumulators after the body at position `n`: at the first tile of a batch one update of zero, at every later
    tile one update of what the tile before left. -/
def acc0 (c : Dev nD) : (n : ℕ) → n < cfg0.N → Vec F S256x1024 .f32 × Vec F S256x1024 .f32
  | 0, hn => (kstep (iblk0 V c 0 ⟨0, hn⟩) (iblk0 V c 1 ⟨0, hn⟩) (iblk0 V c 2 ⟨0, hn⟩) (tile0 (grid0.coords ⟨0, hn⟩) (iblk0 V c 5 ⟨0, hn⟩)) (k0_pay5 (F := F)), vstep (iblk0 V c 0 ⟨0, hn⟩) (iblk0 V c 3 ⟨0, hn⟩) (iblk0 V c 4 ⟨0, hn⟩) (tile0 (grid0.coords ⟨0, hn⟩) (iblk0 V c 6 ⟨0, hn⟩)) (k0_pay6 (F := F)))
  | n + 1, hn =>
    if (n + 1) % 4 = 0 then
      (kstep (iblk0 V c 0 ⟨n + 1, hn⟩) (iblk0 V c 1 ⟨n + 1, hn⟩) (iblk0 V c 2 ⟨n + 1, hn⟩) (tile0 (grid0.coords ⟨n + 1, hn⟩) (iblk0 V c 5 ⟨n + 1, hn⟩)) (k0_pay5 (F := F)), vstep (iblk0 V c 0 ⟨n + 1, hn⟩) (iblk0 V c 3 ⟨n + 1, hn⟩) (iblk0 V c 4 ⟨n + 1, hn⟩) (tile0 (grid0.coords ⟨n + 1, hn⟩) (iblk0 V c 6 ⟨n + 1, hn⟩)) (k0_pay6 (F := F)))
    else
      (kstep (iblk0 V c 0 ⟨n + 1, hn⟩) (iblk0 V c 1 ⟨n + 1, hn⟩) (iblk0 V c 2 ⟨n + 1, hn⟩) (tile0 (grid0.coords ⟨n + 1, hn⟩) (iblk0 V c 5 ⟨n + 1, hn⟩)) (acc0 c n (Nat.lt_of_succ_lt hn)).1, vstep (iblk0 V c 0 ⟨n + 1, hn⟩) (iblk0 V c 3 ⟨n + 1, hn⟩) (iblk0 V c 4 ⟨n + 1, hn⟩) (tile0 (grid0.coords ⟨n + 1, hn⟩) (iblk0 V c 6 ⟨n + 1, hn⟩)) (acc0 c n (Nat.lt_of_succ_lt hn)).2)

/-- At the first tile of a batch the accumulators restart from zero. -/
theorem acc0_first (c : Dev nD) (t : Fin cfg0.N) (h : t.val % 4 = 0) :
    acc0 V c t.val t.isLt = (kstep (iblk0 V c 0 t) (iblk0 V c 1 t) (iblk0 V c 2 t) (tile0 (grid0.coords t) (iblk0 V c 5 t)) (k0_pay5 (F := F)), vstep (iblk0 V c 0 t) (iblk0 V c 3 t) (iblk0 V c 4 t) (tile0 (grid0.coords t) (iblk0 V c 6 t)) (k0_pay6 (F := F))) := by
  obtain ⟨n, hn⟩ := t
  cases n with
  | zero => exact rfl
  | succ n => exact (if_pos h).trans rfl

/-- At a later tile they continue from the tile before. -/
theorem acc0_next (c : Dev nD) (t : Fin cfg0.N) (h : ¬t.val % 4 = 0) :
    acc0 V c t.val t.isLt = (kstep (iblk0 V c 0 t) (iblk0 V c 1 t) (iblk0 V c 2 t) (tile0 (grid0.coords t) (iblk0 V c 5 t)) (acc0 V c (t.val - 1) (Nat.lt_of_le_of_lt (Nat.sub_le _ _) t.isLt)).1, vstep (iblk0 V c 0 t) (iblk0 V c 3 t) (iblk0 V c 4 t) (tile0 (grid0.coords t) (iblk0 V c 6 t)) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-- The scratch operands as memrefs. -/
abbrev scM0_0 : Memref sig .tc .vmem S256x1024 .f32 := Memref.whole cc0_scratch0
abbrev scM0_1 : Memref sig .tc .vmem S256x1024 .f32 := Memref.whole cc0_scratch1

/-- The core's scoped buffers that are neither a staging buffer of this region nor its scratch, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region invariant before position `n`: before the first point every scoped buffer at anything; afterwards the two
    accumulators at what the point before left, the other scoped buffers at anything; the generator register at some state. -/
def PhiS (c : Dev nD) : (n : ℕ) → n ≤ cfg0.N → sProp 𝕄
  | 0, _ => Pipeline.ΦA spec0 c
  | n + 1, hn => iprop(iprop(owns (c : Thread nD τ) scM0_0 fullShare ((acc0 V c n hn).1) ∗ owns (c : Thread nD τ) scM0_1 fullShare ((acc0 V c n hn).2) ∗ rest0 (F := F) c) ∗ (∃ r, prngReg c r))

/-- The proof data of pipeline 0 on core `c`: the arrays as the region finds them; after the body at point `t` each input's
    buffer at its block and each output's at the accumulator plus its column bias, split by head (what the last tile stores;
    at the other tiles the output windows are idle and this value is not consulted); the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => k0_pay3 (acc0 V c t.val t.isLt).1 (iblk0 V c 7 t)
    | ⟨10, _⟩ => k0_pay4 (acc0 V c t.val t.isLt).2 (iblk0 V c 8 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = k0_pay3 (acc0 V c t.val t.isLt).1 (iblk0 V c 7 t) := by dsimp only [dat0]
theorem after0_10 (c : Dev nD) (t : Fin cfg0.N) : (dat0 V c).after 10 t = k0_pay4 (acc0 V c t.val t.isLt).2 (iblk0 V c 8 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]

/-! ## The inputs' buffers hold their blocks at every point -/

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input window 4's current staging buffer holds its block at every point, fetched there or not. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input window 5's current staging buffer holds its block at every point, fetched there or not. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
/-- Input window 6's current staging buffer holds its block at every point, fetched there or not. -/
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
/-- Input window 7's current staging buffer holds its block at every point, fetched there or not. -/
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
/-- Input window 8's current staging buffer holds its block at every point, fetched there or not. -/
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)

/-! ## Where the windows are idle, and where the outputs are written back -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Away from the last tile of a batch output 9 is idle: the body stores nothing into it. -/
theorem idleAt0_9 : ∀ t : Fin cfg0.N, ¬t.val % 4 = 3 → cfg0.idle 9 (grid0.coords t) = true :=
  (by decide +kernel : ∀ t : Fin grid0.N, ¬t.val % 4 = 3 → idle0 9 (grid0.coords t) = true)
/-- Away from the last tile of a batch output 10 is idle. -/
theorem idleAt0_10 : ∀ t : Fin cfg0.N, ¬t.val % 4 = 3 → cfg0.idle 10 (grid0.coords t) = true :=
  (by decide +kernel : ∀ t : Fin grid0.N, ¬t.val % 4 = 3 → idle0 10 (grid0.coords t) = true)
/-- At the last tile of a batch output 9 is live: the body stores all of it. -/
theorem liveAt0_9 : ∀ t : Fin cfg0.N, t.val % 4 = 3 → cfg0.idle 9 (grid0.coords t) = false :=
  (by decide +kernel : ∀ t : Fin grid0.N, t.val % 4 = 3 → idle0 9 (grid0.coords t) = false)
/-- At the last tile of a batch output 10 is live. -/
theorem liveAt0_10 : ∀ t : Fin cfg0.N, t.val % 4 = 3 → cfg0.idle 10 (grid0.coords t) = false :=
  (by decide +kernel : ∀ t : Fin grid0.N, t.val % 4 = 3 → idle0 10 (grid0.coords t) = false)
/-- Away from the last tile of a batch output 9's block is not written back. -/
theorem noFlush0_9 (t : Fin cfg0.N) (h : ¬t.val % 4 = 3) : (cfg0.win 9).flush t = false :=
  Bool.eq_false_iff.mpr fun hf => h ((flush0_9 t).mp hf)
/-- Away from the last tile of a batch output 10's block is not written back. -/
theorem noFlush0_10 (t : Fin cfg0.N) (h : ¬t.val % 4 = 3) : (cfg0.win 10).flush t = false :=
  Bool.eq_false_iff.mpr fun hf => h ((flush0_10 t).mp hf)

/-! ## The invariant, position by position -/

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(owns (c : Thread nD τ) scM0_0 fullShare ((acc0 V c n hn).1) ∗ owns (c : Thread nD τ) scM0_1 fullShare ((acc0 V c n hn).2) ∗ rest0 (F := F) c) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(owns (c : Thread nD τ) scM0_0 fullShare ((acc0 V c (n - 1) (by omega)).1) ∗ owns (c : Thread nD τ) scM0_1 fullShare ((acc0 V c (n - 1) (by omega)).2) ∗ rest0 (F := F) c) ∗ (∃ r, prngReg c r)) := by
  cases n with
  | zero => exact absurd rfl hz
  | succ n => rfl

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- The launch's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## The body obligation, at a generic point -/

/-- Each window's current staging memref at point `t`, spelled as the pipeline passes it, and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x256x64 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16x256x64 .bf16 := win0_10.stage (cfg0.slots t 10)
abbrev hs0_10 (t : Fin cfg0.N) : (ms0_10 t).IsWhole := hstage0_10 ((cfg0.slots t 10).cast nbuf0_10)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 4000000 in
/-- The body at any point: the inputs' buffers hold their blocks; the point's tile says which of the three cases it is in;
    the invariant hands the body the accumulators (at anything at the very first point, else at what the point before
    left) and takes them back at this point's contents; the outputs' buffers come back untouched away from the last
    tile and stored whole at it; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS V c (t.val + 1) t.isLt from rfl, PhiS_succ]
  by_cases h0 : t.val % 4 = 0
  · by_cases h3 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t h3) (noFlush0_9 t h3)]
      rw [Dat.leavesExact_idle (dat0 V c) 10 t (idleAt0_10 t h3) (noFlush0_10 t h3)]
      rw [acc0_first V c t h0]
      (try dsimp only)
      by_cases hz : t.val = 0
      · rw [PhiS_castSucc V c t, PhiS_zero V c _ _ hz, PhiA0_eq]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run0_A c (grid0.coords t) ((hcond0_0 t).mpr h0) (fun h => h3 ((hcond0_1 t).mp h)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        iintro ⟨H0, H1, H2, H3, H4, H5, H6, H7, H8, H9, H10, HS0, HS1⟩
        isplitl [HS0 HS1 Hr Hg]
        · isplitr [Hg]
          · isplitl [HS0]; · iexact HS0
            isplitl [HS1]; · iexact HS1
            iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        iexists _; iexact H10
      · rw [PhiS_castSucc V c t, PhiS_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (run0_A c (grid0.coords t) ((hcond0_0 t).mpr h0) (fun h => h3 ((hcond0_1 t).mp h)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        isplitl [HS1]; · iexists _; iexact HS1
        iintro ⟨H0, H1, H2, H3, H4, H5, H6, H7, H8, H9, H10, HS0, HS1⟩
        isplitl [HS0 HS1 Hr Hg]
        · isplitr [Hg]
          · isplitl [HS0]; · iexact HS0
            isplitl [HS1]; · iexact HS1
            iexact Hr
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        iexists _; iexact H10
  · have hz : t.val ≠ 0 := fun hz => h0 (by rw [hz])
    by_cases h3 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9 t h3], after0_9]
      rw [show (dat0 V c).leavesExact 10 t = owns (c : Thread nD τ) (ms0_10 t) fullShare ((dat0 V c).after 10 t) from by
        unfold Dat.leavesExact; rw [liveAt0_10 t h3], after0_10]
      rw [acc0_next V c t h0]
      (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run0_C c (grid0.coords t) (fun h => h0 ((hcond0_0 t).mp h)) ((hcond0_1 t).mpr h3) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hr Hg]
      · isplitr [Hg]
        · isplitl [HS0]; · iexact HS0
          isplitl [HS1]; · iexact HS1
          iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9 t h3) (noFlush0_9 t h3)]
      rw [Dat.leavesExact_idle (dat0 V c) 10 t (idleAt0_10 t h3) (noFlush0_10 t h3)]
      rw [acc0_next V c t h0]
      (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run0_B c (grid0.coords t) (fun h => h0 ((hcond0_0 t).mp h)) (fun h => h3 ((hcond0_1 t).mp h)) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) ((dat0 V c).before 9 t d9) ((dat0 V c).before 10 t d10) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hr Hg]
      · isplitr [Hg]
        · isplitl [HS0]; · iexact HS0
          isplitl [HS1]; · iexact HS1
          iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem body_obligation0 (c : Dev nD) : BodyObligation (dat0 (F := F) V c) (defs₀ (F := F)) Variants.none () Set.univ := by
  intro t
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives the launch's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitr [Hg]
  · isplitl [HS0]; · iexists _; iexact HS0
    isplitl [HS1]; · iexists _; iexact HS1
    iexact Hr
  · iexact Hg

/-- After the last point the invariant gives the scoped rest back: the accumulators' contents are forgotten. -/
theorem hout0 (c : Dev nD) : (dat0 V c).Φ (Fin.last cfg0.N) ⊢ Pipeline.ΦA spec0 c :=
  Phi_out0 V c _ (by rw [Fin.val_last]; have : cfg0.N = 16 := N_0; omega)

end

end Cert.KernelIdeal.Hand

end
-- ==== Proof.KI.R1Dat.lean ====
/- Region 1 of the program, the attention-and-output-projection kernel on a 4 x 8 grid, at the buffer contents
   the region is entered with: each window's block at a grid point, what the body leaves in the output window's
   staging buffer as a function of the seven input blocks, the body's triple, the pipeline's proof data and its
   body obligation. The body reads its seven input windows whole and writes its output window whole, so what it
   leaves is the payload of the blocks themselves. -/
import proofs.«430223_j86457691669062_3_alg».proof.Proof.Gen.KernelIdeal.Launch
import proofs.«430223_j86457691669062_3_alg».proof.Proof.Gen.KernelIdeal.Skeleton
import proofs.«430223_j86457691669062_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's rectangles: each whole buffer, at zero offsets -/

/-- The zero offsets of a rank-2, rank-3 and rank-4 buffer, however spelt. -/
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The whole [1, 256, 1024] buffer (the activations' block and the output's). -/
abbrev rAct : Rect S1x256x1024 := Rect.unit (s := S1x256x1024) ![0, 0, 0] S1x256x1024.size inb_S1x256x1024_S1x256x1024_0_0_0
/-- The whole [1024, 1024] buffer (a projection's weights). -/
abbrev rWgt : Rect S1024x1024 := Rect.unit (s := S1024x1024) ![0, 0] S1024x1024.size inb_S1024x1024_S1024x1024_0_0
/-- The whole [1, 1024] buffer (a projection's bias). -/
abbrev rBias : Rect S1x1024 := Rect.unit (s := S1x1024) ![0, 0] S1x1024.size inb_S1x1024_S1x1024_0_0
/-- The whole [1, 16, 256, 64] buffer (the compressed keys and values of one batch element, head by head). -/
abbrev rKV : Rect S1x16x256x64 := Rect.unit (s := S1x16x256x64) ![0, 0, 0, 0] S1x16x256x64.size inb_S1x16x256x64_S1x16x256x64_0_0_0_0

/-! ## What the body leaves in the output window's buffer -/

/-- What the body leaves in the output window's staging buffer, from the seven input blocks: its one store, of the
    output projection (`k1_pay1`) of the attention (`k1_pay2`) of the blocks read through the whole-buffer
    rectangles. -/
def out1_7 (x0 : Vec F S1x256x1024 .f32) (x1 : Vec F S1024x1024 .bf16) (x2 : Vec F S1x1024 .f32) (x3 x4 : Vec F S1x16x256x64 .bf16)
    (x5 : Vec F S1024x1024 .bf16) (x6 : Vec F S1x1024 .f32) : Vec F S1x256x1024 .f32 :=
  View.canon [⟨rAct, k1_pay1 (k1_pay2 (View.ld x0 rAct) (View.ld x1 rWgt) (View.ld x2 rBias) (View.ld x3 rKV) (View.ld x4 rKV) (View.ld x5 rWgt)) (View.ld x6 rBias)⟩]

/-- The same with the whole-buffer reads and the one-piece canon removed: the payload of the blocks themselves. -/
theorem out1_7_eq (x0 : Vec F S1x256x1024 .f32) (x1 : Vec F S1024x1024 .bf16) (x2 : Vec F S1x1024 .f32) (x3 x4 : Vec F S1x16x256x64 .bf16)
    (x5 : Vec F S1024x1024 .bf16) (x6 : Vec F S1x1024 .f32) :
    out1_7 x0 x1 x2 x3 x4 x5 x6 = k1_pay1 (k1_pay2 x0 x1 x2 x3 x4 x5) x6 := by
  unfold out1_7
  rw [View.canon_unit_zero zeros3]
  simp only [View.ld_unit_zero (S := S1x256x1024) zeros3, View.ld_unit_zero (S := S1024x1024) zeros2,
    View.ld_unit_zero (S := S1x1024) zeros2, View.ld_unit_zero (S := S1x16x256x64) zeros4]

/-- The one store covers the output buffer: its rectangle is the whole of it. -/
theorem cover1_7 (p0 : Vec F S1x256x1024 .f32) (y : S1x256x1024.Idx) :
    ∃ pc ∈ ([⟨rAct, p0⟩] : List (View.Piece (Elt F) S1x256x1024 .f32)), y ∈ pc.1.set :=
  ⟨_, List.mem_singleton_self _, View.mem_set_unit_zero zeros3 inb_S1x256x1024_S1x256x1024_0_0_0 y⟩

/-! ## The body's triple -/

set_option maxHeartbeats 1000000 in
/-- The kernel body on whole staging memrefs, the seven inputs' at read contents `x0 … x6` and the output's at
    anything, runs to the continuation holding the inputs' as they were and the output's at `out1_7` of them. -/
theorem sound_kernel1 (c : Dev nD) (E : Set ℕ)
    (arg2 : Memref sig .tc .vmem S1x256x1024 .f32) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1x16x256x64 .bf16) (harg5 : arg5.IsWhole)
    (arg6 : Memref sig .tc .vmem S1x16x256x64 .bf16) (harg6 : arg6.IsWhole)
    (arg7 : Memref sig .tc .vmem S1024x1024 .bf16) (harg7 : arg7.IsWhole)
    (arg8 : Memref sig .tc .vmem S1x1024 .f32) (harg8 : arg8.IsWhole)
    (arg9 : Memref sig .tc .vmem S1x256x1024 .f32) (harg9 : arg9.IsWhole)
    (i : grid1.Coords)
    (x0 : Vec F S1x256x1024 .f32) (x1 : Vec F S1024x1024 .bf16) (x2 : Vec F S1x1024 .f32) (x3 x4 : Vec F S1x16x256x64 .bf16)
    (x5 : Vec F S1024x1024 .bf16) (x6 : Vec F S1x1024 .f32)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ (∃ d, owns (c : Thread nD τ) arg9 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare (out1_7 x0 x1 x2 x3 x4 x5 x6)) -∗ K ⟨⟩))
      ⊢ wp frame (wpE (defs₀ (F := F)) Variants.none c none) E (cc1__attn_o_kernel i arg2 harg2 arg3 harg3 arg4 harg4 arg5 harg5 arg6 harg6 arg7 harg7 arg8 harg8 arg9 harg9) K := by
  simp only [cc1__attn_o_kernel_eq_skeleton]; unfold cc1__attn_o_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

section
-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the window was fetched
    there (unfetched, its block index has not moved), for any proof data whose array is the entry contents and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the window was fetched
    there (unfetched, its block index has not moved), for any proof data whose array is the entry contents and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the window was fetched
    there (unfetched, its block index has not moved), for any proof data whose array is the entry contents and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the window was fetched
    there (unfetched, its block index has not moved), for any proof data whose array is the entry contents and whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the window was fetched
    there (unfetched, its block index has not moved), for any proof data whose array is the entry contents and whose
    body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not the window was fetched
    there (unfetched, its block index has not moved), for any proof data whose array is the entry contents and whose
    body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether or not the window was fetched
    there (unfetched, its block index has not moved), for any proof data whose array is the entry contents and whose
    body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them; after the body at point `t` each
    input's buffer at its block and the output's at `out1_7` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ (grid1.coords t) (iblk1 V c 0 t) (iblk1 V c 1 t) (iblk1 V c 2 t) (iblk1 V c 3 t)
    (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
import proofs.«430223_j86457691669062_3_alg».proof.Proof.KI.R0Dat
import proofs.«430223_j86457691669062_3_alg».proof.Proof.KI.R1Dat
import proofs.«430223_j86457691669062_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run: @main as a host stretch and two kernel regions, from the launch to the return

The buffer contents at each boundary are a fold through @main: the launch memory; after the host stretch
(`StableHlo.after`); after region 0, its arrays at what its write-backs leave; after region 1 likewise. Each region
is entered from "every unscoped buffer at the boundary's contents" and left at the next boundary's. The launch then
says every weakly fair execution ends with every unscoped buffer at the last boundary's contents, from which the frame
(the arguments as launched) and the result's contents are read. -/

variable (m : (ℓ : Loc nD τ sig) → Buf (Elt F) ℓ)

/-- Core `c`'s buffers at launch, -/
abbrev W0 : Dev nD → Valuation τ sig (Elt F) := fun c b => m (c, b)
/-- after the host stretch (region 0's entry), -/
abbrev W1 : Dev nD → Valuation τ sig (Elt F) := fun c => StableHlo.after hostOps0 (W0 m c)
/-- the same read at the TensorCore's references. -/
abbrev U1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-! ## The arguments end as launched -/

/-- `main_arg0` ends as launched: no host operation writes it and no region changes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (U2 m) c).arrAt_in 0 rfl _).trans (A_eq1 (U2 m) c 0))
    _ = W1 m c (Proc.devRef .tc main_arg0) := W2_of_ne m c main_arg0 (by decide)
    _ = m ((c : Thread nD τ).loc main_arg0) := Gen.V1_of m c main_arg0 (by decide)

/-- `main_arg1` ends as launched: no host operation writes it and no region changes it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((dat0 (U1 m) c).arrAt_in 0 rfl _).trans (A_eq0 (U1 m) c 0))
    _ = m ((c : Thread nD τ).loc main_arg1) := Gen.V1_of m c main_arg1 (by decide)

/-- `main_arg2` ends as launched: no host operation writes it and no region changes it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := Gen.V1_of m c main_arg2 (by decide)

/-- `main_arg3` ends as launched: no host operation writes it and no region changes it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)

/-- `main_arg4` ends as launched: no host operation writes it and no region changes it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := Gen.V1_of m c main_arg4 (by decide)

/-- `main_arg5` ends as launched: no host operation writes it and no region changes it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := Gen.V1_of m c main_arg5 (by decide)

/-- `main_arg6` ends as launched: no host operation writes it and no region changes it. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = m ((c : Thread nD τ).loc main_arg6) := Gen.V1_of m c main_arg6 (by decide)

/-- `main_arg7` ends as launched: no host operation writes it and no region changes it. -/
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = m ((c : Thread nD τ).loc main_arg7) := Gen.V1_of m c main_arg7 (by decide)

/-- `main_arg8` ends as launched: no host operation writes it and no region changes it. -/
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := W2_of_ne m c main_arg8 (by decide)
    _ = m ((c : Thread nD τ).loc main_arg8) := Gen.V1_of m c main_arg8 (by decide)

/-- `main_arg9` ends as launched: no host operation writes it and no region changes it. -/
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = m ((c : Thread nD τ).loc main_arg9) := Gen.V1_of m c main_arg9 (by decide)

/-- `main_arg10` ends as launched: no host operation writes it and no region changes it. -/
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := W2_of_ne m c main_arg10 (by decide)
    _ = m ((c : Thread nD τ).loc main_arg10) := Gen.V1_of m c main_arg10 (by decide)

/-- `main_arg11` ends as launched: no host operation writes it and no region changes it. -/
theorem W3_main_arg11 (c : Dev nD) : W3 m c (Proc.devRef .tc main_arg11) = m ((c : Thread nD τ).loc main_arg11) :=
  calc W3 m c (Proc.devRef .tc main_arg11)
    _ = W2 m c (Proc.devRef .tc main_arg11) := W3_of_ne m c main_arg11 (by decide)
    _ = W1 m c (Proc.devRef .tc main_arg11) := W2_of_ne m c main_arg11 (by decide)
    _ = m ((c : Thread nD τ).loc main_arg11) := Gen.V1_of m c main_arg11 (by decide)

/-- `main_arg12` ends as launched: no host operation writes it and no region changes it. -/
theorem W3_main_arg12 (c : Dev nD) : W3 m c (Proc.devRef .tc main_arg12) = m ((c : Thread nD τ).loc main_arg12) :=
  calc W3 m c (Proc.devRef .tc main_arg12)
    _ = W2 m c (Proc.devRef .tc main_arg12) := W3_of_ne m c main_arg12 (by decide)
    _ = W1 m c (Proc.devRef .tc main_arg12) := W2_of_ne m c main_arg12 (by decide)
    _ = m ((c : Thread nD τ).loc main_arg12) := Gen.V1_of m c main_arg12 (by decide)

/-- `main_arg13` ends as launched: no host operation writes it and no region changes it. -/
theorem W3_main_arg13 (c : Dev nD) : W3 m c (Proc.devRef .tc main_arg13) = m ((c : Thread nD τ).loc main_arg13) :=
  calc W3 m c (Proc.devRef .tc main_arg13)
    _ = W2 m c (Proc.devRef .tc main_arg13) := W3_of_ne m c main_arg13 (by decide)
    _ = W1 m c (Proc.devRef .tc main_arg13) := W2_of_ne m c main_arg13 (by decide)
    _ = m ((c : Thread nD τ).loc main_arg13) := Gen.V1_of m c main_arg13 (by decide)

/-! ## The proof data family and the thread state -/

/-- No pipeline has a prefetched table. -/
abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (U1 m) c
  | ⟨1, _⟩ => fun c => dat1 (U2 m) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- The host stretch as a segment. -/
abbrev hseg0 : Pipeline.HostSeg (Name := ℕ) (U := UR sig nD τ) (pcfgs (F := F)) defs₀ 𝒱₀ Lz lvz :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) Rr
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0: entered from every unscoped buffer at `W1`, left at `W2`. Its arrays are split out of the unscoped buffers
    and put back at the exit contents; the scoped rest and the generator register go into the region's invariant, which
    carries the two accumulators from point to point, and come back; nothing is owed. -/
def reg0 : Pipeline.RegionSeg (pcfgs (F := F)) padm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ B : sProp 𝕄, iprop((∃ r, prngReg c r) ∗ B ∗ Pipeline.scopedRest spec0 c) ⊢ (Pipeline.ΦA spec0 c : sProp 𝕄) := fun B => by
      unfold Pipeline.ΦA
      iintro ⟨Hp, -, Hr⟩
      isplitl [Hr]; · iexact Hr
      iexact Hp
    exact (h1 _).trans (hin0 (U1 m) c)
  hout c := by
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    rw [Pipeline.ownSems0_none]
    exact (hout0 (U1 m) c).trans h2
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`; its invariant is the scoped rest and the generator
    register, untouched. -/
def reg1 : Pipeline.RegionSeg (pcfgs (F := F)) padm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ Lz lvz 1 fun _ _ => rfl
  pre c := iprop(StableHlo.held (c : Thread nD τ) (Pipeline.ucRefs τ sig) (W2 m c) ∗ Rr c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev rsegs : List (Pipeline.Seg (pcfgs (F := F)) padm (pdats m) () defs₀ 𝒱₀ Lz lvz) :=
  [ .host (hseg0 m), .region (reg0 m), .region (reg1 m) ]
/-- @main is the run of the segments. -/
theorem main_run (c : Dev nD) : main (F := F) c = Pipeline.Seg.run (rsegs m) := (main_chain c).trans (by chain_rfl)

variable (ρ : Dev nD → PrngReg)

set_option backward.isDefEq.respectTransparency.types false in
/-- From any memory with zero counters every weakly fair execution of @main terminates, nothing faulting, and every final
    state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) padm (pdats m) () cellOf_inj emb₁ defs₀ 𝒱₀ Lz lvz m ρ main (rsegs m)
    (fun c Q => by rw [main_run m c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tlast m)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c),
      (h c _ (mem_uc main_arg11 (by decide))).trans (W3_main_arg11 m c),
      (h c _ (mem_uc main_arg12 (by decide))).trans (W3_main_arg12 m c),
      (h c _ (mem_uc main_arg13 (by decide))).trans (W3_main_arg13 m c)⟩) (run_all m ρ)

/-- The run with the result named: it ends at what region 1's write-backs leave in its output array, the arguments as
    launched. -/
theorem run_result : θ_run defs (onTc (τ := τ) (main (F := F))) ⟨m, fun _ => 0, ρ⟩ (fun r => ∀ c : Dev nD,
      r.2.mem ((c.tc : Thread nD τ).loc main_v17) = (dat1 (U2 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v17 (by decide))).trans (W3_arr m c 7),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c),
      (h c _ (mem_uc main_arg11 (by decide))).trans (W3_main_arg11 m c),
      (h c _ (mem_uc main_arg12 (by decide))).trans (W3_main_arg12 m c),
      (h c _ (mem_uc main_arg13 (by decide))).trans (W3_main_arg13 m c)⟩) (run_all m ρ)

end Cert.KernelIdeal.Hand

end
-- ==== Proof.Spec.lean ====
import Idealize.ShloMosaic.PureOps.Ideal
import Idealize.ShloMosaic.Lib.ValueIdx

/-! # The mathematics both programs compute, as functions of the argument arrays over the extended reals

Low-rank multi-head attention. With `K = value·Wk + bk` and `V = value·Wv + bv` (row by row), the sequence axis is
projected to 256 rows: `KP[b,k,e] = Σₛ K[b,s,e]·E[s,k] + Eb[k]`, `VP` likewise with `F`, `Fb`. The queries
`Q = (query·Wq + bq)·c` with `c = 1/8`. Per batch `b` and head `h` (feature columns `64h … 64h+63`) the scores are
`Q·KPᵀ` over the head's columns, a softmax over the 256 projected rows follows, the context is its product with `VP`,
the heads are laid side by side again and the result is `ctx·Wo + bo`.

Everything downstream of `Q`, `KP`, `VP` is ONE function (`tail`) that both programs apply. They differ only in how
`Q` is spelt (the scale folded into the weights and the bias, or applied afterwards) and in how the 2048-term sequence
sum is grouped (four row tiles of 512 accumulated one after another, or one sum). -/

noncomputable section

namespace Cert.Spec

open Idealize.ShloMosaic Idealize.ShloMosaic.ValueIdx

/-- `[batch, sequence, feature]`, `[batch, projected row, feature]`. -/
abbrev T3 := Fin 4 → Fin 2048 → Fin 1024 → EReal
abbrev TP := Fin 4 → Fin 256 → Fin 1024 → EReal

abbrev A3 := (⟨3, ![4, 2048, 1024]⟩ : Shape).Idx → EReal
abbrev AW := (⟨2, ![1024, 1024]⟩ : Shape).Idx → EReal
abbrev AB := (⟨1, ![1024]⟩ : Shape).Idx → EReal
abbrev AE := (⟨2, ![2048, 256]⟩ : Shape).Idx → EReal
abbrev AEb := (⟨1, ![256]⟩ : Shape).Idx → EReal

/-- Feature column `d` of head `h`. -/
def col (h : Fin 16) (d : Fin 64) : Fin 1024 := ⟨h.val * 64 + d.val, by omega⟩
/-- The head a feature column belongs to. -/
def headOf (e : Fin 1024) : Fin 16 := ⟨e.val / 64, by omega⟩
/-- Row `r` of row tile `i`. -/
def row (i : Fin 4) (r : Fin 512) : Fin 2048 := ⟨i.val * 512 + r.val, by omega⟩

/-- A linear layer applied row by row: `x·W + bias`. -/
def lin (x : A3) (W : AW) (bias : AB) : T3 :=
  fun b s e => (∑ d : Fin 1024, x (ix3 b s d) * W (ix2 d e)) + bias (ix1 e)

/-- The same followed by a scale. -/
def linThenScale (x : A3) (W : AW) (bias : AB) (c : EReal) : T3 :=
  fun b s e => lin x W bias b s e * c

/-- The linear layer with the scale folded into the weights and the bias. -/
def linScaled (x : A3) (W : AW) (bias : AB) (c : EReal) : T3 :=
  fun b s e => (∑ d : Fin 1024, x (ix3 b s d) * (W (ix2 d e) * c)) + bias (ix1 e) * c

/-- The sequence projection as one sum over the 2048 rows. -/
def seqProj (K : T3) (E : AE) (Eb : AEb) : TP :=
  fun b k e => (∑ s : Fin 2048, K b s e * E (ix2 s k)) + Eb (ix1 k)

/-- A sum over the 2048 rows accumulated tile by tile from zero, in the order the grid visits the four row tiles. -/
def tileSum (f : Fin 2048 → EReal) : EReal :=
  (((0 + ∑ r : Fin 512, f (row 0 r)) + ∑ r : Fin 512, f (row 1 r)) + ∑ r : Fin 512, f (row 2 r)) + ∑ r : Fin 512, f (row 3 r)

/-- The sequence projection accumulated tile by tile, the projection matrix as the left factor. -/
def seqProjTiled (K : T3) (E : AE) (Eb : AEb) : TP :=
  fun b k e => tileSum (fun s => E (ix2 s k) * K b s e) + Eb (ix1 k)

/-! ## The shared tail -/

section Tail
variable (Q : T3) (KP VP : TP)

/-- Head `h`'s score of query row `s` against projected row `k`. -/
def score (b : Fin 4) (h : Fin 16) (s : Fin 2048) (k : Fin 256) : EReal :=
  ∑ d : Fin 64, Q b s (col h d) * KP b k (col h d)

/-- The row's maximum, folded from `-∞`. -/
def rowMax (b : Fin 4) (h : Fin 16) (s : Fin 2048) : EReal :=
  (Finset.univ : Finset (Fin 256)).fold max (⊥ : EReal) (fun k => score Q KP b h s k)

/-- The shifted exponential. -/
def pexp (b : Fin 4) (h : Fin 16) (s : Fin 2048) (k : Fin 256) : EReal :=
  Ideal.exp (score Q KP b h s k - rowMax Q KP b h s)

/-- The softmax weight. -/
def attn (b : Fin 4) (h : Fin 16) (s : Fin 2048) (k : Fin 256) : EReal :=
  Ideal.div (pexp Q KP b h s k) (∑ k' : Fin 256, pexp Q KP b h s k')

/-- The context, heads side by side: column `e` belongs to head `headOf e`. -/
def ctx (b : Fin 4) (s : Fin 2048) (e : Fin 1024) : EReal :=
  ∑ k : Fin 256, attn Q KP b (headOf e) s k * VP b k e

/-- The output projection of the context. -/
def tail (Wo : AW) (bo : AB) : A3 :=
  fun j => (∑ e : Fin 1024, ctx Q KP VP (j 0) (j 1) e * Wo (ix2 e (j 2))) + bo (ix1 (j 2))

end Tail

end Cert.Spec

end
-- ==== Proof.KI.K0Value.lean ====
import proofs.«430223_j86457691669062_3_alg».proof.Proof.KI.R0Dat
import proofs.«430223_j86457691669062_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.Spec
open Cert.KernelIdeal Cert.KernelIdeal.Gen

/-! # The arithmetic of one tile's update, entry by entry, at the extended reals -/

/-! ## The two contractions -/

theorem lhs_rowcol_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_rowcol_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_rowcol_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_rowcol_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Rows times columns into zero: entry (r, e) is the sum over the 1024 shared coordinates. -/
theorem matmul_rowcol_apply (x : FVec Ideal S512x1024 .bf16) (w : FVec Ideal S1024x1024 .bf16) (r : Fin 512) (e : Fin 1024) :
    matmul dot_S512x1024_S1024x1024_S512x1024_1_0_0_1_n_n none x w (constant (F := Ideal) S512x1024 .f32 0x00000000#32) (ix2 r e)
      = ∑ d : Fin 1024, x (ix2 r d) * w (ix2 d e) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r e) ((ValueIdx.contrEquiv1 dot_S512x1024_S1024x1024_S512x1024_1_0_0_1_n_n 1024 rfl rfl).symm k) = ix2 r k := funext fun a => Fin.ext (by
    match a with
    | ⟨0, _⟩ => exact lhs_rowcol_0 _ _
    | ⟨1, _⟩ => exact (lhs_rowcol_1 _ _).trans hk)
  have er : dot_S512x1024_S1024x1024_S512x1024_1_0_0_1_n_n.rhsIdx (ix2 r e) ((ValueIdx.contrEquiv1 dot_S512x1024_S1024x1024_S512x1024_1_0_0_1_n_n 1024 rfl rfl).symm k) = ix2 k e := funext fun a => Fin.ext (by
    match a with
    | ⟨0, _⟩ => exact (rhs_rowcol_0 _ _).trans hk
    | ⟨1, _⟩ => exact rhs_rowcol_1 _ _)
  rw [el, er]

theorem lhs_colcol_0 (i : S256x1024.Idx) (q : dot_S512x256_S512x1024_S256x1024_0_0_1_1_n_n.contr.Idx) :
    (dot_S512x256_S512x1024_S256x1024_0_0_1_1_n_n.lhsIdx i q 0).val = (q ⟨0, by decide⟩).val :=
  dot_S512x256_S512x1024_S256x1024_0_0_1_1_n_n.lhsIdx_val_of_single rfl i q
theorem lhs_colcol_1 (i : S256x1024.Idx) (q : dot_S512x256_S512x1024_S256x1024_0_0_1_1_n_n.contr.Idx) :
    (dot_S512x256_S512x1024_S256x1024_0_0_1_1_n_n.lhsIdx i q 1).val = (i 0).val := by
  unfold DotDims.lhsIdx
  rw [dif_neg (show ¬(1 : Fin S512x256.rank) ∈ dot_S512x256_S512x1024_S256x1024_0_0_1_1_n_n.lhsBatch by decide), dif_pos (show (1 : Fin S512x256.rank) ∈ dot_S512x256_S512x1024_S256x1024_0_0_1_1_n_n.lhsNonContracting by decide)]
  rfl
theorem rhs_colcol_0 (i : S256x1024.Idx) (q : dot_S512x256_S512x1024_S256x1024_0_0_1_1_n_n.contr.Idx) :
    (dot_S512x256_S512x1024_S256x1024_0_0_1_1_n_n.rhsIdx i q 0).val = (q ⟨0, by decide⟩).val :=
  dot_S512x256_S512x1024_S256x1024_0_0_1_1_n_n.rhsIdx_val_of_single rfl i q
theorem rhs_colcol_1 (i : S256x1024.Idx) (q : dot_S512x256_S512x1024_S256x1024_0_0_1_1_n_n.contr.Idx) :
    (dot_S512x256_S512x1024_S256x1024_0_0_1_1_n_n.rhsIdx i q 1).val = (i 1).val := by
  unfold DotDims.rhsIdx
  rw [dif_neg (show ¬(1 : Fin S512x1024.rank) ∈ dot_S512x256_S512x1024_S256x1024_0_0_1_1_n_n.rhsBatch by decide), dif_pos (show (1 : Fin S512x1024.rank) ∈ dot_S512x256_S512x1024_S256x1024_0_0_1_1_n_n.rhsNonContracting by decide)]
  rfl

/-- The product that contracts the 512 rows of both factors, into zero: entry (k, e) is the sum over the rows. -/
theorem matmul_colcol_apply (p : FVec Ideal S512x256 .bf16) (y : FVec Ideal S512x1024 .bf16) (k : Fin 256) (e : Fin 1024) :
    matmul dot_S512x256_S512x1024_S256x1024_0_0_1_1_n_n none p y (constant (F := Ideal) S256x1024 .f32 0x00000000#32) (ix2 k e)
      = ∑ r : Fin 512, p (ix2 r k) * y (ix2 r e) := by
  simp only [matmul]
  rw [Ideal.matmul_constant_zero_apply, ← Equiv.sum_comp (ValueIdx.contrEquiv1 dot_S512x256_S512x1024_S256x1024_0_0_1_1_n_n 512 rfl rfl).symm]
  refine Finset.sum_congr rfl fun r _ => ?_
  have hk := ValueIdx.contrEquiv1_symm_val dot_S512x256_S512x1024_S256x1024_0_0_1_1_n_n 512 rfl rfl r
  have el : dot_S512x256_S512x1024_S256x1024_0_0_1_1_n_n.lhsIdx (ix2 k e) ((ValueIdx.contrEquiv1 dot_S512x256_S512x1024_S256x1024_0_0_1_1_n_n 512 rfl rfl).symm r) = ix2 r k := funext fun a => Fin.ext (by
    match a with
    | ⟨0, _⟩ => exact (lhs_colcol_0 _ _).trans hk
    | ⟨1, _⟩ => exact lhs_colcol_1 _ _)
  have er : dot_S512x256_S512x1024_S256x1024_0_0_1_1_n_n.rhsIdx (ix2 k e) ((ValueIdx.contrEquiv1 dot_S512x256_S512x1024_S256x1024_0_0_1_1_n_n 512 rfl rfl).symm r) = ix2 r e := funext fun a => Fin.ext (by
    match a with
    | ⟨0, _⟩ => exact (rhs_colcol_0 _ _).trans hk
    | ⟨1, _⟩ => exact rhs_colcol_1 _ _)
  rw [el, er]

/-! ## One tile's update of an accumulator -/

/-- The tile's rows, as a matrix: entry (r, d) is the block's (0, r, d). -/
theorem pay7_apply (x : Vec Ideal S1x512x1024 .f32) (r : Fin 512) (d : Fin 1024) :
    k0_pay7 (F := Ideal) x (ix2 r d) = x (ix3 0 r d) := by
  unfold k0_pay7
  exact shapeCast_1ab_ab_apply x shapeCasts_S1x512x1024_S512x1024 r d

/-- The projected tile `x·w + bias`: entry (r, e). -/
theorem pay8_apply (x : Vec Ideal S1x512x1024 .f32) (w : Vec Ideal S1024x1024 .bf16) (bias : Vec Ideal S1x1024 .f32)
    (r : Fin 512) (e : Fin 1024) :
    k0_pay8 (F := Ideal) x w bias (ix2 r e) = (∑ d : Fin 1024, x (ix3 0 r d) * w (ix2 d e)) + bias (ix2 0 e) := by
  unfold k0_pay8
  show matmul dot_S512x1024_S1024x1024_S512x1024_1_0_0_1_n_n none (k0_pay7 (F := Ideal) x) (shapeCast S1024x1024 w shapeCasts_S1024x1024_S1024x1024) (constant (F := Ideal) S512x1024 .f32 0x00000000#32) (ix2 r e)
      + broadcastTo S512x1024 (shapeCast S1x1024 bias shapeCasts_S1x1024_S1x1024) broadcasts_S1x1024_S512x1024 (ix2 r e) = _
  refine congrArg₂ (· + ·) ?_ ?_
  · refine (matmul_rowcol_apply _ _ r e).trans (Finset.sum_congr rfl fun d _ => congrArg₂ (· * ·) (pay7_apply x r d) ?_)
    exact congrFun (shapeCast_self w shapeCasts_S1024x1024_S1024x1024) (ix2 d e)
  · refine (broadcastTo_1b_ab_apply _ broadcasts_S1x1024_S512x1024 r e).trans ?_
    exact congrFun (shapeCast_self bias shapeCasts_S1x1024_S1x1024) (ix2 0 e)

/-- The update both accumulators share: the accumulator plus the tile's projection rows against the projected tile. -/
def stepCore (y : FVec Ideal S512x1024 .bf16) (p : FVec Ideal S512x256 .bf16) (acc : FVec Ideal S256x1024 .f32) : FVec Ideal S256x1024 .f32 :=
  addf acc (matmul dot_S512x256_S512x1024_S256x1024_0_0_1_1_n_n none (shapeCast S512x256 p shapeCasts_S512x256_S512x256) y (constant (F := Ideal) S256x1024 .f32 0x00000000#32))

theorem stepCore_apply (x : Vec Ideal S1x512x1024 .f32) (w : Vec Ideal S1024x1024 .bf16) (bias : Vec Ideal S1x1024 .f32)
    (p : Vec Ideal S512x256 .bf16) (acc : Vec Ideal S256x1024 .f32) (k : Fin 256) (e : Fin 1024) :
    stepCore (k0_pay8 (F := Ideal) x w bias) p acc (ix2 k e)
      = acc (ix2 k e) + ∑ r : Fin 512, p (ix2 r k) * ((∑ d : Fin 1024, x (ix3 0 r d) * w (ix2 d e)) + bias (ix2 0 e)) := by
  unfold stepCore
  show acc (ix2 k e) + matmul dot_S512x256_S512x1024_S256x1024_0_0_1_1_n_n none (shapeCast S512x256 p shapeCasts_S512x256_S512x256) (k0_pay8 (F := Ideal) x w bias) (constant (F := Ideal) S256x1024 .f32 0x00000000#32) (ix2 k e) = _
  refine congrArg (acc (ix2 k e) + ·) ?_
  refine (matmul_colcol_apply _ _ k e).trans (Finset.sum_congr rfl fun r _ => congrArg₂ (· * ·) ?_ (pay8_apply x w bias r e))
  exact congrFun (shapeCast_self p shapeCasts_S512x256_S512x256) (ix2 r k)

/-- The key accumulator's update is the shared one. -/
theorem kstep_eq (x : Vec Ideal S1x512x1024 .f32) (wk : Vec Ideal S1024x1024 .bf16) (bk : Vec Ideal S1x1024 .f32)
    (et : Vec Ideal S512x256 .bf16) (acc : Vec Ideal S256x1024 .f32) :
    kstep (F := Ideal) x wk bk et acc = stepCore (k0_pay8 (F := Ideal) x wk bk) et acc := by
  unfold kstep k0_pay1 k0_pay10 stepCore k0_pay8
  exact shapeCast_self _ _

/-- The value accumulator's update is the shared one. -/
theorem vstep_eq (x : Vec Ideal S1x512x1024 .f32) (wv : Vec Ideal S1024x1024 .bf16) (bv : Vec Ideal S1x1024 .f32)
    (ft : Vec Ideal S512x256 .bf16) (acc : Vec Ideal S256x1024 .f32) :
    vstep (F := Ideal) x wv bv ft acc = stepCore (k0_pay8 (F := Ideal) x wv bv) ft acc := by
  unfold vstep k0_pay2 k0_pay9 stepCore
  exact shapeCast_self _ _

/-- The zero block an accumulator restarts from. -/
theorem pay5_apply (k : Fin 256) (e : Fin 1024) : k0_pay5 (F := Ideal) (ix2 k e) = 0 := by
  unfold k0_pay5
  refine (congrFun (shapeCast_self _ shapeCasts_S256x1024_S256x1024) (ix2 k e)).trans ?_
  exact Ideal.ofBits_zero_f32
theorem pay6_apply (k : Fin 256) (e : Fin 1024) : k0_pay6 (F := Ideal) (ix2 k e) = 0 := by
  unfold k0_pay6
  refine (congrFun (shapeCast_self _ shapeCasts_S256x1024_S256x1024) (ix2 k e)).trans ?_
  exact Ideal.ofBits_zero_f32

/-! ## The tile's rows of a resident operand -/

/-- The 512 rows a tile reads of a resident (2048, 256) operand are the rows `512·i + r`. -/
theorem tile0_apply (ic : grid0.Coords) (i : Fin 4) (hi : (ic 1).val = i.val) (x : Vec Ideal S2048x256 .bf16)
    (r : Fin 512) (k : Fin 256) : tile0 (F := Ideal) ic x (ix2 r k) = x (ix2 (row i r) k) := by
  unfold tile0
  show x ((Rect.unit (s := S2048x256) (k0_off1 ic) S512x256.size (k0_off1_inb ic)).emb (ix2 r k)) = _
  refine congrArg x (funext fun a => Fin.ext ?_)
  have ho := k0_off1_eq ic
  match a with
  | ⟨0, _⟩ =>
    show k0_off1 ic 0 + 1 * r.val = i.val * 512 + r.val
    rw [ho]; show 512 * (ic 1).val + 1 * r.val = _; omega
  | ⟨1, _⟩ =>
    show k0_off1 ic 1 + 1 * k.val = k.val
    rw [ho]; show 0 + 1 * k.val = _; omega

/-! ## What the last tile stores: the column bias added, the columns split by head -/

/-- The head split of a (256, 1024) matrix: entry (k, h, d) is the matrix's (k, 64·h + d). -/
theorem shapeCast_heads_apply {α : Type} (x : S256x1024.Idx → α) (k : Fin 256) (h : Fin 16) (d : Fin 64) :
    shapeCast S256x16x64 x shapeCasts_S256x1024_S256x16x64 (ix3 k h d) = x (ix2 k (col h d)) :=
  shapeCast_apply x _ _ _ (by
    rw [Shape.rowMajor_val_three, Shape.rowMajor_val_two]
    show k.val * 1024 + (h.val * 64 + d.val) = (k.val * 16 + h.val) * 64 + d.val
    omega)

/-- A (256, 1) column broadcast along the 1024 columns reads its row. -/
theorem broadcast_col_apply {α : Type} (v : S256x1.Idx → α) (k : Fin 256) (e : Fin 1024) :
    broadcastTo S256x1024 v broadcasts_S256x1_S256x1024 (ix2 k e) = v (ix2 k 0) := by
  refine broadcastTo_apply v _ (ix2 k e) (ix2 k 0) fun ax => ?_
  match ax with
  | ⟨0, _⟩ => show k.val = if (256 : ℕ) = 1 then 0 else k.val; rw [if_neg (by decide)]
  | ⟨1, _⟩ => show 0 = if (1 : ℕ) = 1 then 0 else e.val; rw [if_pos rfl]

/-- The stored block: entry (·, h, k, d) is the accumulator's (k, 64·h + d) plus the column bias at k. -/
theorem pay3_apply (acc : Vec Ideal S256x1024 .f32) (cb : Vec Ideal S256x1 .f32) (u : Fin 1) (h : Fin 16) (k : Fin 256) (d : Fin 64) :
    k0_pay3 (F := Ideal) acc cb (ix4 u h k d) = acc (ix2 k (col h d)) + cb (ix2 k 0) := by
  unfold k0_pay3
  refine (shapeCast_abc_1abc_apply _ shapeCasts_S16x256x64_S1x16x256x64 u h k d).trans ?_
  refine (transpose_apply _ _ transposes_S256x16x64_p1_0_2_S16x256x64 (ix3 h k d) (ix3 k h d)
    (fun c => match c with | ⟨0, _⟩ => rfl | ⟨1, _⟩ => rfl | ⟨2, _⟩ => rfl)).trans ?_
  refine (shapeCast_heads_apply _ k h d).trans ?_
  show acc (ix2 k (col h d)) + broadcastTo S256x1024 (shapeCast S256x1 cb shapeCasts_S256x1_S256x1) broadcasts_S256x1_S256x1024 (ix2 k (col h d)) = _
  refine congrArg (acc (ix2 k (col h d)) + ·) ?_
  refine (broadcast_col_apply _ k (col h d)).trans ?_
  exact congrFun (shapeCast_self cb shapeCasts_S256x1_S256x1) (ix2 k 0)

theorem pay4_apply (acc : Vec Ideal S256x1024 .f32) (cb : Vec Ideal S256x1 .f32) (u : Fin 1) (h : Fin 16) (k : Fin 256) (d : Fin 64) :
    k0_pay4 (F := Ideal) acc cb (ix4 u h k d) = acc (ix2 k (col h d)) + cb (ix2 k 0) := by
  unfold k0_pay4
  refine (shapeCast_abc_1abc_apply _ shapeCasts_S16x256x64_S1x16x256x64 u h k d).trans ?_
  refine (transpose_apply _ _ transposes_S256x16x64_p1_0_2_S16x256x64 (ix3 h k d) (ix3 k h d)
    (fun c => match c with | ⟨0, _⟩ => rfl | ⟨1, _⟩ => rfl | ⟨2, _⟩ => rfl)).trans ?_
  refine (shapeCast_heads_apply _ k h d).trans ?_
  show acc (ix2 k (col h d)) + broadcastTo S256x1024 (shapeCast S256x1 cb shapeCasts_S256x1_S256x1) broadcasts_S256x1_S256x1024 (ix2 k (col h d)) = _
  refine congrArg (acc (ix2 k (col h d)) + ·) ?_
  refine (broadcast_col_apply _ k (col h d)).trans ?_
  exact congrFun (shapeCast_self cb shapeCasts_S256x1_S256x1) (ix2 k 0)

/-! # The blocks a point reads, as entries of the arrays -/

section Blocks
variable (V : (c : Dev nD) → (b : Ref sig .tc) → Buf (Elt Ideal) ((c : Thread nD τ).loc b)) (c : Dev nD)

/-- Where each window's block sits at a point, and the point's tile: decided over the grid. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ (grid0.coords t 1).val = t.val % 4 :=
  (by decide +kernel : ∀ t : Fin grid0.N, _)

/-- The blocks at a point, each at its literal type. -/
abbrev xblk (t : Fin cfg0.N) : Vec Ideal S1x512x1024 .f32 := iblk0 V c 0 t
abbrev wkblk (t : Fin cfg0.N) : Vec Ideal S1024x1024 .bf16 := iblk0 V c 1 t
abbrev bkblk (t : Fin cfg0.N) : Vec Ideal S1x1024 .f32 := iblk0 V c 2 t
abbrev wvblk (t : Fin cfg0.N) : Vec Ideal S1024x1024 .bf16 := iblk0 V c 3 t
abbrev bvblk (t : Fin cfg0.N) : Vec Ideal S1x1024 .f32 := iblk0 V c 4 t
abbrev eblk (t : Fin cfg0.N) : Vec Ideal S2048x256 .bf16 := iblk0 V c 5 t
abbrev fblk (t : Fin cfg0.N) : Vec Ideal S2048x256 .bf16 := iblk0 V c 6 t
abbrev ebblk (t : Fin cfg0.N) : Vec Ideal S256x1 .f32 := iblk0 V c 7 t
abbrev fbblk (t : Fin cfg0.N) : Vec Ideal S256x1 .f32 := iblk0 V c 8 t

/-- The value block at tile `i` of batch `b` holds rows `512·i …` of the batch. -/
theorem xblk_apply (t : Fin cfg0.N) (b i : Fin 4) (ht : t.val = 4 * b.val + i.val) (r : Fin 512) (d : Fin 1024) :
    xblk V c t (ix3 0 r d) = (V c main_arg1 : S4x2048x1024.Idx → EReal) (ix3 b (row i r) d) := by
  obtain ⟨e0, e1, e2, -⟩ := idx_facts t
  show V c main_arg1 (((cfg0.win 0).blk t).view.emb (ix3 0 r d)) = V c main_arg1 (ix3 b (row i r) d)
  refine congrArg _ (funext fun a => Fin.ext ?_)
  match a with
  | ⟨0, _⟩ => show win0_0.index t (0 : Fin 3) * 1 + 1 * 0 = b.val; have := i.isLt; omega
  | ⟨1, _⟩ => show win0_0.index t (1 : Fin 3) * 512 + 1 * r.val = i.val * 512 + r.val; have := i.isLt; omega
  | ⟨2, _⟩ => show win0_0.index t (2 : Fin 3) * 1024 + 1 * d.val = d.val; omega

theorem wkblk_apply (t : Fin cfg0.N) (d e : Fin 1024) :
    wkblk V c t (ix2 d e) = (V c main_v6 : S1024x1024.Idx → EReal) (ix2 d e) := by
  obtain ⟨-, -, -, e0, e1, -⟩ := idx_facts t
  show V c main_v6 (((cfg0.win 1).blk t).view.emb (ix2 d e)) = V c main_v6 (ix2 d e)
  refine congrArg _ (funext fun a => Fin.ext ?_)
  match a with
  | ⟨0, _⟩ => show win0_1.index t (0 : Fin 2) * 1024 + 1 * d.val = d.val; omega
  | ⟨1, _⟩ => show win0_1.index t (1 : Fin 2) * 1024 + 1 * e.val = e.val; omega

theorem bkblk_apply (t : Fin cfg0.N) (e : Fin 1024) :
    bkblk V c t (ix2 0 e) = (V c main_v11 : S1x1024.Idx → EReal) (ix2 0 e) := by
  obtain ⟨-, -, -, -, -, e0, e1, -⟩ := idx_facts t
  show V c main_v11 (((cfg0.win 2).blk t).view.emb (ix2 0 e)) = V c main_v11 (ix2 0 e)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * e.val = e.val; omega

theorem wvblk_apply (t : Fin cfg0.N) (d e : Fin 1024) :
    wvblk V c t (ix2 d e) = (V c main_v7 : S1024x1024.Idx → EReal) (ix2 d e) := by
  obtain ⟨-, -, -, -, -, -, -, e0, e1, -⟩ := idx_facts t
  show V c main_v7 (((cfg0.win 3).blk t).view.emb (ix2 d e)) = V c main_v7 (ix2 d e)
  refine congrArg _ (funext fun a => Fin.ext ?_)
  match a with
  | ⟨0, _⟩ => show win0_3.index t (0 : Fin 2) * 1024 + 1 * d.val = d.val; omega
  | ⟨1, _⟩ => show win0_3.index t (1 : Fin 2) * 1024 + 1 * e.val = e.val; omega

theorem bvblk_apply (t : Fin cfg0.N) (e : Fin 1024) :
    bvblk V c t (ix2 0 e) = (V c main_v12 : S1x1024.Idx → EReal) (ix2 0 e) := by
  obtain ⟨-, -, -, -, -, -, -, -, -, e0, e1, -⟩ := idx_facts t
  show V c main_v12 (((cfg0.win 4).blk t).view.emb (ix2 0 e)) = V c main_v12 (ix2 0 e)
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * e.val = e.val; omega

theorem eblk_apply (t : Fin cfg0.N) (s : Fin 2048) (k : Fin 256) :
    eblk V c t (ix2 s k) = (V c main_v9 : S2048x256.Idx → EReal) (ix2 s k) := by
  obtain ⟨-, -, -, -, -, -, -, -, -, -, -, e0, e1, -⟩ := idx_facts t
  show V c main_v9 (((cfg0.win 5).blk t).view.emb (ix2 s k)) = V c main_v9 (ix2 s k)
  refine congrArg _ (funext fun a => Fin.ext ?_)
  match a with
  | ⟨0, _⟩ => show win0_5.index t (0 : Fin 2) * 2048 + 1 * s.val = s.val; omega
  | ⟨1, _⟩ => show win0_5.index t (1 : Fin 2) * 256 + 1 * k.val = k.val; omega

theorem fblk_apply (t : Fin cfg0.N) (s : Fin 2048) (k : Fin 256) :
    fblk V c t (ix2 s k) = (V c main_v10 : S2048x256.Idx → EReal) (ix2 s k) := by
  obtain ⟨-, -, -, -, -, -, -, -, -, -, -, -, -, e0, e1, -⟩ := idx_facts t
  show V c main_v10 (((cfg0.win 6).blk t).view.emb (ix2 s k)) = V c main_v10 (ix2 s k)
  refine congrArg _ (funext fun a => Fin.ext ?_)
  match a with
  | ⟨0, _⟩ => show win0_6.index t (0 : Fin 2) * 2048 + 1 * s.val = s.val; omega
  | ⟨1, _⟩ => show win0_6.index t (1 : Fin 2) * 256 + 1 * k.val = k.val; omega

theorem ebblk_apply (t : Fin cfg0.N) (k : Fin 256) :
    ebblk V c t (ix2 k 0) = (V c main_v14 : S256x1.Idx → EReal) (ix2 k 0) := by
  obtain ⟨-, -, -, -, -, -, -, -, -, -, -, -, -, -, -, e0, e1, -⟩ := idx_facts t
  show V c main_v14 (((cfg0.win 7).blk t).view.emb (ix2 k 0)) = V c main_v14 (ix2 k 0)
  refine congrArg _ (funext fun a => Fin.ext ?_)
  match a with
  | ⟨0, _⟩ => show win0_7.index t (0 : Fin 2) * 256 + 1 * k.val = k.val; omega
  | ⟨1, _⟩ => show win0_7.index t (1 : Fin 2) * 1 + 1 * 0 = 0; omega

theorem fbblk_apply (t : Fin cfg0.N) (k : Fin 256) :
    fbblk V c t (ix2 k 0) = (V c main_v15 : S256x1.Idx → EReal) (ix2 k 0) := by
  obtain ⟨-, -, -, -, -, -, -, -, -, -, -, -, -, -, -, -, -, e0, e1, -⟩ := idx_facts t
  show V c main_v15 (((cfg0.win 8).blk t).view.emb (ix2 k 0)) = V c main_v15 (ix2 k 0)
  refine congrArg _ (funext fun a => Fin.ext ?_)
  match a with
  | ⟨0, _⟩ => show win0_8.index t (0 : Fin 2) * 256 + 1 * k.val = k.val; omega
  | ⟨1, _⟩ => show win0_8.index t (1 : Fin 2) * 1 + 1 * 0 = 0; omega

end Blocks

/-! # The accumulators over the four tiles of a batch -/

/-- One tile's contribution, read off the arrays: the tile's rows of the projection matrix against the tile's rows of the
    linear layer. -/
theorem term_eq (x : Vec Ideal S1x512x1024 .f32) (w : Vec Ideal S1024x1024 .bf16) (bias : Vec Ideal S1x1024 .f32)
    (p : Vec Ideal S2048x256 .bf16) (ic : grid0.Coords) (value : A3) (W : AW) (B : AB) (P : AE) (b i : Fin 4)
    (hi : (ic 1).val = i.val)
    (hx : ∀ (r : Fin 512) (d : Fin 1024), x (ix3 0 r d) = value (ix3 b (row i r) d))
    (hw : ∀ (d e : Fin 1024), w (ix2 d e) = W (ix2 d e))
    (hb : ∀ e : Fin 1024, bias (ix2 0 e) = B (ix1 e))
    (hp : ∀ (s : Fin 2048) (k : Fin 256), p (ix2 s k) = P (ix2 s k)) (k : Fin 256) (e : Fin 1024) :
    ∑ r : Fin 512, tile0 (F := Ideal) ic p (ix2 r k) * ((∑ d : Fin 1024, x (ix3 0 r d) * w (ix2 d e)) + bias (ix2 0 e))
      = ∑ r : Fin 512, P (ix2 (row i r) k) * lin value W B b (row i r) e := by
  refine Finset.sum_congr rfl fun r _ => ?_
  rw [tile0_apply ic i hi p r k, hp, hb]
  unfold lin
  exact congrArg (P (ix2 (row i r) k) * ·) (congrArg (· + B (ix1 e)) (Finset.sum_congr rfl fun d _ => by rw [hx, hw]))

/-- An accumulator that restarts from zero at the first tile of each batch and adds the tile's contribution at every tile
    holds, after the batch's last tile, the sum accumulated tile by tile. -/
theorem chain_value (A : (n : ℕ) → n < cfg0.N → Vec Ideal S256x1024 .f32)
    (T : Fin cfg0.N → Fin 256 → Fin 1024 → EReal)
    (hfirst : ∀ t : Fin cfg0.N, t.val % 4 = 0 → ∀ (k : Fin 256) (e : Fin 1024), A t.val t.isLt (ix2 k e) = 0 + T t k e)
    (hnext : ∀ t : Fin cfg0.N, ¬t.val % 4 = 0 → ∀ (k : Fin 256) (e : Fin 1024),
      A t.val t.isLt (ix2 k e) = A (t.val - 1) (Nat.lt_of_le_of_lt (Nat.sub_le _ _) t.isLt) (ix2 k e) + T t k e)
    (K : T3) (P : AE)
    (hT : ∀ (t : Fin cfg0.N) (b i : Fin 4), t.val = 4 * b.val + i.val → ∀ (k : Fin 256) (e : Fin 1024),
      T t k e = ∑ r : Fin 512, P (ix2 (row i r) k) * K b (row i r) e)
    (t : Fin cfg0.N) (b : Fin 4) (ht : t.val = 4 * b.val + 3) (k : Fin 256) (e : Fin 1024) :
    A t.val t.isLt (ix2 k e) = tileSum (fun s => P (ix2 s k) * K b s e) := by
  have hN : cfg0.N = 16 := N_0
  have hb := b.isLt
  have hA : ∀ (n n' : ℕ) (h : n < cfg0.N) (h' : n' < cfg0.N), n = n' → A n h = A n' h' := by
    intro n n' h h' en; subst en; rfl
  have h0 : 4 * b.val < cfg0.N := by omega
  have h1 : 4 * b.val + 1 < cfg0.N := by omega
  have h2 : 4 * b.val + 2 < cfg0.N := by omega
  have s0 : A (4 * b.val) h0 (ix2 k e) = 0 + T ⟨4 * b.val, h0⟩ k e :=
    hfirst ⟨4 * b.val, h0⟩ (by show 4 * b.val % 4 = 0; omega) k e
  have s1 : A (4 * b.val + 1) h1 (ix2 k e) = A (4 * b.val) h0 (ix2 k e) + T ⟨4 * b.val + 1, h1⟩ k e :=
    (hnext ⟨4 * b.val + 1, h1⟩ (by show ¬(4 * b.val + 1) % 4 = 0; omega) k e).trans
      (congrArg (· + T ⟨4 * b.val + 1, h1⟩ k e) (congrFun (hA _ _ _ h0 (by show 4 * b.val + 1 - 1 = 4 * b.val; omega)) (ix2 k e)))
  have s2 : A (4 * b.val + 2) h2 (ix2 k e) = A (4 * b.val + 1) h1 (ix2 k e) + T ⟨4 * b.val + 2, h2⟩ k e :=
    (hnext ⟨4 * b.val + 2, h2⟩ (by show ¬(4 * b.val + 2) % 4 = 0; omega) k e).trans
      (congrArg (· + T ⟨4 * b.val + 2, h2⟩ k e) (congrFun (hA _ _ _ h1 (by show 4 * b.val + 2 - 1 = 4 * b.val + 1; omega)) (ix2 k e)))
  have s3 : A t.val t.isLt (ix2 k e) = A (4 * b.val + 2) h2 (ix2 k e) + T t k e :=
    (hnext t (by omega) k e).trans
      (congrArg (· + T t k e) (congrFun (hA _ _ _ h2 (by omega)) (ix2 k e)))
  rw [s3, s2, s1, s0, hT t b 3 ht k e, hT ⟨4 * b.val + 2, h2⟩ b 2 rfl k e, hT ⟨4 * b.val + 1, h1⟩ b 1 rfl k e,
    hT ⟨4 * b.val, h0⟩ b 0 rfl k e]
  rfl

section Acc
variable (V : (c : Dev nD) → (b : Ref sig .tc) → Buf (Elt Ideal) ((c : Thread nD τ).loc b)) (c : Dev nD)

/-- The key tile's contribution at a point, over the point's blocks. -/
abbrev kterm (t : Fin cfg0.N) (k : Fin 256) (e : Fin 1024) : EReal :=
  ∑ r : Fin 512, tile0 (F := Ideal) (grid0.coords t) (eblk V c t) (ix2 r k)
    * ((∑ d : Fin 1024, xblk V c t (ix3 0 r d) * wkblk V c t (ix2 d e)) + bkblk V c t (ix2 0 e))
/-- The value tile's. -/
abbrev vterm (t : Fin cfg0.N) (k : Fin 256) (e : Fin 1024) : EReal :=
  ∑ r : Fin 512, tile0 (F := Ideal) (grid0.coords t) (fblk V c t) (ix2 r k)
    * ((∑ d : Fin 1024, xblk V c t (ix3 0 r d) * wvblk V c t (ix2 d e)) + bvblk V c t (ix2 0 e))

theorem kacc_first (t : Fin cfg0.N) (h : t.val % 4 = 0) (k : Fin 256) (e : Fin 1024) :
    ((acc0 V c t.val t.isLt).1 : Vec Ideal S256x1024 .f32) (ix2 k e) = 0 + kterm V c t k e := by
  rw [acc0_first V c t h]
  show kstep (F := Ideal) (xblk V c t) (wkblk V c t) (bkblk V c t) (tile0 (grid0.coords t) (eblk V c t)) (k0_pay5 (F := Ideal)) (ix2 k e) = _
  refine (congrFun (kstep_eq (xblk V c t) (wkblk V c t) (bkblk V c t) (tile0 (grid0.coords t) (eblk V c t)) (k0_pay5 (F := Ideal))) (ix2 k e)).trans ?_
  refine (stepCore_apply (xblk V c t) (wkblk V c t) (bkblk V c t) (tile0 (grid0.coords t) (eblk V c t)) (k0_pay5 (F := Ideal)) k e).trans ?_
  exact congrArg (· + kterm V c t k e) (pay5_apply k e)

theorem kacc_next (t : Fin cfg0.N) (h : ¬t.val % 4 = 0) (k : Fin 256) (e : Fin 1024) :
    ((acc0 V c t.val t.isLt).1 : Vec Ideal S256x1024 .f32) (ix2 k e)
      = ((acc0 V c (t.val - 1) (Nat.lt_of_le_of_lt (Nat.sub_le _ _) t.isLt)).1 : Vec Ideal S256x1024 .f32) (ix2 k e) + kterm V c t k e := by
  rw [acc0_next V c t h]
  show kstep (F := Ideal) (xblk V c t) (wkblk V c t) (bkblk V c t) (tile0 (grid0.coords t) (eblk V c t)) (acc0 V c (t.val - 1) (Nat.lt_of_le_of_lt (Nat.sub_le _ _) t.isLt)).1 (ix2 k e) = _
  refine (congrFun (kstep_eq (xblk V c t) (wkblk V c t) (bkblk V c t) (tile0 (grid0.coords t) (eblk V c t)) (acc0 V c (t.val - 1) (Nat.lt_of_le_of_lt (Nat.sub_le _ _) t.isLt)).1) (ix2 k e)).trans ?_
  exact stepCore_apply (xblk V c t) (wkblk V c t) (bkblk V c t) (tile0 (grid0.coords t) (eblk V c t)) (acc0 V c (t.val - 1) (Nat.lt_of_le_of_lt (Nat.sub_le _ _) t.isLt)).1 k e

theorem vacc_first (t : Fin cfg0.N) (h : t.val % 4 = 0) (k : Fin 256) (e : Fin 1024) :
    ((acc0 V c t.val t.isLt).2 : Vec Ideal S256x1024 .f32) (ix2 k e) = 0 + vterm V c t k e := by
  rw [acc0_first V c t h]
  show vstep (F := Ideal) (xblk V c t) (wvblk V c t) (bvblk V c t) (tile0 (grid0.coords t) (fblk V c t)) (k0_pay6 (F := Ideal)) (ix2 k e) = _
  refine (congrFun (vstep_eq (xblk V c t) (wvblk V c t) (bvblk V c t) (tile0 (grid0.coords t) (fblk V c t)) (k0_pay6 (F := Ideal))) (ix2 k e)).trans ?_
  refine (stepCore_apply (xblk V c t) (wvblk V c t) (bvblk V c t) (tile0 (grid0.coords t) (fblk V c t)) (k0_pay6 (F := Ideal)) k e).trans ?_
  exact congrArg (· + vterm V c t k e) (pay6_apply k e)

theorem vacc_next (t : Fin cfg0.N) (h : ¬t.val % 4 = 0) (k : Fin 256) (e : Fin 1024) :
    ((acc0 V c t.val t.isLt).2 : Vec Ideal S256x1024 .f32) (ix2 k e)
      = ((acc0 V c (t.val - 1) (Nat.lt_of_le_of_lt (Nat.sub_le _ _) t.isLt)).2 : Vec Ideal S256x1024 .f32) (ix2 k e) + vterm V c t k e := by
  rw [acc0_next V c t h]
  show vstep (F := Ideal) (xblk V c t) (wvblk V c t) (bvblk V c t) (tile0 (grid0.coords t) (fblk V c t)) (acc0 V c (t.val - 1) (Nat.lt_of_le_of_lt (Nat.sub_le _ _) t.isLt)).2 (ix2 k e) = _
  refine (congrFun (vstep_eq (xblk V c t) (wvblk V c t) (bvblk V c t) (tile0 (grid0.coords t) (fblk V c t)) (acc0 V c (t.val - 1) (Nat.lt_of_le_of_lt (Nat.sub_le _ _) t.isLt)).2) (ix2 k e)).trans ?_
  exact stepCore_apply (xblk V c t) (wvblk V c t) (bvblk V c t) (tile0 (grid0.coords t) (fblk V c t)) (acc0 V c (t.val - 1) (Nat.lt_of_le_of_lt (Nat.sub_le _ _) t.isLt)).2 k e

end Acc

/-! # From the last tile's block to the output arrays -/

/-- The output array a projected layer ends in: entry (b, h, k, d) is the tiled sequence projection at (b, k, column d of head h). -/
abbrev outArr (K : T3) (P : AE) (Pb : AEb) : S4x16x256x64.Idx → EReal :=
  fun j => seqProjTiled K P Pb (j 0) (j 2) (col (j 1) (j 3))

/-- Output 9's block is written where its index map says: batch `t / 4`, all of the other axes. -/
theorem out_idx9 : ∀ t : Fin cfg0.N,
    win0_9.index t (0 : Fin 4) = t.val / 4 ∧ win0_9.index t (1 : Fin 4) = 0 ∧ win0_9.index t (2 : Fin 4) = 0
    ∧ win0_9.index t (3 : Fin 4) = 0 :=
  (by decide +kernel : ∀ t : Fin grid0.N, _)

/-- An entry of the array is in point `t`'s block iff each coordinate is in the block's range on its axis. -/
theorem mem_blk9 (t : Fin cfg0.N) (i : S4x16x256x64.Idx) :
    i ∈ ((cfg0.win 9).blk t).view.set ↔ ∀ a : Fin 4, win0_9.index t a * S1x16x256x64.size a ≤ (i a).val ∧ (i a).val < win0_9.index t a * S1x16x256x64.size a + S1x16x256x64.size a := by
  show i ∈ ((View.whole main_v16_0).slice (win0_9.rect t)).set ↔ _
  rw [View.set_slice_whole, Rect.mem_set_unit]
  exact Iff.rfl

/-- Every entry of batch `b` is covered by the batch's last point. -/
theorem cover9 (i : S4x16x256x64.Idx) :
    ∃ t : Fin cfg0.N, (cfg0.win 9).flush t = true ∧ i ∈ ((cfg0.win 9).blk t).view.set := by
  have hN : cfg0.N = 16 := N_0
  have hi0 : (i 0).val < 4 := (i 0).isLt
  have hi1 : (i 1).val < 16 := (i 1).isLt
  have hi2 : (i 2).val < 256 := (i 2).isLt
  have hi3 : (i 3).val < 64 := (i 3).isLt
  have hlt : 4 * (i 0).val + 3 < cfg0.N := by omega
  refine ⟨⟨4 * (i 0).val + 3, hlt⟩, (flush0_9 _).mpr (by show (4 * (i 0).val + 3) % 4 = 3; omega), ?_⟩
  rw [mem_blk9]
  obtain ⟨o0, o1, o2, o3⟩ := out_idx9 ⟨4 * (i 0).val + 3, hlt⟩
  have o0' : win0_9.index ⟨4 * (i 0).val + 3, hlt⟩ (0 : Fin 4) = (4 * (i 0).val + 3) / 4 := o0
  intro a
  match a with
  | ⟨0, _⟩ => show win0_9.index ⟨4 * (i 0).val + 3, hlt⟩ (0 : Fin 4) * 1 ≤ (i 0).val ∧ (i 0).val < win0_9.index ⟨4 * (i 0).val + 3, hlt⟩ (0 : Fin 4) * 1 + 1; omega
  | ⟨1, _⟩ => show win0_9.index ⟨4 * (i 0).val + 3, hlt⟩ (1 : Fin 4) * 16 ≤ (i 1).val ∧ (i 1).val < win0_9.index ⟨4 * (i 0).val + 3, hlt⟩ (1 : Fin 4) * 16 + 16; omega
  | ⟨2, _⟩ => show win0_9.index ⟨4 * (i 0).val + 3, hlt⟩ (2 : Fin 4) * 256 ≤ (i 2).val ∧ (i 2).val < win0_9.index ⟨4 * (i 0).val + 3, hlt⟩ (2 : Fin 4) * 256 + 256; omega
  | ⟨3, _⟩ => show win0_9.index ⟨4 * (i 0).val + 3, hlt⟩ (3 : Fin 4) * 64 ≤ (i 3).val ∧ (i 3).val < win0_9.index ⟨4 * (i 0).val + 3, hlt⟩ (3 : Fin 4) * 64 + 64; omega

/-- Output 10's block is written where its index map says: batch `t / 4`, all of the other axes. -/
theorem out_idx10 : ∀ t : Fin cfg0.N,
    win0_10.index t (0 : Fin 4) = t.val / 4 ∧ win0_10.index t (1 : Fin 4) = 0 ∧ win0_10.index t (2 : Fin 4) = 0
    ∧ win0_10.index t (3 : Fin 4) = 0 :=
  (by decide +kernel : ∀ t : Fin grid0.N, _)

/-- An entry of the array is in point `t`'s block iff each coordinate is in the block's range on its axis. -/
theorem mem_blk10 (t : Fin cfg0.N) (i : S4x16x256x64.Idx) :
    i ∈ ((cfg0.win 10).blk t).view.set ↔ ∀ a : Fin 4, win0_10.index t a * S1x16x256x64.size a ≤ (i a).val ∧ (i a).val < win0_10.index t a * S1x16x256x64.size a + S1x16x256x64.size a := by
  show i ∈ ((View.whole main_v16_1).slice (win0_10.rect t)).set ↔ _
  rw [View.set_slice_whole, Rect.mem_set_unit]
  exact Iff.rfl

/-- Every entry of batch `b` is covered by the batch's last point. -/
theorem cover10 (i : S4x16x256x64.Idx) :
    ∃ t : Fin cfg0.N, (cfg0.win 10).flush t = true ∧ i ∈ ((cfg0.win 10).blk t).view.set := by
  have hN : cfg0.N = 16 := N_0
  have hi0 : (i 0).val < 4 := (i 0).isLt
  have hi1 : (i 1).val < 16 := (i 1).isLt
  have hi2 : (i 2).val < 256 := (i 2).isLt
  have hi3 : (i 3).val < 64 := (i 3).isLt
  have hlt : 4 * (i 0).val + 3 < cfg0.N := by omega
  refine ⟨⟨4 * (i 0).val + 3, hlt⟩, (flush0_10 _).mpr (by show (4 * (i 0).val + 3) % 4 = 3; omega), ?_⟩
  rw [mem_blk10]
  obtain ⟨o0, o1, o2, o3⟩ := out_idx10 ⟨4 * (i 0).val + 3, hlt⟩
  have o0' : win0_10.index ⟨4 * (i 0).val + 3, hlt⟩ (0 : Fin 4) = (4 * (i 0).val + 3) / 4 := o0
  intro a
  match a with
  | ⟨0, _⟩ => show win0_10.index ⟨4 * (i 0).val + 3, hlt⟩ (0 : Fin 4) * 1 ≤ (i 0).val ∧ (i 0).val < win0_10.index ⟨4 * (i 0).val + 3, hlt⟩ (0 : Fin 4) * 1 + 1; omega
  | ⟨1, _⟩ => show win0_10.index ⟨4 * (i 0).val + 3, hlt⟩ (1 : Fin 4) * 16 ≤ (i 1).val ∧ (i 1).val < win0_10.index ⟨4 * (i 0).val + 3, hlt⟩ (1 : Fin 4) * 16 + 16; omega
  | ⟨2, _⟩ => show win0_10.index ⟨4 * (i 0).val + 3, hlt⟩ (2 : Fin 4) * 256 ≤ (i 2).val ∧ (i 2).val < win0_10.index ⟨4 * (i 0).val + 3, hlt⟩ (2 : Fin 4) * 256 + 256; omega
  | ⟨3, _⟩ => show win0_10.index ⟨4 * (i 0).val + 3, hlt⟩ (3 : Fin 4) * 64 ≤ (i 3).val ∧ (i 3).val < win0_10.index ⟨4 * (i 0).val + 3, hlt⟩ (3 : Fin 4) * 64 + 64; omega

section Final
variable (V : (c : Dev nD) → (b : Ref sig .tc) → Buf (Elt Ideal) ((c : Thread nD τ).loc b)) (c : Dev nD)
variable (value : A3) (Wk Wv : AW) (bk bv : AB) (E Fm : AE) (Eb Fb : AEb)

/-- After a batch's last tile the key accumulator holds the tiled sum of the batch. -/
theorem kchain (W : AW) (B : AB) (P : AE)
    (hx : (V c main_arg1 : S4x2048x1024.Idx → EReal) = value)
    (hw : ∀ (d e : Fin 1024), (V c main_v6 : S1024x1024.Idx → EReal) (ix2 d e) = W (ix2 d e))
    (hb : ∀ e : Fin 1024, (V c main_v11 : S1x1024.Idx → EReal) (ix2 0 e) = B (ix1 e))
    (hp : ∀ (s : Fin 2048) (k : Fin 256), (V c main_v9 : S2048x256.Idx → EReal) (ix2 s k) = P (ix2 s k))
    (t : Fin cfg0.N) (b : Fin 4) (ht : t.val = 4 * b.val + 3) (k : Fin 256) (e : Fin 1024) :
    ((acc0 V c t.val t.isLt).1 : Vec Ideal S256x1024 .f32) (ix2 k e) = tileSum (fun s => P (ix2 s k) * lin value W B b s e) :=
  chain_value (fun n h => (acc0 V c n h).1) (kterm V c) (kacc_first V c) (kacc_next V c) (lin value W B) P
    (fun t b i ht k e => term_eq (xblk V c t) (wkblk V c t) (bkblk V c t) (eblk V c t) (grid0.coords t) value W B P b i
      (by have h := (idx_facts t).2.2.2.2.2.2.2.2.2.2.2.2.2.2.2.2.2.2.2; have := i.isLt; omega)
      (fun r d => (xblk_apply V c t b i ht r d).trans (congrFun hx _))
      (fun d e => (wkblk_apply V c t d e).trans (hw d e))
      (fun e => (bkblk_apply V c t e).trans (hb e))
      (fun s k => (eblk_apply V c t s k).trans (hp s k)) k e)
    t b ht k e

/-- After a batch's last tile the value accumulator holds the tiled sum of the batch. -/
theorem vchain (W : AW) (B : AB) (P : AE)
    (hx : (V c main_arg1 : S4x2048x1024.Idx → EReal) = value)
    (hw : ∀ (d e : Fin 1024), (V c main_v7 : S1024x1024.Idx → EReal) (ix2 d e) = W (ix2 d e))
    (hb : ∀ e : Fin 1024, (V c main_v12 : S1x1024.Idx → EReal) (ix2 0 e) = B (ix1 e))
    (hp : ∀ (s : Fin 2048) (k : Fin 256), (V c main_v10 : S2048x256.Idx → EReal) (ix2 s k) = P (ix2 s k))
    (t : Fin cfg0.N) (b : Fin 4) (ht : t.val = 4 * b.val + 3) (k : Fin 256) (e : Fin 1024) :
    ((acc0 V c t.val t.isLt).2 : Vec Ideal S256x1024 .f32) (ix2 k e) = tileSum (fun s => P (ix2 s k) * lin value W B b s e) :=
  chain_value (fun n h => (acc0 V c n h).2) (vterm V c) (vacc_first V c) (vacc_next V c) (lin value W B) P
    (fun t b i ht k e => term_eq (xblk V c t) (wvblk V c t) (bvblk V c t) (fblk V c t) (grid0.coords t) value W B P b i
      (by have h := (idx_facts t).2.2.2.2.2.2.2.2.2.2.2.2.2.2.2.2.2.2.2; have := i.isLt; omega)
      (fun r d => (xblk_apply V c t b i ht r d).trans (congrFun hx _))
      (fun d e => (wvblk_apply V c t d e).trans (hw d e))
      (fun e => (bvblk_apply V c t e).trans (hb e))
      (fun s k => (fblk_apply V c t s k).trans (hp s k)) k e)
    t b ht k e

variable (hx : (V c main_arg1 : S4x2048x1024.Idx → EReal) = value)
    (hwk : ∀ (d e : Fin 1024), (V c main_v6 : S1024x1024.Idx → EReal) (ix2 d e) = Wk (ix2 d e))
    (hbk : ∀ e : Fin 1024, (V c main_v11 : S1x1024.Idx → EReal) (ix2 0 e) = bk (ix1 e))
    (hwv : ∀ (d e : Fin 1024), (V c main_v7 : S1024x1024.Idx → EReal) (ix2 d e) = Wv (ix2 d e))
    (hbv : ∀ e : Fin 1024, (V c main_v12 : S1x1024.Idx → EReal) (ix2 0 e) = bv (ix1 e))
    (hE : ∀ (s : Fin 2048) (k : Fin 256), (V c main_v9 : S2048x256.Idx → EReal) (ix2 s k) = E (ix2 s k))
    (hF : ∀ (s : Fin 2048) (k : Fin 256), (V c main_v10 : S2048x256.Idx → EReal) (ix2 s k) = Fm (ix2 s k))
    (hEb : ∀ k : Fin 256, (V c main_v14 : S256x1.Idx → EReal) (ix2 k 0) = Eb (ix1 k))
    (hFb : ∀ k : Fin 256, (V c main_v15 : S256x1.Idx → EReal) (ix2 k 0) = Fb (ix1 k))
include hx hwk hbk hwv hbv hE hF hEb hFb

/-- What the batch's last point writes back is its block of the tiled sequence projection. -/
theorem flushed9_eq (t : Fin cfg0.N) (hf : (cfg0.win 9).flush t = true) :
    (dat0 V c).flushed 9 t = ((cfg0.win 9).blk t).view.read (Elt Ideal) (outArr (lin value Wk bk) E Eb) := by
  have h3 : t.val % 4 = 3 := (flush0_9 t).mp hf
  have hN : cfg0.N = 16 := N_0
  have hlt := t.isLt
  obtain ⟨o0, o1, o2, o3⟩ := out_idx9 t
  show (cfg0.win 9).cut (grid0.coords t) ((dat0 V c).after 9 t) = _
  rw [after0_9]
  funext j
  obtain ⟨u, h, k, d, rfl⟩ : ∃ (u : Fin 1) (h : Fin 16) (k : Fin 256) (d : Fin 64), j = ix4 u h k d :=
    ⟨j 0, j 1, j 2, j 3, eq_ix4 j⟩
  have hemb : ((cfg0.win 9).blk t).view.emb (ix4 u h k d) = ix4 (⟨t.val / 4, by omega⟩ : Fin 4) h k d :=
    funext fun a => Fin.ext (by
      match a with
      | ⟨0, _⟩ => show win0_9.index t (0 : Fin 4) * 1 + 1 * u.val = t.val / 4; have := u.isLt; omega
      | ⟨1, _⟩ => show win0_9.index t (1 : Fin 4) * 16 + 1 * h.val = h.val; omega
      | ⟨2, _⟩ => show win0_9.index t (2 : Fin 4) * 256 + 1 * k.val = k.val; omega
      | ⟨3, _⟩ => show win0_9.index t (3 : Fin 4) * 64 + 1 * d.val = d.val; omega)
  show k0_pay3 (F := Ideal) (acc0 V c t.val t.isLt).1 (ebblk V c t) (ix4 u h k d)
    = outArr (lin value Wk bk) E Eb (((cfg0.win 9).blk t).view.emb (ix4 u h k d))
  rw [hemb]
  refine (pay3_apply (acc0 V c t.val t.isLt).1 (ebblk V c t) u h k d).trans ?_
  rw [kchain V c value Wk bk E hx hwk hbk hE t ⟨t.val / 4, by omega⟩ (by show t.val = 4 * (t.val / 4) + 3; omega) k (col h d),
    ebblk_apply V c t k, hEb k]
  rfl

/-- So the array ends holding the tiled sequence projection, head by head. -/
theorem final9 : (dat0 V c).arrAt 9 cfg0.N = outArr (lin value Wk bk) E Eb :=
  (dat0 V c).arrAt_eq_of_cover 9 (outArr (lin value Wk bk) E Eb) (fun t hf => flushed9_eq V c value Wk Wv bk bv E Fm Eb Fb hx hwk hbk hwv hbv hE hF hEb hFb t hf) cover9

/-- What the batch's last point writes back is its block of the tiled sequence projection. -/
theorem flushed10_eq (t : Fin cfg0.N) (hf : (cfg0.win 10).flush t = true) :
    (dat0 V c).flushed 10 t = ((cfg0.win 10).blk t).view.read (Elt Ideal) (outArr (lin value Wv bv) Fm Fb) := by
  have h3 : t.val % 4 = 3 := (flush0_10 t).mp hf
  have hN : cfg0.N = 16 := N_0
  have hlt := t.isLt
  obtain ⟨o0, o1, o2, o3⟩ := out_idx10 t
  show (cfg0.win 10).cut (grid0.coords t) ((dat0 V c).after 10 t) = _
  rw [after0_10]
  funext j
  obtain ⟨u, h, k, d, rfl⟩ : ∃ (u : Fin 1) (h : Fin 16) (k : Fin 256) (d : Fin 64), j = ix4 u h k d :=
    ⟨j 0, j 1, j 2, j 3, eq_ix4 j⟩
  have hemb : ((cfg0.win 10).blk t).view.emb (ix4 u h k d) = ix4 (⟨t.val / 4, by omega⟩ : Fin 4) h k d :=
    funext fun a => Fin.ext (by
      match a with
      | ⟨0, _⟩ => show win0_10.index t (0 : Fin 4) * 1 + 1 * u.val = t.val / 4; have := u.isLt; omega
      | ⟨1, _⟩ => show win0_10.index t (1 : Fin 4) * 16 + 1 * h.val = h.val; omega
      | ⟨2, _⟩ => show win0_10.index t (2 : Fin 4) * 256 + 1 * k.val = k.val; omega
      | ⟨3, _⟩ => show win0_10.index t (3 : Fin 4) * 64 + 1 * d.val = d.val; omega)
  show k0_pay4 (F := Ideal) (acc0 V c t.val t.isLt).2 (fbblk V c t) (ix4 u h k d)
    = outArr (lin value Wv bv) Fm Fb (((cfg0.win 10).blk t).view.emb (ix4 u h k d))
  rw [hemb]
  refine (pay4_apply (acc0 V c t.val t.isLt).2 (fbblk V c t) u h k d).trans ?_
  rw [vchain V c value Wv bv Fm hx hwv hbv hF t ⟨t.val / 4, by omega⟩ (by show t.val = 4 * (t.val / 4) + 3; omega) k (col h d),
    fbblk_apply V c t k, hFb k]
  rfl

/-- So the array ends holding the tiled sequence projection, head by head. -/
theorem final10 : (dat0 V c).arrAt 10 cfg0.N = outArr (lin value Wv bv) Fm Fb :=
  (dat0 V c).arrAt_eq_of_cover 10 (outArr (lin value Wv bv) Fm Fb) (fun t hf => flushed10_eq V c value Wk Wv bk bv E Fm Eb Fb hx hwk hbk hwv hbv hE hF hEb hFb t hf) cover10

end Final

/-! # What region 0 leaves in its two output arrays, at the extended reals

Region 0 runs on a (batch, row tile of 512 rows) grid. Over the four tiles of a batch each accumulator grows from zero
by the tile's contribution `Eₜᵀ·(xₜ·W + bias)`; after the last tile the column bias is added and the (256, 1024) result
is written head by head into the batch's block of the output. So output entry (b, h, k, d) is the tiled sequence
projection at (b, k, column d of head h). -/

/-- Given what the region finds in its nine operand arrays, its two output arrays end at the tiled sequence projections of
    the key and value layers, head by head. -/
theorem region0_value (V : (c : Dev nD) → (b : Ref sig .tc) → Buf (Elt Ideal) ((c : Thread nD τ).loc b)) (c : Dev nD)
    (value : A3) (Wk Wv : AW) (bk bv : AB) (E Fm : AE) (Eb Fb : AEb)
    (hx : (V c main_arg1 : S4x2048x1024.Idx → EReal) = value)
    (hwk : ∀ (d e : Fin 1024), (V c main_v6 : S1024x1024.Idx → EReal) (ix2 d e) = Wk (ix2 d e))
    (hbk : ∀ e : Fin 1024, (V c main_v11 : S1x1024.Idx → EReal) (ix2 0 e) = bk (ix1 e))
    (hwv : ∀ (d e : Fin 1024), (V c main_v7 : S1024x1024.Idx → EReal) (ix2 d e) = Wv (ix2 d e))
    (hbv : ∀ e : Fin 1024, (V c main_v12 : S1x1024.Idx → EReal) (ix2 0 e) = bv (ix1 e))
    (hE : ∀ (s : Fin 2048) (k : Fin 256), (V c main_v9 : S2048x256.Idx → EReal) (ix2 s k) = E (ix2 s k))
    (hF : ∀ (s : Fin 2048) (k : Fin 256), (V c main_v10 : S2048x256.Idx → EReal) (ix2 s k) = Fm (ix2 s k))
    (hEb : ∀ k : Fin 256, (V c main_v14 : S256x1.Idx → EReal) (ix2 k 0) = Eb (ix1 k))
    (hFb : ∀ k : Fin 256, (V c main_v15 : S256x1.Idx → EReal) (ix2 k 0) = Fb (ix1 k)) :
    (∀ (b : Fin 4) (h : Fin 16) (k : Fin 256) (d : Fin 64),
        ((dat0 V c).arrAt 9 cfg0.N : S4x16x256x64.Idx → EReal) (ix4 b h k d) = seqProjTiled (lin value Wk bk) E Eb b k (col h d))
    ∧ (∀ (b : Fin 4) (h : Fin 16) (k : Fin 256) (d : Fin 64),
        ((dat0 V c).arrAt 10 cfg0.N : S4x16x256x64.Idx → EReal) (ix4 b h k d) = seqProjTiled (lin value Wv bv) Fm Fb b k (col h d)) :=
  ⟨fun b h k d => congrFun (final9 V c value Wk Wv bk bv E Fm Eb Fb hx hwk hbk hwv hbv hE hF hEb hFb) (ix4 b h k d),
   fun b h k d => congrFun (final10 V c value Wk Wv bk bv E Fm Eb Fb hx hwk hbk hwv hbv hE hF hEb hFb) (ix4 b h k d)⟩

end Cert.KernelIdeal.Hand

end
-- ==== Proof.KI.K1Pay.lean ====
/- The payload of region 1's tile read at an index, over the extended reals. The tile's stored block is, row by row,
   the tail of the specification: the query row projected, split into 16 heads of 64 columns, scored against the
   batch's 256 projected keys, a softmax along those 256, the weighted sum of the projected values, the heads laid
   side by side again, the output projection and its bias. Here each operation of that chain is read at an index
   given by coordinates, and the chain is assembled. -/
import proofs.«430223_j86457691669062_3_alg».proof.Proof.Gen.KernelIdeal.Skeleton
import proofs.«430223_j86457691669062_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Idealize.SL.Sem
open Cert.Spec
open Cert.KernelIdeal Cert.KernelIdeal.Gen

/-! ## The three products read at an index

Each operand index of a product, axis by axis: a batch axis and a kept axis carry the result index's coordinate, the
contracted axis carries the summation index. -/

theorem proj_lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem proj_lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem proj_rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem proj_rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
theorem score_lhs_0 (i : S16x256x256.Idx) (q : dot_S16x256x64_S16x256x64_S16x256x256_2_2_1_1_0_0.contr.Idx) :
    (dot_S16x256x64_S16x256x64_S16x256x256_2_2_1_1_0_0.lhsIdx i q 0).val = (i 0).val := by
  unfold DotDims.lhsIdx
  rw [dif_pos (show (0 : Fin S16x256x64.rank) ∈ dot_S16x256x64_S16x256x64_S16x256x256_2_2_1_1_0_0.lhsBatch by decide)]
  rfl
theorem score_lhs_1 (i : S16x256x256.Idx) (q : dot_S16x256x64_S16x256x64_S16x256x256_2_2_1_1_0_0.contr.Idx) :
    (dot_S16x256x64_S16x256x64_S16x256x256_2_2_1_1_0_0.lhsIdx i q 1).val = (i 1).val := by
  unfold DotDims.lhsIdx
  rw [dif_neg (show ¬(1 : Fin S16x256x64.rank) ∈ dot_S16x256x64_S16x256x64_S16x256x256_2_2_1_1_0_0.lhsBatch by decide), dif_pos (show (1 : Fin S16x256x64.rank) ∈ dot_S16x256x64_S16x256x64_S16x256x256_2_2_1_1_0_0.lhsNonContracting by decide)]
  rfl
theorem score_lhs_2 (i : S16x256x256.Idx) (q : dot_S16x256x64_S16x256x64_S16x256x256_2_2_1_1_0_0.contr.Idx) :
    (dot_S16x256x64_S16x256x64_S16x256x256_2_2_1_1_0_0.lhsIdx i q 2).val = (q ⟨0, by decide⟩).val :=
  dot_S16x256x64_S16x256x64_S16x256x256_2_2_1_1_0_0.lhsIdx_val_of_single rfl i q
theorem score_rhs_0 (i : S16x256x256.Idx) (q : dot_S16x256x64_S16x256x64_S16x256x256_2_2_1_1_0_0.contr.Idx) :
    (dot_S16x256x64_S16x256x64_S16x256x256_2_2_1_1_0_0.rhsIdx i q 0).val = (i 0).val := by
  unfold DotDims.rhsIdx
  rw [dif_pos (show (0 : Fin S16x256x64.rank) ∈ dot_S16x256x64_S16x256x64_S16x256x256_2_2_1_1_0_0.rhsBatch by decide)]
  rfl
theorem score_rhs_1 (i : S16x256x256.Idx) (q : dot_S16x256x64_S16x256x64_S16x256x256_2_2_1_1_0_0.contr.Idx) :
    (dot_S16x256x64_S16x256x64_S16x256x256_2_2_1_1_0_0.rhsIdx i q 1).val = (i 2).val := by
  unfold DotDims.rhsIdx
  rw [dif_neg (show ¬(1 : Fin S16x256x64.rank) ∈ dot_S16x256x64_S16x256x64_S16x256x256_2_2_1_1_0_0.rhsBatch by decide), dif_pos (show (1 : Fin S16x256x64.rank) ∈ dot_S16x256x64_S16x256x64_S16x256x256_2_2_1_1_0_0.rhsNonContracting by decide)]
  rfl
theorem score_rhs_2 (i : S16x256x256.Idx) (q : dot_S16x256x64_S16x256x64_S16x256x256_2_2_1_1_0_0.contr.Idx) :
    (dot_S16x256x64_S16x256x64_S16x256x256_2_2_1_1_0_0.rhsIdx i q 2).val = (q ⟨0, by decide⟩).val :=
  dot_S16x256x64_S16x256x64_S16x256x256_2_2_1_1_0_0.rhsIdx_val_of_single rfl i q
theorem mix_lhs_0 (i : S16x256x64.Idx) (q : dot_S16x256x256_S16x256x64_S16x256x64_2_1_1_2_0_0.contr.Idx) :
    (dot_S16x256x256_S16x256x64_S16x256x64_2_1_1_2_0_0.lhsIdx i q 0).val = (i 0).val := by
  unfold DotDims.lhsIdx
  rw [dif_pos (show (0 : Fin S16x256x256.rank) ∈ dot_S16x256x256_S16x256x64_S16x256x64_2_1_1_2_0_0.lhsBatch by decide)]
  rfl
theorem mix_lhs_1 (i : S16x256x64.Idx) (q : dot_S16x256x256_S16x256x64_S16x256x64_2_1_1_2_0_0.contr.Idx) :
    (dot_S16x256x256_S16x256x64_S16x256x64_2_1_1_2_0_0.lhsIdx i q 1).val = (i 1).val := by
  unfold DotDims.lhsIdx
  rw [dif_neg (show ¬(1 : Fin S16x256x256.rank) ∈ dot_S16x256x256_S16x256x64_S16x256x64_2_1_1_2_0_0.lhsBatch by decide), dif_pos (show (1 : Fin S16x256x256.rank) ∈ dot_S16x256x256_S16x256x64_S16x256x64_2_1_1_2_0_0.lhsNonContracting by decide)]
  rfl
theorem mix_lhs_2 (i : S16x256x64.Idx) (q : dot_S16x256x256_S16x256x64_S16x256x64_2_1_1_2_0_0.contr.Idx) :
    (dot_S16x256x256_S16x256x64_S16x256x64_2_1_1_2_0_0.lhsIdx i q 2).val = (q ⟨0, by decide⟩).val :=
  dot_S16x256x256_S16x256x64_S16x256x64_2_1_1_2_0_0.lhsIdx_val_of_single rfl i q
theorem mix_rhs_0 (i : S16x256x64.Idx) (q : dot_S16x256x256_S16x256x64_S16x256x64_2_1_1_2_0_0.contr.Idx) :
    (dot_S16x256x256_S16x256x64_S16x256x64_2_1_1_2_0_0.rhsIdx i q 0).val = (i 0).val := by
  unfold DotDims.rhsIdx
  rw [dif_pos (show (0 : Fin S16x256x64.rank) ∈ dot_S16x256x256_S16x256x64_S16x256x64_2_1_1_2_0_0.rhsBatch by decide)]
  rfl
theorem mix_rhs_1 (i : S16x256x64.Idx) (q : dot_S16x256x256_S16x256x64_S16x256x64_2_1_1_2_0_0.contr.Idx) :
    (dot_S16x256x256_S16x256x64_S16x256x64_2_1_1_2_0_0.rhsIdx i q 1).val = (q ⟨0, by decide⟩).val :=
  dot_S16x256x256_S16x256x64_S16x256x64_2_1_1_2_0_0.rhsIdx_val_of_single rfl i q
theorem mix_rhs_2 (i : S16x256x64.Idx) (q : dot_S16x256x256_S16x256x64_S16x256x64_2_1_1_2_0_0.contr.Idx) :
    (dot_S16x256x256_S16x256x64_S16x256x64_2_1_1_2_0_0.rhsIdx i q 2).val = (i 2).val := by
  unfold DotDims.rhsIdx
  rw [dif_neg (show ¬(2 : Fin S16x256x64.rank) ∈ dot_S16x256x256_S16x256x64_S16x256x64_2_1_1_2_0_0.rhsBatch by decide), dif_pos (show (2 : Fin S16x256x64.rank) ∈ dot_S16x256x256_S16x256x64_S16x256x64_2_1_1_2_0_0.rhsNonContracting by decide)]
  rfl

/-- A [256, 1024] by [1024, 1024] product into a zero accumulator, at row `r` and column `e`: the sum over the
    1024 contracted columns. -/
theorem matmul_rows_apply (a : FVec Ideal S256x1024 .bf16) (w : FVec Ideal S1024x1024 .bf16) (r : Fin 256) (e : Fin 1024) :
    matmul dot_S256x1024_S1024x1024_S256x1024_1_0_0_1_n_n none a w (constant S256x1024 .f32 0x00000000#32) (ix2 r e)
      = ∑ d : Fin 1024, a (ix2 r d) * w (ix2 d e) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r e) ((contrEquiv1 dot_S256x1024_S1024x1024_S256x1024_1_0_0_1_n_n 1024 rfl rfl).symm k) = ix2 r k := funext fun a => Fin.ext (by
    match a with
    | ⟨0, _⟩ => exact proj_lhs_0 _ _
    | ⟨1, _⟩ => exact (proj_lhs_1 _ _).trans hk)
  have er : dot_S256x1024_S1024x1024_S256x1024_1_0_0_1_n_n.rhsIdx (ix2 r e) ((contrEquiv1 dot_S256x1024_S1024x1024_S256x1024_1_0_0_1_n_n 1024 rfl rfl).symm k) = ix2 k e := funext fun a => Fin.ext (by
    match a with
    | ⟨0, _⟩ => exact (proj_rhs_0 _ _).trans hk
    | ⟨1, _⟩ => exact proj_rhs_1 _ _)
  rw [el, er]

/-- The heads' score products: a [16, 256, 64] by [16, 256, 64] product batched over the 16 heads and contracted over
    the 64 columns of a head, into a zero accumulator, at head `h`, query row `r`, projected row `k`. -/
theorem matmul_scores_apply (a b : FVec Ideal S16x256x64 .bf16) (h : Fin 16) (r k : Fin 256) :
    matmul dot_S16x256x64_S16x256x64_S16x256x256_2_2_1_1_0_0 none a b (constant S16x256x256 .f32 0x00000000#32) (ix3 h r k)
      = ∑ d : Fin 64, a (ix3 h r d) * b (ix3 h k d) := by
  simp only [matmul]
  rw [Ideal.matmul_constant_zero_apply, ← Equiv.sum_comp (contrEquiv1 dot_S16x256x64_S16x256x64_S16x256x256_2_2_1_1_0_0 64 rfl rfl).symm]
  refine Finset.sum_congr rfl fun d _ => ?_
  have hd := contrEquiv1_symm_val dot_S16x256x64_S16x256x64_S16x256x256_2_2_1_1_0_0 64 rfl rfl d
  have el : dot_S16x256x64_S16x256x64_S16x256x256_2_2_1_1_0_0.lhsIdx (ix3 h r k) ((contrEquiv1 dot_S16x256x64_S16x256x64_S16x256x256_2_2_1_1_0_0 64 rfl rfl).symm d) = ix3 h r d := funext fun a => Fin.ext (by
    match a with
    | ⟨0, _⟩ => exact score_lhs_0 _ _
    | ⟨1, _⟩ => exact score_lhs_1 _ _
    | ⟨2, _⟩ => exact (score_lhs_2 _ _).trans hd)
  have er : dot_S16x256x64_S16x256x64_S16x256x256_2_2_1_1_0_0.rhsIdx (ix3 h r k) ((contrEquiv1 dot_S16x256x64_S16x256x64_S16x256x256_2_2_1_1_0_0 64 rfl rfl).symm d) = ix3 h k d := funext fun a => Fin.ext (by
    match a with
    | ⟨0, _⟩ => exact score_rhs_0 _ _
    | ⟨1, _⟩ => exact score_rhs_1 _ _
    | ⟨2, _⟩ => exact (score_rhs_2 _ _).trans hd)
  rw [el, er]

/-- The heads' mixing products: a [16, 256, 256] by [16, 256, 64] product batched over the 16 heads and contracted
    over the 256 projected rows, into a zero accumulator, at head `h`, query row `r`, column `d` of the head. -/
theorem matmul_mix_apply (p : FVec Ideal S16x256x256 .bf16) (v : FVec Ideal S16x256x64 .bf16) (h : Fin 16) (r : Fin 256) (d : Fin 64) :
    matmul dot_S16x256x256_S16x256x64_S16x256x64_2_1_1_2_0_0 none p v (constant S16x256x64 .f32 0x00000000#32) (ix3 h r d)
      = ∑ k : Fin 256, p (ix3 h r k) * v (ix3 h k d) := by
  simp only [matmul]
  rw [Ideal.matmul_constant_zero_apply, ← Equiv.sum_comp (contrEquiv1 dot_S16x256x256_S16x256x64_S16x256x64_2_1_1_2_0_0 256 rfl rfl).symm]
  refine Finset.sum_congr rfl fun k _ => ?_
  have hk := contrEquiv1_symm_val dot_S16x256x256_S16x256x64_S16x256x64_2_1_1_2_0_0 256 rfl rfl k
  have el : dot_S16x256x256_S16x256x64_S16x256x64_2_1_1_2_0_0.lhsIdx (ix3 h r d) ((contrEquiv1 dot_S16x256x256_S16x256x64_S16x256x64_2_1_1_2_0_0 256 rfl rfl).symm k) = ix3 h r k := funext fun a => Fin.ext (by
    match a with
    | ⟨0, _⟩ => exact mix_lhs_0 _ _
    | ⟨1, _⟩ => exact mix_lhs_1 _ _
    | ⟨2, _⟩ => exact (mix_lhs_2 _ _).trans hk)
  have er : dot_S16x256x256_S16x256x64_S16x256x64_2_1_1_2_0_0.rhsIdx (ix3 h r d) ((contrEquiv1 dot_S16x256x256_S16x256x64_S16x256x64_2_1_1_2_0_0 256 rfl rfl).symm k) = ix3 h k d := funext fun a => Fin.ext (by
    match a with
    | ⟨0, _⟩ => exact mix_rhs_0 _ _
    | ⟨1, _⟩ => exact (mix_rhs_1 _ _).trans hk
    | ⟨2, _⟩ => exact mix_rhs_2 _ _)
  rw [el, er]

/-! ## Heads and feature columns -/

/-- The column of a feature within its head. -/
def laneOf (e : Fin 1024) : Fin 64 := ⟨e.val % 64, Nat.mod_lt _ (by decide)⟩

/-- A feature column is its head's column at its place within the head. -/
theorem col_headOf_laneOf (e : Fin 1024) : col (headOf e) (laneOf e) = e :=
  Fin.ext (by show e.val / 64 * 64 + e.val % 64 = e.val; omega)

/-! ## The layout operations read at an index -/

section Layout
variable {α : Type}

/-- A rank-3 array with its first two axes swapped reads, at `(j, i, k)`, the operand at `(i, j, k)`. -/
theorem transpose_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- The 1024 feature columns of a row split into 16 heads of 64: head `h`'s column `d` is feature column `col h d`. -/
theorem splitHeads_apply (x : S256x1024.Idx → α) (hs : S256x1024.ShapeCasts S256x16x64) (r : Fin 256) (h : Fin 16) (d : Fin 64) :
    shapeCast S256x16x64 x hs (ix3 r h d) = x (ix2 r (col h d)) :=
  shapeCast_apply x hs _ _ (by
    rw [Shape.rowMajor_val_two, Shape.rowMajor_val_three]
    show r.val * 1024 + (h.val * 64 + d.val) = (r.val * 16 + h.val) * 64 + d.val
    omega)

/-- The heads laid side by side again: feature column `e` is column `laneOf e` of head `headOf e`. -/
theorem mergeHeads_apply (x : S256x16x64.Idx → α) (hs : S256x16x64.ShapeCasts S256x1024) (r : Fin 256) (e : Fin 1024) :
    shapeCast S256x1024 x hs (ix2 r e) = x (ix3 r (headOf e) (laneOf e)) :=
  shapeCast_apply x hs _ _ (by
    rw [Shape.rowMajor_val_two, Shape.rowMajor_val_three]
    show (r.val * 16 + e.val / 64) * 64 + e.val % 64 = r.val * 1024 + e.val
    omega)

/-- A per-row value of each head, given a trailing unit axis and spread along the 256 projected rows, reads the row's
    value everywhere. -/
theorem spreadRow_apply (x : S16x256.Idx → α) (hs : S16x256.ShapeCasts S16x256x1) (hb : S16x256x1.Broadcasts S16x256x256)
    (h : Fin 16) (r k : Fin 256) :
    broadcastTo S16x256x256 (shapeCast S16x256x1 x hs) hb (ix3 h r k) = x (ix2 h r) := by
  refine (broadcastTo_apply _ hb (ix3 h r k) (ix3 h r (0 : Fin 1)) fun a => ?_).trans ?_
  · match a with
    | ⟨0, _⟩ => rfl
    | ⟨1, _⟩ => rfl
    | ⟨2, _⟩ => rfl
  · exact shapeCast_apply x hs _ _ (by
      rw [Shape.rowMajor_val_two, Shape.rowMajor_val_three]
      show h.val * 256 + r.val = (h.val * 256 + r.val) * 1 + 0
      omega)

/-- A [1, 1024] row spread over the 256 rows of a tile reads the row's value in every row. -/
theorem spreadBias_apply (x : S1x1024.Idx → α) (hs : S1x1024.ShapeCasts S1x1024) (hb : S1x1024.Broadcasts S256x1024)
    (r : Fin 256) (e : Fin 1024) :
    broadcastTo S256x1024 (shapeCast S1x1024 x hs) hb (ix2 r e) = x (ix2 (0 : Fin 1) e) := by
  rw [shapeCast_self]
  exact broadcastTo_1b_ab_apply x hb r e

end Layout

/-! ## The two lane reductions read at an index -/

/-- The word of `-∞` is the bottom of the extended reals. -/
theorem ofBits_neg_inf : Ideal.ofBits .f32 0xFF800000#32 = (⊥ : EReal) := by simp [Ideal.ofBits, Ideal.ieee]

/-- The index a lane reduction of a [16, 256, 256] array reads at `(h, r)` and lane `k`. -/
theorem lift_lane (hr : S16x256x256.Reduces [2] S16x256) (h : Fin 16) (r k : Fin 256) :
    hr.lift (ix2 h r) k = ix3 h r k :=
  funext fun a => Fin.ext (by
    match a with
    | ⟨0, _⟩ => rfl
    | ⟨1, _⟩ => rfl
    | ⟨2, _⟩ => rfl)

/-- The maximum along the lanes, from `-∞`: the fold of `max` from the bottom over the 256 lanes. -/
theorem laneMax_apply (s : FVec Ideal S16x256x256 .f32) (hr : S16x256x256.Reduces [2] S16x256) (hφ : FKind.Formats .f32)
    (hacc : (0xFF800000#32 : BitVec 32) = FKind.maximumf.neutral .f32 hφ) (h : Fin 16) (r : Fin 256) :
    multiReduction .maximumf [2] S16x256 s 0xFF800000#32 hr hφ hacc (ix2 h r)
      = (Finset.univ : Finset (Fin 256)).fold max (⊥ : EReal) (fun k => s (ix3 h r k)) := by
  refine (Ideal.multiReduction_maximumf_single s 0xFF800000#32 hr hφ hacc (ix2 h r)).trans ?_
  have e : (s ∘ hr.lift (ix2 h r)) = fun k : Fin 256 => s (ix3 h r k) := funext fun k => congrArg s (lift_lane hr h r k)
  rw [e]
  exact congrArg (fun b => (Finset.univ : Finset (Fin 256)).fold max b (fun k => s (ix3 h r k))) ofBits_neg_inf

/-- The sum along the lanes, from zero: the sum over the 256 lanes. -/
theorem laneSum_apply (s : FVec Ideal S16x256x256 .f32) (hr : S16x256x256.Reduces [2] S16x256) (hφ : FKind.Formats .f32)
    (hacc : (0x00000000#32 : BitVec 32) = FKind.add.neutral .f32 hφ) (h : Fin 16) (r : Fin 256) :
    multiReduction .add [2] S16x256 s 0x00000000#32 hr hφ hacc (ix2 h r) = ∑ k : Fin 256, s (ix3 h r k) := by
  refine (Ideal.multiReduction_add_single s 0x00000000#32 hr hφ hacc (ix2 h r)).trans ?_
  exact Finset.sum_congr rfl fun k _ => congrArg s (lift_lane hr h r k)

/-! ## The payload in five stages

The tile's payload, cut where its mathematics cuts: the query projection, the heads' scores, the softmax weights,
the mixed and re-merged context, the output projection. Each stage is the payload's own text over the stage before. -/

section Stages
variable {F : FTy → Type} [FloatOps F]

/-- The tile's 256 query rows projected: the rows times the weights, plus the bias row. -/
def qproj (v0 : Vec F S1x256x1024 .f32) (v3 : Vec F S1024x1024 .bf16) (v6 : Vec F S1x1024 .f32) : FVec F S256x1024 .f32 :=
  addf
    (matmul dot_S256x1024_S1024x1024_S256x1024_1_0_0_1_n_n none
      (truncf .bf16 (shapeCast S256x1024 v0 shapeCasts_S1x256x1024_S256x1024 : FVec F S256x1024 .f32) bitsLt_bf16_f32 : FVec F S256x1024 .bf16)
      (shapeCast S1024x1024 v3 shapeCasts_S1024x1024_S1024x1024 : FVec F S1024x1024 .bf16)
      (constant S256x1024 .f32 0x00000000#32))
    (broadcastTo S256x1024 (shapeCast S1x1024 v6 shapeCasts_S1x1024_S1x1024 : FVec F S1x1024 .f32) broadcasts_S1x1024_S256x1024)

/-- Head by head, the projected query rows against the batch's projected keys. -/
def scores (v9 : FVec F S256x1024 .f32) (v13 : Vec F S1x16x256x64 .bf16) : FVec F S16x256x256 .f32 :=
  matmul dot_S16x256x64_S16x256x64_S16x256x256_2_2_1_1_0_0 none
    (transpose S16x256x64 [1, 0, 2]
      (shapeCast S256x16x64 (truncf .bf16 v9 bitsLt_bf16_f32 : FVec F S256x1024 .bf16) shapeCasts_S256x1024_S256x16x64 : FVec F S256x16x64 .bf16)
      transposes_S256x16x64_p1_0_2_S16x256x64 : FVec F S16x256x64 .bf16)
    (shapeCast S16x256x64 v13 shapeCasts_S1x16x256x64_S16x256x64 : FVec F S16x256x64 .bf16)
    (constant S16x256x256 .f32 0x00000000#32)

/-- The scores less their row's maximum, exponentiated. -/
def shifted (v17 : FVec F S16x256x256 .f32) : FVec F S16x256x256 .f32 :=
  exp (subf v17
    (broadcastTo S16x256x256
      (shapeCast S16x256x1 (multiReduction .maximumf [2] S16x256 v17 0xFF800000#32 reduces_S16x256x256_S16x256 (.inl rfl) rfl : FVec F S16x256 .f32)
        shapeCasts_S16x256_S16x256x1 : FVec F S16x256x1 .f32)
      broadcasts_S16x256x1_S16x256x256))

/-- The softmax weights: each shifted exponential over its row's sum. -/
def weights (v17 : FVec F S16x256x256 .f32) : FVec F S16x256x256 .bf16 :=
  truncf .bf16
    (divf (shifted v17)
      (broadcastTo S16x256x256
        (shapeCast S16x256x1 (multiReduction .add [2] S16x256 (shifted v17) 0x00000000#32 reduces_S16x256x256_S16x256 (.inl rfl) rfl : FVec F S16x256 .f32)
          shapeCasts_S16x256_S16x256x1 : FVec F S16x256x1 .f32)
        broadcasts_S16x256x1_S16x256x256))
    bitsLt_bf16_f32

/-- Head by head, the weights times the batch's projected values, the heads then laid side by side again. -/
def mixed (v27 : FVec F S16x256x256 .bf16) (v15 : Vec F S1x16x256x64 .bf16) : FVec F S256x1024 .bf16 :=
  shapeCast S256x1024
    (transpose S256x16x64 [1, 0, 2]
      (truncf .bf16
        (matmul dot_S16x256x256_S16x256x64_S16x256x64_2_1_1_2_0_0 none v27
          (shapeCast S16x256x64 v15 shapeCasts_S1x16x256x64_S16x256x64 : FVec F S16x256x64 .bf16)
          (constant S16x256x64 .f32 0x00000000#32))
        bitsLt_bf16_f32 : FVec F S16x256x64 .bf16)
      transposes_S16x256x64_p1_0_2_S256x16x64 : FVec F S256x16x64 .bf16)
    shapeCasts_S256x16x64_S256x1024

/-- The context rows times the output weights. -/
def outProj (v31 : FVec F S256x1024 .bf16) (v32 : Vec F S1024x1024 .bf16) : FVec F S256x1024 .f32 :=
  matmul dot_S256x1024_S1024x1024_S256x1024_1_0_0_1_n_n none v31
    (shapeCast S1024x1024 v32 shapeCasts_S1024x1024_S1024x1024 : FVec F S1024x1024 .bf16)
    (constant S256x1024 .f32 0x00000000#32)

/-- The payload before the output bias is the five stages composed. -/
theorem k1_pay2_eq_stages (v0 : Vec F S1x256x1024 .f32) (v3 : Vec F S1024x1024 .bf16) (v6 : Vec F S1x1024 .f32)
    (v13 v15 : Vec F S1x16x256x64 .bf16) (v32 : Vec F S1024x1024 .bf16) :
    k1_pay2 v0 v3 v6 v13 v15 v32 = outProj (mixed (weights (scores (qproj v0 v3 v6) v13)) v15) v32 := rfl

end Stages

/-! ## Each stage read at an index, over the extended reals -/

/-- A projected query row at feature column `e`. -/
theorem qproj_apply (v0 : Vec Ideal S1x256x1024 .f32) (v3 : Vec Ideal S1024x1024 .bf16) (v6 : Vec Ideal S1x1024 .f32)
    (r : Fin 256) (e : Fin 1024) :
    qproj (F := Ideal) v0 v3 v6 (ix2 r e)
      = (∑ d : Fin 1024, (v0 (ix3 (0 : Fin 1) r d) : EReal) * (v3 (ix2 d e) : EReal)) + (v6 (ix2 (0 : Fin 1) e) : EReal) := by
  unfold qproj
  rw [addf_apply, matmul_rows_apply, spreadBias_apply]
  refine congrArg (· + _) (Finset.sum_congr rfl fun d _ => ?_)
  rw [truncf_apply, shapeCast_1ab_ab_apply, shapeCast_self]

/-- Head `h`'s score of the tile's row `r` against projected row `k`. -/
theorem scores_apply (v9 : FVec Ideal S256x1024 .f32) (v13 : Vec Ideal S1x16x256x64 .bf16) (h : Fin 16) (r k : Fin 256) :
    scores (F := Ideal) v9 v13 (ix3 h r k)
      = ∑ d : Fin 64, (v9 (ix2 r (col h d)) : EReal) * (v13 (ix4 (0 : Fin 1) h k d) : EReal) := by
  unfold scores
  rw [matmul_scores_apply]
  refine Finset.sum_congr rfl fun d _ => ?_
  rw [transpose_102_apply, splitHeads_apply, truncf_apply, shapeCast_1abc_abc_apply]

/-- A shifted exponential. -/
theorem shifted_apply (v17 : FVec Ideal S16x256x256 .f32) (h : Fin 16) (r k : Fin 256) :
    shifted (F := Ideal) v17 (ix3 h r k)
      = Ideal.exp (v17 (ix3 h r k) - (Finset.univ : Finset (Fin 256)).fold max (⊥ : EReal) (fun k' => v17 (ix3 h r k'))) := by
  unfold shifted
  show Ideal.exp (v17 (ix3 h r k) - broadcastTo S16x256x256 _ _ (ix3 h r k)) = _
  refine congrArg (fun m => Ideal.exp (v17 (ix3 h r k) - m)) ?_
  refine (spreadRow_apply _ _ _ h r k).trans ?_
  exact laneMax_apply v17 _ _ _ h r

/-- A softmax weight. -/
theorem weights_apply (v17 : FVec Ideal S16x256x256 .f32) (h : Fin 16) (r k : Fin 256) :
    weights (F := Ideal) v17 (ix3 h r k)
      = Ideal.div (shifted (F := Ideal) v17 (ix3 h r k)) (∑ k' : Fin 256, shifted (F := Ideal) v17 (ix3 h r k')) := by
  unfold weights
  show Ideal.div (shifted (F := Ideal) v17 (ix3 h r k)) (broadcastTo S16x256x256 _ _ (ix3 h r k)) = _
  refine congrArg (Ideal.div _) ?_
  refine (spreadRow_apply _ _ _ h r k).trans ?_
  exact laneSum_apply (shifted (F := Ideal) v17) _ _ _ h r

/-- The mixed context of the tile's row `r` at feature column `e`. -/
theorem mixed_apply (v27 : FVec Ideal S16x256x256 .bf16) (v15 : Vec Ideal S1x16x256x64 .bf16) (r : Fin 256) (e : Fin 1024) :
    mixed (F := Ideal) v27 v15 (ix2 r e)
      = ∑ k : Fin 256, (v27 (ix3 (headOf e) r k) : EReal) * (v15 (ix4 (0 : Fin 1) (headOf e) k (laneOf e)) : EReal) := by
  unfold mixed
  rw [mergeHeads_apply, transpose_102_apply, truncf_apply, matmul_mix_apply]
  refine Finset.sum_congr rfl fun k _ => ?_
  rw [shapeCast_1abc_abc_apply]

/-- The output projection of the tile's row `r` at feature column `e`, before the bias. -/
theorem outProj_apply (v31 : FVec Ideal S256x1024 .bf16) (v32 : Vec Ideal S1024x1024 .bf16) (r : Fin 256) (e : Fin 1024) :
    outProj (F := Ideal) v31 v32 (ix2 r e) = ∑ d : Fin 1024, (v31 (ix2 r d) : EReal) * (v32 (ix2 d e) : EReal) := by
  unfold outProj
  rw [matmul_rows_apply]
  refine Finset.sum_congr rfl fun d _ => ?_
  rw [shapeCast_self]

/-- The stored block: the bias row added, a leading unit axis put back. -/
theorem k1_pay1_apply (v34 : FVec Ideal S256x1024 .f32) (v35 : Vec Ideal S1x1024 .f32) (u : Fin 1) (r : Fin 256) (e : Fin 1024) :
    k1_pay1 (F := Ideal) v34 v35 (ix3 u r e) = (v34 (ix2 r e) : EReal) + (v35 (ix2 (0 : Fin 1) e) : EReal) := by
  unfold k1_pay1
  rw [shapeCast_ab_1ab_apply, addf_apply, spreadBias_apply]

/-! ## The stored block, row by row, is the specification's tail -/

/-- The tile's stored block at its row `r` and feature column `e` is the tail of the specification at row `s` of batch
    `b`, when the tile's blocks hold: the projected query of that row (`hQ`), the batch's projected keys and values
    head by head, the output weights and the output bias. -/
theorem payload_row (x0 : Vec Ideal S1x256x1024 .f32) (x1 : Vec Ideal S1024x1024 .bf16) (x2 : Vec Ideal S1x1024 .f32)
    (x3 x4 : Vec Ideal S1x16x256x64 .bf16) (x5 : Vec Ideal S1024x1024 .bf16) (x6 : Vec Ideal S1x1024 .f32)
    (Q : T3) (KP VP : TP) (Wo : AW) (bo : AB) (b : Fin 4) (s : Fin 2048) (r : Fin 256)
    (hQ : ∀ e : Fin 1024, (∑ d : Fin 1024, (x0 (ix3 (0 : Fin 1) r d) : EReal) * (x1 (ix2 d e) : EReal)) + (x2 (ix2 (0 : Fin 1) e) : EReal) = Q b s e)
    (h3 : ∀ (h : Fin 16) (k : Fin 256) (d : Fin 64), (x3 (ix4 (0 : Fin 1) h k d) : EReal) = KP b k (col h d))
    (h4 : ∀ (h : Fin 16) (k : Fin 256) (d : Fin 64), (x4 (ix4 (0 : Fin 1) h k d) : EReal) = VP b k (col h d))
    (h5 : ∀ d e : Fin 1024, (x5 (ix2 d e) : EReal) = Wo (ix2 d e))
    (h6 : ∀ e : Fin 1024, (x6 (ix2 (0 : Fin 1) e) : EReal) = bo (ix1 e))
    (u : Fin 1) (e : Fin 1024) :
    k1_pay1 (F := Ideal) (k1_pay2 (F := Ideal) x0 x1 x2 x3 x4 x5) x6 (ix3 u r e) = tail Q KP VP Wo bo (ix3 b s e) := by
  have hsc : ∀ (h : Fin 16) (k : Fin 256),
      scores (F := Ideal) (qproj (F := Ideal) x0 x1 x2) x3 (ix3 h r k) = score Q KP b h s k := fun h k => by
    rw [scores_apply]; unfold score
    refine Finset.sum_congr rfl fun d _ => ?_
    rw [qproj_apply, hQ, h3]
  have hsh : ∀ (h : Fin 16) (k : Fin 256),
      shifted (F := Ideal) (scores (F := Ideal) (qproj (F := Ideal) x0 x1 x2) x3) (ix3 h r k) = pexp Q KP b h s k := fun h k => by
    rw [shifted_apply]; unfold pexp rowMax
    simp only [hsc]
  rw [k1_pay2_eq_stages, k1_pay1_apply, outProj_apply, h6]
  show _ = (∑ e' : Fin 1024, ctx Q KP VP b s e' * Wo (ix2 e' e)) + bo (ix1 e)
  refine congrArg (· + bo (ix1 e)) (Finset.sum_congr rfl fun e' _ => ?_)
  rw [h5, mixed_apply]
  refine congrArg (· * Wo (ix2 e' e)) ?_
  unfold ctx
  refine Finset.sum_congr rfl fun k _ => ?_
  rw [h4, col_headOf_laneOf, weights_apply]
  refine congrArg (· * VP b k e') ?_
  unfold attn
  simp only [hsh]

end Cert.KernelIdeal.Hand

end
-- ==== Proof.KI.K1Value.lean ====
import proofs.«430223_j86457691669062_3_alg».proof.Proof.KI.R1Dat
import proofs.«430223_j86457691669062_3_alg».proof.Proof.KI.K1Pay
import proofs.«430223_j86457691669062_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.Spec
open Cert.KernelIdeal Cert.KernelIdeal.Gen

/-! # What region 1 leaves in its output array, at the extended reals

Region 1 runs on a (batch, query tile of 256 rows) grid. At a point it projects its 256 query rows (the scale already
folded into the weights and the bias it is handed), splits heads, scores them against the batch's projected keys,
takes the softmax over the 256 projected rows, multiplies by the projected values, merges heads and applies the
output projection. Row by row this is the shared tail of the specification, and the 32 blocks tile the output. -/

/-! ## The grid's points -/

/-- The grid has 32 points: 4 batch elements by 8 query tiles. -/
theorem lt32 (t : Fin cfg1.N) : t.val < 32 := Nat.lt_of_lt_of_eq t.isLt N_1

/-- The batch element of a point, -/
def batchOf (t : Fin cfg1.N) : Fin 4 := ⟨t.val / 8, by have := lt32 t; omega⟩
/-- and the array row of row `r` of its query tile. -/
def rowOf (t : Fin cfg1.N) (r : Fin 256) : Fin 2048 := ⟨t.val % 8 * 256 + r.val, by have := r.isLt; omega⟩

/-! ## The block index maps, decided over the grid -/

/-- The queries' and the output's windows move with both grid coordinates; -/
theorem idx0 : ∀ t : Fin cfg1.N, win1_0.index t (0 : Fin 3) = t.val / 8 ∧ win1_0.index t (1 : Fin 3) = t.val % 8 ∧ win1_0.index t (2 : Fin 3) = 0 :=
  (by decide +kernel : ∀ t : Fin grid1.N, _)
theorem idx7 : ∀ t : Fin cfg1.N, win1_7.index t (0 : Fin 3) = t.val / 8 ∧ win1_7.index t (1 : Fin 3) = t.val % 8 ∧ win1_7.index t (2 : Fin 3) = 0 :=
  (by decide +kernel : ∀ t : Fin grid1.N, _)
/-- the weights' and the biases' stay at their one block; -/
theorem idx1 : ∀ t : Fin cfg1.N, win1_1.index t (0 : Fin 2) = 0 ∧ win1_1.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
/-- the projected keys' and values' move with the batch. -/
theorem idx3 : ∀ t : Fin cfg1.N, win1_3.index t (0 : Fin 4) = t.val / 8 ∧ win1_3.index t (1 : Fin 4) = 0 ∧ win1_3.index t (2 : Fin 4) = 0 ∧ win1_3.index t (3 : Fin 4) = 0 :=
  (by decide +kernel : ∀ t : Fin grid1.N, _)
theorem idx4 : ∀ t : Fin cfg1.N, win1_4.index t (0 : Fin 4) = t.val / 8 ∧ win1_4.index t (1 : Fin 4) = 0 ∧ win1_4.index t (2 : Fin 4) = 0 ∧ win1_4.index t (3 : Fin 4) = 0 :=
  (by decide +kernel : ∀ t : Fin grid1.N, _)

section
variable (V : (c : Dev nD) → (b : Ref sig .tc) → Buf (Elt Ideal) ((c : Thread nD τ).loc b))

/-! ## The seven input blocks at a point, at their literal types -/

/-- The tile's query rows. -/
abbrev qblk (c : Dev nD) (t : Fin cfg1.N) : Vec Ideal S1x256x1024 .f32 := iblk1 V c 0 t
/-- The query weights. -/
abbrev wqblk (c : Dev nD) (t : Fin cfg1.N) : Vec Ideal S1024x1024 .bf16 := iblk1 V c 1 t
/-- The query bias row. -/
abbrev bqblk (c : Dev nD) (t : Fin cfg1.N) : Vec Ideal S1x1024 .f32 := iblk1 V c 2 t
/-- The batch's projected keys, head by head. -/
abbrev kblk (c : Dev nD) (t : Fin cfg1.N) : Vec Ideal S1x16x256x64 .bf16 := iblk1 V c 3 t
/-- The batch's projected values, head by head. -/
abbrev vblk (c : Dev nD) (t : Fin cfg1.N) : Vec Ideal S1x16x256x64 .bf16 := iblk1 V c 4 t
/-- The output weights. -/
abbrev woblk (c : Dev nD) (t : Fin cfg1.N) : Vec Ideal S1024x1024 .bf16 := iblk1 V c 5 t
/-- The output bias row. -/
abbrev boblk (c : Dev nD) (t : Fin cfg1.N) : Vec Ideal S1x1024 .f32 := iblk1 V c 6 t

/-! ## Each block read at an index is its array at the block's place -/

theorem qblk_read (c : Dev nD) (t : Fin cfg1.N) (r : Fin 256) (d : Fin 1024) :
    (qblk V c t (ix3 (0 : Fin 1) r d) : EReal) = (V c main_arg0 : S4x2048x1024.Idx → EReal) (ix3 (batchOf t) (rowOf t r) d) := by
  show (V c main_arg0 : S4x2048x1024.Idx → EReal) (((cfg1.win 0).blk t).view.emb (ix3 (0 : Fin 1) r d)) = _
  obtain ⟨e0, e1, e2⟩ := idx0 t
  refine congrArg (V c main_arg0 : S4x2048x1024.Idx → EReal) (funext fun a => Fin.ext ?_)
  match a with
  | ⟨0, _⟩ => show win1_0.index t (0 : Fin 3) * 1 + 1 * 0 = t.val / 8; omega
  | ⟨1, _⟩ => show win1_0.index t (1 : Fin 3) * 256 + 1 * r.val = t.val % 8 * 256 + r.val; omega
  | ⟨2, _⟩ => show win1_0.index t (2 : Fin 3) * 1024 + 1 * d.val = d.val; omega

theorem wqblk_read (c : Dev nD) (t : Fin cfg1.N) (d e : Fin 1024) :
    (wqblk V c t (ix2 d e) : EReal) = (V c main_v2 : S1024x1024.Idx → EReal) (ix2 d e) := by
  show (V c main_v2 : S1024x1024.Idx → EReal) (((cfg1.win 1).blk t).view.emb (ix2 d e)) = _
  obtain ⟨e0, e1⟩ := idx1 t
  refine congrArg (V c main_v2 : S1024x1024.Idx → EReal) (funext fun a => Fin.ext ?_)
  match a with
  | ⟨0, _⟩ => show win1_1.index t (0 : Fin 2) * 1024 + 1 * d.val = d.val; omega
  | ⟨1, _⟩ => show win1_1.index t (1 : Fin 2) * 1024 + 1 * e.val = e.val; omega

theorem bqblk_read (c : Dev nD) (t : Fin cfg1.N) (e : Fin 1024) :
    (bqblk V c t (ix2 (0 : Fin 1) e) : EReal) = (V c main_v5 : S1x1024.Idx → EReal) (ix2 (0 : Fin 1) e) := by
  show (V c main_v5 : S1x1024.Idx → EReal) (((cfg1.win 2).blk t).view.emb (ix2 (0 : Fin 1) e)) = _
  obtain ⟨e0, e1⟩ := idx2 t
  refine congrArg (V c main_v5 : S1x1024.Idx → EReal) (funext fun a => Fin.ext ?_)
  match a with
  | ⟨0, _⟩ => show win1_2.index t (0 : Fin 2) * 1 + 1 * 0 = 0; omega
  | ⟨1, _⟩ => show win1_2.index t (1 : Fin 2) * 1024 + 1 * e.val = e.val; omega

theorem kblk_read (c : Dev nD) (t : Fin cfg1.N) (h : Fin 16) (k : Fin 256) (d : Fin 64) :
    (kblk V c t (ix4 (0 : Fin 1) h k d) : EReal) = (V c main_v16_0 : S4x16x256x64.Idx → EReal) (ix4 (batchOf t) h k d) := by
  show (V c main_v16_0 : S4x16x256x64.Idx → EReal) (((cfg1.win 3).blk t).view.emb (ix4 (0 : Fin 1) h k d)) = _
  obtain ⟨e0, e1, e2, e3⟩ := idx3 t
  refine congrArg (V c main_v16_0 : S4x16x256x64.Idx → EReal) (funext fun a => Fin.ext ?_)
  match a with
  | ⟨0, _⟩ => show win1_3.index t (0 : Fin 4) * 1 + 1 * 0 = t.val / 8; omega
  | ⟨1, _⟩ => show win1_3.index t (1 : Fin 4) * 16 + 1 * h.val = h.val; omega
  | ⟨2, _⟩ => show win1_3.index t (2 : Fin 4) * 256 + 1 * k.val = k.val; omega
  | ⟨3, _⟩ => show win1_3.index t (3 : Fin 4) * 64 + 1 * d.val = d.val; omega

theorem vblk_read (c : Dev nD) (t : Fin cfg1.N) (h : Fin 16) (k : Fin 256) (d : Fin 64) :
    (vblk V c t (ix4 (0 : Fin 1) h k d) : EReal) = (V c main_v16_1 : S4x16x256x64.Idx → EReal) (ix4 (batchOf t) h k d) := by
  show (V c main_v16_1 : S4x16x256x64.Idx → EReal) (((cfg1.win 4).blk t).view.emb (ix4 (0 : Fin 1) h k d)) = _
  obtain ⟨e0, e1, e2, e3⟩ := idx4 t
  refine congrArg (V c main_v16_1 : S4x16x256x64.Idx → EReal) (funext fun a => Fin.ext ?_)
  match a with
  | ⟨0, _⟩ => show win1_4.index t (0 : Fin 4) * 1 + 1 * 0 = t.val / 8; omega
  | ⟨1, _⟩ => show win1_4.index t (1 : Fin 4) * 16 + 1 * h.val = h.val; omega
  | ⟨2, _⟩ => show win1_4.index t (2 : Fin 4) * 256 + 1 * k.val = k.val; omega
  | ⟨3, _⟩ => show win1_4.index t (3 : Fin 4) * 64 + 1 * d.val = d.val; omega

theorem woblk_read (c : Dev nD) (t : Fin cfg1.N) (d e : Fin 1024) :
    (woblk V c t (ix2 d e) : EReal) = (V c main_v8 : S1024x1024.Idx → EReal) (ix2 d e) := by
  show (V c main_v8 : S1024x1024.Idx → EReal) (((cfg1.win 5).blk t).view.emb (ix2 d e)) = _
  obtain ⟨e0, e1⟩ := idx5 t
  refine congrArg (V c main_v8 : S1024x1024.Idx → EReal) (funext fun a => Fin.ext ?_)
  match a with
  | ⟨0, _⟩ => show win1_5.index t (0 : Fin 2) * 1024 + 1 * d.val = d.val; omega
  | ⟨1, _⟩ => show win1_5.index t (1 : Fin 2) * 1024 + 1 * e.val = e.val; omega

theorem boblk_read (c : Dev nD) (t : Fin cfg1.N) (e : Fin 1024) :
    (boblk V c t (ix2 (0 : Fin 1) e) : EReal) = (V c main_v13 : S1x1024.Idx → EReal) (ix2 (0 : Fin 1) e) := by
  show (V c main_v13 : S1x1024.Idx → EReal) (((cfg1.win 6).blk t).view.emb (ix2 (0 : Fin 1) e)) = _
  obtain ⟨e0, e1⟩ := idx6 t
  refine congrArg (V c main_v13 : S1x1024.Idx → EReal) (funext fun a => Fin.ext ?_)
  match a with
  | ⟨0, _⟩ => show win1_6.index t (0 : Fin 2) * 1 + 1 * 0 = 0; omega
  | ⟨1, _⟩ => show win1_6.index t (1 : Fin 2) * 1024 + 1 * e.val = e.val; omega

/-- An element of the output's block at a point sits in the array at the point's batch element and the tile's row. -/
theorem outblk_emb (t : Fin cfg1.N) (u : Fin 1) (r : Fin 256) (e : Fin 1024) :
    (((cfg1.win 7).blk t).view.emb (ix3 u r e) : S4x2048x1024.Idx) = ix3 (batchOf t) (rowOf t r) e := by
  obtain ⟨e0, e1, e2⟩ := idx7 t
  have hu : u.val = 0 := by omega
  refine funext fun a => Fin.ext ?_
  match a with
  | ⟨0, _⟩ => show win1_7.index t (0 : Fin 3) * 1 + 1 * u.val = t.val / 8; omega
  | ⟨1, _⟩ => show win1_7.index t (1 : Fin 3) * 256 + 1 * r.val = t.val % 8 * 256 + r.val; omega
  | ⟨2, _⟩ => show win1_7.index t (2 : Fin 3) * 1024 + 1 * e.val = e.val; omega

/-! ## The output's blocks tile its array -/

/-- An index of the output array is in point `t`'s block iff each coordinate is in the block's range on its axis. -/
theorem mem_outblk (t : Fin cfg1.N) (i : S4x2048x1024.Idx) :
    i ∈ ((cfg1.win 7).blk t).view.set ↔ ∀ a : Fin 3, win1_7.index t a * S1x256x1024.size a ≤ (i a).val
      ∧ (i a).val < win1_7.index t a * S1x256x1024.size a + S1x256x1024.size a := by
  show i ∈ ((View.whole main_v17).slice (win1_7.rect t)).set ↔ _
  rw [View.set_slice_whole, Rect.mem_set_unit]
  exact Iff.rfl

/-- Row `s` of batch element `b` is under the block of point `8 b + s / 256`, which is written back. -/
theorem out_covered (i : S4x2048x1024.Idx) :
    ∃ t : Fin cfg1.N, (cfg1.win 7).flush t = true ∧ i ∈ ((cfg1.win 7).blk t).view.set := by
  have h0 : (i 0).val < 4 := (i 0).isLt
  have h1 : (i 1).val < 2048 := (i 1).isLt
  have h2 : (i 2).val < 1024 := (i 2).isLt
  have hN : (i 0).val * 8 + (i 1).val / 256 < cfg1.N := by rw [show cfg1.N = 32 from N_1]; omega
  obtain ⟨e0, e1, e2⟩ := idx7 ⟨(i 0).val * 8 + (i 1).val / 256, hN⟩
  have ht : (⟨(i 0).val * 8 + (i 1).val / 256, hN⟩ : Fin cfg1.N).val = (i 0).val * 8 + (i 1).val / 256 := rfl
  refine ⟨⟨(i 0).val * 8 + (i 1).val / 256, hN⟩, flush1_7 _, ?_⟩
  rw [mem_outblk]
  intro a
  match a with
  | ⟨0, _⟩ =>
    show win1_7.index ⟨(i 0).val * 8 + (i 1).val / 256, hN⟩ (0 : Fin 3) * 1 ≤ (i 0).val
      ∧ (i 0).val < win1_7.index ⟨(i 0).val * 8 + (i 1).val / 256, hN⟩ (0 : Fin 3) * 1 + 1
    omega
  | ⟨1, _⟩ =>
    show win1_7.index ⟨(i 0).val * 8 + (i 1).val / 256, hN⟩ (1 : Fin 3) * 256 ≤ (i 1).val
      ∧ (i 1).val < win1_7.index ⟨(i 0).val * 8 + (i 1).val / 256, hN⟩ (1 : Fin 3) * 256 + 256
    omega
  | ⟨2, _⟩ =>
    show win1_7.index ⟨(i 0).val * 8 + (i 1).val / 256, hN⟩ (2 : Fin 3) * 1024 ≤ (i 2).val
      ∧ (i 2).val < win1_7.index ⟨(i 0).val * 8 + (i 1).val / 256, hN⟩ (2 : Fin 3) * 1024 + 1024
    omega

/-! ## What a point writes back is its block of the specification's tail -/

/-- What point `t` writes back to the output array is the block at `t` of the tail of the specification, given what the
    region finds in its seven operand arrays. -/
theorem out_flushed_eq (c : Dev nD)
    (query : A3) (Wq : AW) (bq : AB) (cst : EReal) (KP VP : TP) (Wo : AW) (bo : AB)
    (hq : (V c main_arg0 : S4x2048x1024.Idx → EReal) = query)
    (hwq : ∀ (d e : Fin 1024), (V c main_v2 : S1024x1024.Idx → EReal) (ix2 d e) = Wq (ix2 d e) * cst)
    (hbq : ∀ e : Fin 1024, (V c main_v5 : S1x1024.Idx → EReal) (ix2 0 e) = bq (ix1 e) * cst)
    (hk : ∀ (b : Fin 4) (h : Fin 16) (k : Fin 256) (d : Fin 64), (V c main_v16_0 : S4x16x256x64.Idx → EReal) (ix4 b h k d) = KP b k (col h d))
    (hv : ∀ (b : Fin 4) (h : Fin 16) (k : Fin 256) (d : Fin 64), (V c main_v16_1 : S4x16x256x64.Idx → EReal) (ix4 b h k d) = VP b k (col h d))
    (hwo : ∀ (d e : Fin 1024), (V c main_v8 : S1024x1024.Idx → EReal) (ix2 d e) = Wo (ix2 d e))
    (hbo : ∀ e : Fin 1024, (V c main_v13 : S1x1024.Idx → EReal) (ix2 0 e) = bo (ix1 e))
    (t : Fin cfg1.N) :
    (dat1 V c).flushed 7 t = ((cfg1.win 7).blk t).view.read (Elt Ideal) (tail (linScaled query Wq bq cst) KP VP Wo bo) := by
  show (cfg1.win 7).cut (grid1.coords t) ((dat1 V c).after 7 t) = _
  rw [after1_7, out1_7_eq]
  refine funext fun (j : S1x256x1024.Idx) => ?_
  obtain ⟨u, r, e, rfl⟩ : ∃ (u : Fin 1) (r : Fin 256) (e : Fin 1024), j = ix3 u r e := ⟨j 0, j 1, j 2, eq_ix3 j⟩
  show k1_pay1 (F := Ideal) (k1_pay2 (F := Ideal) (qblk V c t) (wqblk V c t) (bqblk V c t) (kblk V c t) (vblk V c t) (woblk V c t)) (boblk V c t) (ix3 u r e)
    = tail (linScaled query Wq bq cst) KP VP Wo bo (((cfg1.win 7).blk t).view.emb (ix3 u r e))
  rw [outblk_emb t u r e]
  refine payload_row (qblk V c t) (wqblk V c t) (bqblk V c t) (kblk V c t) (vblk V c t) (woblk V c t) (boblk V c t)
    (linScaled query Wq bq cst) KP VP Wo bo (batchOf t) (rowOf t r) r ?_ ?_ ?_ ?_ ?_ u e
  · intro e'
    unfold linScaled
    refine congrArg₂ (· + ·) (Finset.sum_congr rfl fun d _ => ?_) ?_
    · rw [qblk_read, wqblk_read, hq, hwq]
    · rw [bqblk_read, hbq]
  · intro h k d; rw [kblk_read, hk]
  · intro h k d; rw [vblk_read, hv]
  · intro d e'; rw [woblk_read, hwo]
  · intro e'; rw [boblk_read, hbo]

end

/-- Given what the region finds in its seven operand arrays — the queries, the scaled query weights and bias, the projected
    keys and values laid out head by head, the output weights and bias — its output array ends at the specification's tail. -/
theorem region1_value (V : (c : Dev nD) → (b : Ref sig .tc) → Buf (Elt Ideal) ((c : Thread nD τ).loc b)) (c : Dev nD)
    (query : A3) (Wq : AW) (bq : AB) (cst : EReal) (KP VP : TP) (Wo : AW) (bo : AB)
    (hq : (V c main_arg0 : S4x2048x1024.Idx → EReal) = query)
    (hwq : ∀ (d e : Fin 1024), (V c main_v2 : S1024x1024.Idx → EReal) (ix2 d e) = Wq (ix2 d e) * cst)
    (hbq : ∀ e : Fin 1024, (V c main_v5 : S1x1024.Idx → EReal) (ix2 0 e) = bq (ix1 e) * cst)
    (hk : ∀ (b : Fin 4) (h : Fin 16) (k : Fin 256) (d : Fin 64), (V c main_v16_0 : S4x16x256x64.Idx → EReal) (ix4 b h k d) = KP b k (col h d))
    (hv : ∀ (b : Fin 4) (h : Fin 16) (k : Fin 256) (d : Fin 64), (V c main_v16_1 : S4x16x256x64.Idx → EReal) (ix4 b h k d) = VP b k (col h d))
    (hwo : ∀ (d e : Fin 1024), (V c main_v8 : S1024x1024.Idx → EReal) (ix2 d e) = Wo (ix2 d e))
    (hbo : ∀ e : Fin 1024, (V c main_v13 : S1x1024.Idx → EReal) (ix2 0 e) = bo (ix1 e)) :
    ((dat1 V c).arrAt 7 cfg1.N : S4x2048x1024.Idx → EReal) = tail (linScaled query Wq bq cst) KP VP Wo bo :=
  (dat1 V c).arrAt_eq_of_cover 7 (tail (linScaled query Wq bq cst) KP VP Wo bo)
    (fun t _ => out_flushed_eq V c query Wq bq cst KP VP Wo bo hq hwq hbq hk hv hwo hbo t) out_covered

end Cert.KernelIdeal.Hand

end
-- ==== Proof.KI.KValue.lean ====
import proofs.«430223_j86457691669062_3_alg».proof.Proof.KI.Run
import proofs.«430223_j86457691669062_3_alg».proof.Proof.KI.K0Value
import proofs.«430223_j86457691669062_3_alg».proof.Proof.KI.K1Value
import proofs.«430223_j86457691669062_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.Spec
open Cert.KernelIdeal Cert.KernelIdeal.Gen Idealize.ShloMosaic.StableHlo

/-! # The kernel program's result, at the extended reals, as the specification's tail

The host stretch before the regions only prepares operands: it scales the query weights and bias by the literal `1/8`,
changes the weights' and projection matrices' format (the identity here) and reshapes the biases to rows and columns.
Region 0 then leaves the tiled sequence projections of the key and value layers in its two output arrays, which region 1
reads beside the queries and the prepared operands; its output array is the result. -/

variable (m : (ℓ : Loc nD τ sig) → Buf (Elt Ideal) ℓ) (c : Dev nD)

/-- The scale literal. -/
abbrev cst8 : EReal := Ideal.ofBits .f32 0x3E000000#32

/-- An `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## What the host stretch leaves in the operands -/

/-- The argument arrays, each at its literal type. -/
abbrev a0 : FVec Ideal S4x2048x1024 .f32 := m ((c.tc : Thread nD τ).loc main_arg0)
abbrev a1 : FVec Ideal S4x2048x1024 .f32 := m ((c.tc : Thread nD τ).loc main_arg1)
abbrev a2 : FVec Ideal S1024x1024 .f32 := m ((c.tc : Thread nD τ).loc main_arg2)
abbrev a3 : FVec Ideal S1024 .f32 := m ((c.tc : Thread nD τ).loc main_arg3)
abbrev a4 : FVec Ideal S1024x1024 .f32 := m ((c.tc : Thread nD τ).loc main_arg4)
abbrev a5 : FVec Ideal S1024 .f32 := m ((c.tc : Thread nD τ).loc main_arg5)
abbrev a6 : FVec Ideal S1024x1024 .f32 := m ((c.tc : Thread nD τ).loc main_arg6)
abbrev a7 : FVec Ideal S1024 .f32 := m ((c.tc : Thread nD τ).loc main_arg7)
abbrev a8 : FVec Ideal S1024x1024 .f32 := m ((c.tc : Thread nD τ).loc main_arg8)
abbrev a9 : FVec Ideal S1024 .f32 := m ((c.tc : Thread nD τ).loc main_arg9)
abbrev a10 : FVec Ideal S2048x256 .f32 := m ((c.tc : Thread nD τ).loc main_arg10)
abbrev a11 : FVec Ideal S256 .f32 := m ((c.tc : Thread nD τ).loc main_arg11)
abbrev a12 : FVec Ideal S2048x256 .f32 := m ((c.tc : Thread nD τ).loc main_arg12)
abbrev a13 : FVec Ideal S256 .f32 := m ((c.tc : Thread nD τ).loc main_arg13)

/-- The query weights, scaled. -/
theorem host_v2 (d e : Fin 1024) : (U1 m c main_v2 : S1024x1024.Idx → EReal) (ix2 d e) = (a2 m c) (ix2 d e) * cst8 := by
  have e1 : @Eq (FVec Ideal S1024x1024 .bf16) (U1 m c main_v2) (truncf .bf16 (mulf (a2 m c)
      (broadcastInDim S1024x1024 ![] bcast_S_S1024x1024 (constant (F := Ideal) S_ .f32 0x3E000000#32))) bitsLt_bf16_f32) := by
    show StableHlo.after hostOps0 (W0 m c) (Proc.devRef .tc main_v2) = _
    after_results <;> rfl
  exact (congrFun e1 _).trans rfl

/-- The query bias, scaled, as a row. -/
theorem host_v5 (e : Fin 1024) : (U1 m c main_v5 : S1x1024.Idx → EReal) (ix2 0 e) = (a3 m c) (ix1 e) * cst8 := by
  have e1 : @Eq (FVec Ideal S1x1024 .f32) (U1 m c main_v5) (shapeCast S1x1024 (mulf (a3 m c)
      (broadcastInDim S1024 ![] bcast_S_S1024 (constant (F := Ideal) S_ .f32 0x3E000000#32))) shapeCasts_S1024_S1x1024) := by
    show StableHlo.after hostOps0 (W0 m c) (Proc.devRef .tc main_v5) = _
    after_results <;> rfl
  exact (congrFun e1 _).trans ((shapeCast_a_1a_apply _ _ 0 e).trans rfl)

theorem host_v6 (d e : Fin 1024) : (U1 m c main_v6 : S1024x1024.Idx → EReal) (ix2 d e) = (a4 m c) (ix2 d e) := by
  have e1 : @Eq (FVec Ideal S1024x1024 .bf16) (U1 m c main_v6) (truncf .bf16 (a4 m c) bitsLt_bf16_f32) := by
    show StableHlo.after hostOps0 (W0 m c) (Proc.devRef .tc main_v6) = _
    after_results <;> rfl
  exact (congrFun e1 _).trans rfl

theorem host_v7 (d e : Fin 1024) : (U1 m c main_v7 : S1024x1024.Idx → EReal) (ix2 d e) = (a6 m c) (ix2 d e) := by
  have e1 : @Eq (FVec Ideal S1024x1024 .bf16) (U1 m c main_v7) (truncf .bf16 (a6 m c) bitsLt_bf16_f32) := by
    show StableHlo.after hostOps0 (W0 m c) (Proc.devRef .tc main_v7) = _
    after_results <;> rfl
  exact (congrFun e1 _).trans rfl

theorem host_v8 (d e : Fin 1024) : (U1 m c main_v8 : S1024x1024.Idx → EReal) (ix2 d e) = (a8 m c) (ix2 d e) := by
  have e1 : @Eq (FVec Ideal S1024x1024 .bf16) (U1 m c main_v8) (truncf .bf16 (a8 m c) bitsLt_bf16_f32) := by
    show StableHlo.after hostOps0 (W0 m c) (Proc.devRef .tc main_v8) = _
    after_results <;> rfl
  exact (congrFun e1 _).trans rfl

theorem host_v9 (s : Fin 2048) (k : Fin 256) : (U1 m c main_v9 : S2048x256.Idx → EReal) (ix2 s k) = (a10 m c) (ix2 s k) := by
  have e1 : @Eq (FVec Ideal S2048x256 .bf16) (U1 m c main_v9) (truncf .bf16 (a10 m c) bitsLt_bf16_f32) := by
    show StableHlo.after hostOps0 (W0 m c) (Proc.devRef .tc main_v9) = _
    after_results <;> rfl
  exact (congrFun e1 _).trans rfl

theorem host_v10 (s : Fin 2048) (k : Fin 256) : (U1 m c main_v10 : S2048x256.Idx → EReal) (ix2 s k) = (a12 m c) (ix2 s k) := by
  have e1 : @Eq (FVec Ideal S2048x256 .bf16) (U1 m c main_v10) (truncf .bf16 (a12 m c) bitsLt_bf16_f32) := by
    show StableHlo.after hostOps0 (W0 m c) (Proc.devRef .tc main_v10) = _
    after_results <;> rfl
  exact (congrFun e1 _).trans rfl

theorem host_v11 (e : Fin 1024) : (U1 m c main_v11 : S1x1024.Idx → EReal) (ix2 0 e) = (a5 m c) (ix1 e) := by
  have e1 : @Eq (FVec Ideal S1x1024 .f32) (U1 m c main_v11) (shapeCast S1x1024 (a5 m c) shapeCasts_S1024_S1x1024) := by
    show StableHlo.after hostOps0 (W0 m c) (Proc.devRef .tc main_v11) = _
    after_results <;> rfl
  exact (congrFun e1 _).trans (shapeCast_a_1a_apply _ _ 0 e)

theorem host_v12 (e : Fin 1024) : (U1 m c main_v12 : S1x1024.Idx → EReal) (ix2 0 e) = (a7 m c) (ix1 e) := by
  have e1 : @Eq (FVec Ideal S1x1024 .f32) (U1 m c main_v12) (shapeCast S1x1024 (a7 m c) shapeCasts_S1024_S1x1024) := by
    show StableHlo.after hostOps0 (W0 m c) (Proc.devRef .tc main_v12) = _
    after_results <;> rfl
  exact (congrFun e1 _).trans (shapeCast_a_1a_apply _ _ 0 e)

theorem host_v13 (e : Fin 1024) : (U1 m c main_v13 : S1x1024.Idx → EReal) (ix2 0 e) = (a9 m c) (ix1 e) := by
  have e1 : @Eq (FVec Ideal S1x1024 .f32) (U1 m c main_v13) (shapeCast S1x1024 (a9 m c) shapeCasts_S1024_S1x1024) := by
    show StableHlo.after hostOps0 (W0 m c) (Proc.devRef .tc main_v13) = _
    after_results <;> rfl
  exact (congrFun e1 _).trans (shapeCast_a_1a_apply _ _ 0 e)

theorem host_v14 (k : Fin 256) : (U1 m c main_v14 : S256x1.Idx → EReal) (ix2 k 0) = (a11 m c) (ix1 k) := by
  have e1 : @Eq (FVec Ideal S256x1 .f32) (U1 m c main_v14) (shapeCast S256x1 (a11 m c) shapeCasts_S256_S256x1) := by
    show StableHlo.after hostOps0 (W0 m c) (Proc.devRef .tc main_v14) = _
    after_results <;> rfl
  exact (congrFun e1 _).trans (shapeCast_a_a1_apply _ _ k 0)

theorem host_v15 (k : Fin 256) : (U1 m c main_v15 : S256x1.Idx → EReal) (ix2 k 0) = (a13 m c) (ix1 k) := by
  have e1 : @Eq (FVec Ideal S256x1 .f32) (U1 m c main_v15) (shapeCast S256x1 (a13 m c) shapeCasts_S256_S256x1) := by
    show StableHlo.after hostOps0 (W0 m c) (Proc.devRef .tc main_v15) = _
    after_results <;> rfl
  exact (congrFun e1 _).trans (shapeCast_a_a1_apply _ _ k 0)

/-! ## The result -/

/-- Region 1's output array after the run is the tail applied to the query layer with the scale folded in and the tiled
    sequence projections of the key and value layers. -/
theorem kernel_value :
    ((dat1 (U2 m) c).arrAt 7 cfg1.N : S4x2048x1024.Idx → EReal)
      = tail (linScaled (m ((c.tc : Thread nD τ).loc main_arg0)) (m ((c.tc : Thread nD τ).loc main_arg2)) (m ((c.tc : Thread nD τ).loc main_arg3)) cst8)
          (seqProjTiled (lin (m ((c.tc : Thread nD τ).loc main_arg1)) (m ((c.tc : Thread nD τ).loc main_arg4)) (m ((c.tc : Thread nD τ).loc main_arg5))) (m ((c.tc : Thread nD τ).loc main_arg10)) (m ((c.tc : Thread nD τ).loc main_arg11)))
          (seqProjTiled (lin (m ((c.tc : Thread nD τ).loc main_arg1)) (m ((c.tc : Thread nD τ).loc main_arg6)) (m ((c.tc : Thread nD τ).loc main_arg7))) (m ((c.tc : Thread nD τ).loc main_arg12)) (m ((c.tc : Thread nD τ).loc main_arg13)))
          (m ((c.tc : Thread nD τ).loc main_arg8)) (m ((c.tc : Thread nD τ).loc main_arg9)) := by
  obtain ⟨hK, hV⟩ := region0_value (U1 m) c (m ((c.tc : Thread nD τ).loc main_arg1)) (m ((c.tc : Thread nD τ).loc main_arg4)) (m ((c.tc : Thread nD τ).loc main_arg6)) (m ((c.tc : Thread nD τ).loc main_arg5)) (m ((c.tc : Thread nD τ).loc main_arg7)) (m ((c.tc : Thread nD τ).loc main_arg10)) (m ((c.tc : Thread nD τ).loc main_arg12)) (m ((c.tc : Thread nD τ).loc main_arg11)) (m ((c.tc : Thread nD τ).loc main_arg13))
    (Gen.V1_of m c main_arg1 (by decide)) (host_v6 m c) (host_v11 m c) (host_v7 m c) (host_v12 m c) (host_v9 m c) (host_v10 m c)
    (host_v14 m c) (host_v15 m c)
  refine region1_value (U2 m) c (m ((c.tc : Thread nD τ).loc main_arg0)) (m ((c.tc : Thread nD τ).loc main_arg2)) (m ((c.tc : Thread nD τ).loc main_arg3)) cst8 _ _ (m ((c.tc : Thread nD τ).loc main_arg8)) (m ((c.tc : Thread nD τ).loc main_arg9)) ?_ ?_ ?_ ?_ ?_ ?_ ?_
  · exact (W2_of_ne m c main_arg0 (by decide)).trans (Gen.V1_of m c main_arg0 (by decide))
  · intro d e; exact (congrFun (W2_of_ne m c main_v2 (by decide)) _).trans (host_v2 m c d e)
  · intro e; exact (congrFun (W2_of_ne m c main_v5 (by decide)) _).trans (host_v5 m c e)
  · intro b h k d; exact (congrFun (W2_arr m c 9) _).trans (hK b h k d)
  · intro b h k d; exact (congrFun (W2_arr m c 10) _).trans (hV b h k d)
  · intro d e; exact (congrFun (W2_of_ne m c main_v8 (by decide)) _).trans (host_v8 m c d e)
  · intro e; exact (congrFun (W2_of_ne m c main_v13 (by decide)) _).trans (host_v13 m c e)

end Cert.KernelIdeal.Hand

end
-- ==== Proof.RefValue.lean ====
import proofs.«430223_j86457691669062_3_alg».proof.Proof.Gen.ReferenceIdeal.Run
import proofs.«430223_j86457691669062_3_alg».proof.Proof.Gen.ReferenceIdeal.Read
import proofs.«430223_j86457691669062_3_alg».proof.Proof.Spec
import Idealize.ShloMosaic.Lib.ValueIdx
import Idealize.ShloMosaic.Lib.ValueLayout
import Idealize.ShloMosaic.Lib.Pipeline.Value
import Idealize.ShloMosaic.PureOps.Ideal.Laws

/-! # The reference's result is the specification's tail

The reference applies three linear layers, projects the key and value layers' sequence axis, scales the queries, splits
heads, and from there computes scores, a softmax over the projected rows, the context and the output projection — the
shared tail, over whole arrays with the batch and head axes as batch dimensions of its matrix products. -/

set_option maxRecDepth 16384

noncomputable section

namespace Cert.ReferenceIdeal.RefValue

open Idealize.ShloMosaic Idealize.ShloMosaic.TcCoe Idealize.ShloMosaic.ValueIdx
open Idealize.SL Idealize.SL.Sem
open Cert.ReferenceIdeal Cert.ReferenceIdeal.Gen Cert.ReferenceIdeal.Value
open Cert.Spec

/-! ## The stages' operand indices at explicit coordinates -/

section Indices
variable (b : Fin 4) (h : Fin 16) (s : Fin 2048) (k : Fin 256) (d : Fin 64) (e e' : Fin 1024)

theorem lidx0 : Read.lidx_main_v0 (ix3 b s e) e' = ix3 b s e' :=
  funext fun a => by match a with | ⟨0, _⟩ => rfl | ⟨1, _⟩ => rfl | ⟨2, _⟩ => rfl
theorem ridx0 : Read.ridx_main_v0 (ix3 b s e) e' = ix2 e' e :=
  funext fun a => by match a with | ⟨0, _⟩ => rfl | ⟨1, _⟩ => rfl
theorem idx1 : Read.idx_main_v1 (Read.idx_main_v2 (ix3 b s e)) = ix1 e :=
  funext fun a => by match a with | ⟨0, _⟩ => rfl

theorem idx17 : Read.idx_main_v17 (ix3 b k e) = ix3 b e k :=
  funext fun a => by match a with | ⟨0, _⟩ => rfl | ⟨1, _⟩ => rfl | ⟨2, _⟩ => rfl
theorem lidx13 : Read.lidx_main_v13 (ix3 b e k) s = ix3 b e s :=
  funext fun a => by match a with | ⟨0, _⟩ => rfl | ⟨1, _⟩ => rfl | ⟨2, _⟩ => rfl
theorem ridx13 : Read.ridx_main_v13 (ix3 b e k) s = ix2 s k :=
  funext fun a => by match a with | ⟨0, _⟩ => rfl | ⟨1, _⟩ => rfl
theorem idx12 : Read.idx_main_v12 (ix3 b e s) = ix3 b s e :=
  funext fun a => by match a with | ⟨0, _⟩ => rfl | ⟨1, _⟩ => rfl | ⟨2, _⟩ => rfl
theorem idx14 : Read.idx_main_v14 (Read.idx_main_v15 (ix3 b e k)) = ix1 k :=
  funext fun a => by match a with | ⟨0, _⟩ => rfl

/-- Splitting the feature axis into heads: row-major position `(h, d)` of the split is feature column `64h + d`. -/
theorem idx24 : Read.idx_main_v24 (Read.idx_main_v25 (ix4 b h s d)) = ix3 b s (col h d) :=
  funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)
theorem idx28 : Read.idx_main_v28 (Read.idx_main_v29 (ix4 b h k d)) = ix3 b k (col h d) :=
  funext fun a => Fin.ext (by
    have hb := b.isLt; have hh := h.isLt; have hk := k.isLt; have hd := d.isLt
    match a with
    | ⟨0, _⟩ => show (((b.val * 256 + k.val) * 16 + h.val) * 64 + d.val) / 262144 = b.val; omega
    | ⟨1, _⟩ => show (((b.val * 256 + k.val) * 16 + h.val) * 64 + d.val) / 1024 % 256 = k.val; omega
    | ⟨2, _⟩ => show (((b.val * 256 + k.val) * 16 + h.val) * 64 + d.val) % 1024 = h.val * 64 + d.val; omega)

theorem lidx32 : Read.lidx_main_v32 (ix4 b h s k) d = ix4 b h s d :=
  funext fun a => by match a with | ⟨0, _⟩ => rfl | ⟨1, _⟩ => rfl | ⟨2, _⟩ => rfl | ⟨3, _⟩ => rfl
theorem ridx32 : Read.ridx_main_v32 (ix4 b h s k) d = ix4 b h k d :=
  funext fun a => by match a with | ⟨0, _⟩ => rfl | ⟨1, _⟩ => rfl | ⟨2, _⟩ => rfl | ⟨3, _⟩ => rfl
/-- The index over `(b, h, s)` with `k` inserted on the reduced axis. -/
theorem lift33 (hr : S4x16x2048x256.Reduces [3] S4x16x2048) : hr.lift (ix3 b h s) k = ix4 b h s k :=
  funext fun a => Fin.ext (by match a with | ⟨0, _⟩ => rfl | ⟨1, _⟩ => rfl | ⟨2, _⟩ => rfl | ⟨3, _⟩ => rfl)
theorem idx36 : Read.idx_main_v36 (Read.idx_main_v37 (ix4 b h s k)) = ix3 b h s :=
  funext fun a => by match a with | ⟨0, _⟩ => rfl | ⟨1, _⟩ => rfl | ⟨2, _⟩ => rfl
theorem idx40 : Read.idx_main_v40 (ix3 b h s) k = ix4 b h s k :=
  funext fun a => by match a with | ⟨0, _⟩ => rfl | ⟨1, _⟩ => rfl | ⟨2, _⟩ => rfl | ⟨3, _⟩ => rfl
theorem idx41 : Read.idx_main_v41 (Read.idx_main_v42 (ix4 b h s k)) = ix3 b h s :=
  funext fun a => by match a with | ⟨0, _⟩ => rfl | ⟨1, _⟩ => rfl | ⟨2, _⟩ => rfl
theorem lidx44 : Read.lidx_main_v44 (ix4 b h s d) k = ix4 b h s k :=
  funext fun a => by match a with | ⟨0, _⟩ => rfl | ⟨1, _⟩ => rfl | ⟨2, _⟩ => rfl | ⟨3, _⟩ => rfl
theorem ridx44 : Read.ridx_main_v44 (ix4 b h s d) k = ix4 b h k d :=
  funext fun a => by match a with | ⟨0, _⟩ => rfl | ⟨1, _⟩ => rfl | ⟨2, _⟩ => rfl | ⟨3, _⟩ => rfl

/-- The lane of a feature column inside its head. -/
def laneOf (e : Fin 1024) : Fin 64 := ⟨e.val % 64, Nat.mod_lt _ (by decide)⟩
theorem col_headOf : col (headOf e) (laneOf e) = e :=
  Fin.ext (by show e.val / 64 * 64 + e.val % 64 = e.val; omega)
/-- Merging the heads again: feature column `e` is position `(e / 64, e % 64)` of the split. -/
theorem idx45 : Read.idx_main_v45 (Read.idx_main_v46 (ix3 b s e)) = ix4 b (headOf e) s (laneOf e) :=
  funext fun a => Fin.ext (by
    have hb := b.isLt; have hs := s.isLt; have he := e.isLt
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega)
theorem lidx47 : Read.lidx_main_v47 (ix3 b s e) e' = ix3 b s e' :=
  funext fun a => by match a with | ⟨0, _⟩ => rfl | ⟨1, _⟩ => rfl | ⟨2, _⟩ => rfl
theorem ridx47 : Read.ridx_main_v47 (ix3 b s e) e' = ix2 e' e :=
  funext fun a => by match a with | ⟨0, _⟩ => rfl | ⟨1, _⟩ => rfl
theorem idx48 : Read.idx_main_v48 (Read.idx_main_v49 (ix3 b s e)) = ix1 e :=
  funext fun a => by match a with | ⟨0, _⟩ => rfl

end Indices

/-! ## The stages at explicit coordinates -/

section Stages
variable (x0 x1 : (⟨S4x2048x1024, .f32⟩ : BufTy).Contents (Elt Ideal))
  (x2 x4 x6 x8 : (⟨S1024x1024, .f32⟩ : BufTy).Contents (Elt Ideal))
  (x3 x5 x7 x9 : (⟨S1024, .f32⟩ : BufTy).Contents (Elt Ideal))
  (x10 x12 : (⟨S2048x256, .f32⟩ : BufTy).Contents (Elt Ideal))
  (x11 x13 : (⟨S256, .f32⟩ : BufTy).Contents (Elt Ideal))
variable (b : Fin 4) (h : Fin 16) (s : Fin 2048) (k : Fin 256) (d : Fin 64) (e : Fin 1024)

/-- A linear layer: the matrix product plus the broadcast bias. -/
theorem v3_at : Read.val_main_v3 (F := Ideal) x0 x2 x3 (ix3 b s e) = lin x0 x2 x3 b s e := by
  rw [Read.val_main_v3_apply, Read.val_main_v0_apply, Read.val_main_v2_apply, Read.val_main_v1_apply, idx1]
  unfold lin
  rw [Ideal.addf_def]
  refine congrArg (· + _) (Finset.sum_congr rfl fun e' _ => ?_)
  rw [lidx0, ridx0]

theorem v7_at : Read.val_main_v7 (F := Ideal) x1 x4 x5 (ix3 b s e) = lin x1 x4 x5 b s e :=
  v3_at x1 x4 x5 b s e

/-- The sequence projection: transpose, product with the projection matrix over the 2048 rows, bias, transpose back. -/
theorem v17_at : Read.val_main_v17 (F := Ideal) x1 x4 x5 x10 x11 (ix3 b k e) = seqProj (lin x1 x4 x5) x10 x11 b k e := by
  rw [Read.val_main_v17_apply, idx17, Read.val_main_v16_apply, Read.val_main_v13_apply, Read.val_main_v15_apply,
    Read.val_main_v14_apply, idx14]
  unfold seqProj
  rw [Ideal.addf_def]
  refine congrArg (· + _) (Finset.sum_congr rfl fun s _ => ?_)
  rw [lidx13, ridx13, Read.val_main_v12_apply, idx12, v7_at]

theorem v23_at : Read.val_main_v23 (F := Ideal) x1 x6 x7 x12 x13 (ix3 b k e) = seqProj (lin x1 x6 x7) x12 x13 b k e :=
  v17_at x1 x6 x7 x12 x13 b k e

/-- The scaled queries, heads split. -/
theorem v27_at : Read.val_main_v27 (F := Ideal) x0 x2 x3 (ix4 b h s d)
    = linThenScale x0 x2 x3 (Ideal.ofBits .f32 0x3E000000#32) b s (col h d) := by
  rw [Read.val_main_v27_apply, Read.val_main_v25_apply, Read.val_main_v24_apply, idx24, v3_at, Read.val_main_v26_apply,
    Read.val_main_cst_apply, Ideal.mulf_def, Ideal.ofBits_def]
  rfl

/-- The projected keys, heads split. -/
theorem v29_at : Read.val_main_v29 (F := Ideal) x1 x4 x5 x10 x11 (ix4 b h k d)
    = seqProj (lin x1 x4 x5) x10 x11 b k (col h d) := by
  rw [Read.val_main_v29_apply, Read.val_main_v28_apply, idx28, v17_at]

theorem v31_at : Read.val_main_v31 (F := Ideal) x1 x6 x7 x12 x13 (ix4 b h k d)
    = seqProj (lin x1 x6 x7) x12 x13 b k (col h d) :=
  v29_at x1 x6 x7 x12 x13 b h k d

local notation "QQ" => linThenScale x0 x2 x3 (Ideal.ofBits FTy.f32 0x3E000000#32)
local notation "KK" => seqProj (lin x1 x4 x5) x10 x11
local notation "VV" => seqProj (lin x1 x6 x7) x12 x13

/-- The scores: the head's 64 columns contracted, batch and head as batch dimensions. -/
theorem v32_at : Read.val_main_v32 (F := Ideal) x0 x1 x2 x3 x4 x5 x10 x11 (ix4 b h s k) = score QQ KK b h s k := by
  rw [Read.val_main_v32_apply]
  unfold score
  refine Finset.sum_congr rfl fun d _ => ?_
  rw [lidx32, ridx32, v27_at, v29_at]

/-- The bit pattern of `-∞`. -/
theorem ofBits_neg_inf : Ideal.ofBits .f32 0xFF800000#32 = (⊥ : EReal) := by simp [Ideal.ofBits, Ideal.ieee]

/-- The row maximum: the fold of `max` from `-∞` over the projected rows, then once more against `-∞`. -/
theorem v35_at : Read.val_main_v35 (F := Ideal) x0 x1 x2 x3 x4 x5 x10 x11 (ix3 b h s) = rowMax QQ KK b h s := by
  rw [Read.val_main_v35_apply, Read.val_main_v34_apply, Read.val_main_cst_1_apply]
  unfold Read.val_main_v33
  rw [Host.reduce_eq_fold_single FloatOps.maximumf _ _ reducesTo_S4x16x2048x256_S4x16x2048_d3 (by decide) h_S_,
    Read.val_main_cst_0_apply, Ideal.ofBits_def, ofBits_neg_inf, Ideal.maximumf_def, max_eq_right bot_le]
  unfold rowMax
  refine Finset.fold_congr fun k _ => ?_
  exact (congrArg (Read.val_main_v32 (F := Ideal) x0 x1 x2 x3 x4 x5 x10 x11) (lift33 b h s k _)).trans
    (v32_at _ _ _ _ _ _ _ _ b h s k)

/-- The shifted exponential. -/
theorem v39_at : Read.val_main_v39 (F := Ideal) x0 x1 x2 x3 x4 x5 x10 x11 (ix4 b h s k) = pexp QQ KK b h s k := by
  rw [Read.val_main_v39_apply, Read.val_main_v38_apply, Read.val_main_v37_apply, Read.val_main_v36_apply, idx36, v35_at,
    v32_at, Ideal.hostUnary_exp_def, Ideal.subf_def]
  rfl

/-- The softmax denominator: the sum from the zero word. -/
theorem v40_at : Read.val_main_v40 (F := Ideal) x0 x1 x2 x3 x4 x5 x10 x11 (ix3 b h s)
    = ∑ k' : Fin 256, pexp QQ KK b h s k' := by
  rw [Read.val_main_v40_apply, Read.val_main_cst_2_apply, Ideal.ofBits_def, Ideal.ofBits_zero_f32, zero_add]
  refine Finset.sum_congr rfl fun k' _ => ?_
  rw [idx40, v39_at]

/-- The softmax weight. -/
theorem v43_at : Read.val_main_v43 (F := Ideal) x0 x1 x2 x3 x4 x5 x10 x11 (ix4 b h s k) = attn QQ KK b h s k := by
  rw [Read.val_main_v43_apply, Read.val_main_v42_apply, Read.val_main_v41_apply, idx41, v40_at, v39_at, Ideal.hostDivf_def]
  rfl

/-- The context per head: the 256 projected rows contracted. -/
theorem v44_at : Read.val_main_v44 (F := Ideal) x0 x1 x2 x3 x4 x5 x6 x7 x10 x11 x12 x13 (ix4 b h s d)
    = ∑ k' : Fin 256, attn QQ KK b h s k' * VV b k' (col h d) := by
  rw [Read.val_main_v44_apply]
  refine Finset.sum_congr rfl fun k' _ => ?_
  rw [lidx44, ridx44, v43_at, v31_at]

/-- The context, heads side by side again. -/
theorem v46_at : Read.val_main_v46 (F := Ideal) x0 x1 x2 x3 x4 x5 x6 x7 x10 x11 x12 x13 (ix3 b s e) = ctx QQ KK VV b s e := by
  rw [Read.val_main_v46_apply, Read.val_main_v45_apply, idx45, v44_at, col_headOf]
  rfl

/-- The output projection. -/
theorem v50_at : Read.val_main_v50 (F := Ideal) x0 x1 x2 x3 x4 x5 x6 x7 x8 x9 x10 x11 x12 x13 (ix3 b s e)
    = tail QQ KK VV x8 x9 (ix3 b s e) := by
  rw [Read.val_main_v50_apply, Read.val_main_v47_apply, Read.val_main_v49_apply, Read.val_main_v48_apply, idx48,
    Ideal.addf_def]
  unfold tail
  refine congrArg (· + _) (Finset.sum_congr rfl fun e' _ => ?_)
  rw [lidx47, ridx47, v46_at]

end Stages

variable (m : (ℓ : Loc nD τ sig) → Buf (Elt Ideal) ℓ) (c : Dev nD)

/-- The reference run's result term, at the extended reals, is the tail applied to the scaled query layer and the two
    sequence projections of the key and value layers. -/
theorem result_eq :
    (res_out0 (F := Ideal) m c : S4x2048x1024.Idx → EReal)
      = tail
          (linThenScale (m ((c.tc : Thread nD τ).loc main_arg0)) (m ((c.tc : Thread nD τ).loc main_arg2)) (m ((c.tc : Thread nD τ).loc main_arg3)) (Ideal.ofBits .f32 0x3E000000#32))
          (seqProj (lin (m ((c.tc : Thread nD τ).loc main_arg1)) (m ((c.tc : Thread nD τ).loc main_arg4)) (m ((c.tc : Thread nD τ).loc main_arg5))) (m ((c.tc : Thread nD τ).loc main_arg10)) (m ((c.tc : Thread nD τ).loc main_arg11)))
          (seqProj (lin (m ((c.tc : Thread nD τ).loc main_arg1)) (m ((c.tc : Thread nD τ).loc main_arg6)) (m ((c.tc : Thread nD τ).loc main_arg7))) (m ((c.tc : Thread nD τ).loc main_arg12)) (m ((c.tc : Thread nD τ).loc main_arg13)))
          (m ((c.tc : Thread nD τ).loc main_arg8)) (m ((c.tc : Thread nD τ).loc main_arg9)) := by
  funext j
  obtain ⟨b, s, e, rfl⟩ : ∃ (b : Fin 4) (s : Fin 2048) (e : Fin 1024), j = ix3 b s e := ⟨j 0, j 1, j 2, eq_ix3 j⟩
  show res_main_v50 (F := Ideal) m c (ix3 b s e) = _
  rw [Read.val_main_v50_eq]
  exact v50_at _ _ _ _ _ _ _ _ _ _ _ _ _ _ b s e

end Cert.ReferenceIdeal.RefValue

end
-- ==== Proof.Algebra.lean ====
import proofs.«430223_j86457691669062_3_alg».proof.Proof.Spec
import Mathlib.Algebra.BigOperators.Fin
import Mathlib.Algebra.BigOperators.Ring.Finset
import Mathlib.Data.EReal.Operations

/-! # The two laws that join the programs' spellings

(1) A 2048-term sum accumulated over four row tiles of 512 from zero is the sum: associativity and commutativity of the
extended reals' addition (no finiteness needed). With commutativity of the product the tiled sequence projection is the
plain one.
(2) Folding a scale into a linear layer: `Σ x·(W·c) + b·c = (Σ x·W + b)·c`. This is distributivity, which fails at
infinities, so it is stated for real entries and a real scale. -/

noncomputable section

namespace Cert.Spec

open Idealize.ShloMosaic Idealize.ShloMosaic.ValueIdx

/-- Every sequence row is row `r` of tile `i` for exactly one pair `(i, r)`. -/
theorem row_bijective : Function.Bijective (fun p : Fin 4 × Fin 512 => row p.1 p.2) := by
  constructor
  · rintro ⟨i, r⟩ ⟨i', r'⟩ h
    have h' : i.val * 512 + r.val = i'.val * 512 + r'.val := congrArg Fin.val h
    have hi : i.val = i'.val := by omega
    have hr : r.val = r'.val := by omega
    exact Prod.ext (Fin.ext hi) (Fin.ext hr)
  · intro s
    refine ⟨(⟨s.val / 512, by omega⟩, ⟨s.val % 512, by omega⟩), ?_⟩
    apply Fin.ext
    show s.val / 512 * 512 + s.val % 512 = s.val
    omega

/-- The tile-by-tile sum is the sum. -/
theorem tileSum_eq (f : Fin 2048 → EReal) : tileSum f = ∑ s : Fin 2048, f s := by
  have h : ∑ p : Fin 4 × Fin 512, f (row p.1 p.2) = ∑ s : Fin 2048, f s :=
    Fintype.sum_bijective (fun p : Fin 4 × Fin 512 => row p.1 p.2) row_bijective _ _ (fun _ => rfl)
  rw [← h, Fintype.sum_prod_type, Fin.sum_univ_four, tileSum, zero_add]

/-- The tiled sequence projection is the plain one. -/
theorem seqProjTiled_eq (K : T3) (E : AE) (Eb : AEb) : seqProjTiled K E Eb = seqProj K E Eb := by
  funext b k e
  simp only [seqProjTiled, seqProj, tileSum_eq]
  congr 1
  exact Finset.sum_congr rfl (fun s _ => mul_comm _ _)

/-- The coercion of the reals into the extended reals carries finite sums to finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The scale folded into the weights and the bias is the scale applied afterwards, when every entry and the scale are real. -/
theorem linScaled_eq (x : A3) (W : AW) (bias : AB) (c : EReal)
    (hx : ∀ j, ∃ r : ℝ, x j = (r : EReal)) (hW : ∀ j, ∃ r : ℝ, W j = (r : EReal)) (hb : ∀ j, ∃ r : ℝ, bias j = (r : EReal))
    (hc : ∃ r : ℝ, c = (r : EReal)) :
    linScaled x W bias c = linThenScale x W bias c := by
  obtain ⟨cr, rfl⟩ := hc
  choose xr hxr using hx
  choose Wr hWr using hW
  choose br hbr using hb
  funext b s e
  simp only [linScaled, linThenScale, lin, hxr, hWr, hbr]
  simp only [← EReal.coe_mul, ← coe_sum, ← EReal.coe_add]
  congr 1
  rw [add_mul, Finset.sum_mul]
  congr 1
  exact Finset.sum_congr rfl (fun d _ => (mul_assoc _ _ _).symm)

/-- The scale literal (the bit pattern of one eighth) denotes a real. -/
theorem scale_real : ∃ r : ℝ, Ideal.ofBits .f32 0x3E000000#32 = (r : EReal) := by
  refine ⟨1 / 8, ?_⟩
  simp [Ideal.ofBits, Ideal.ieee, -EReal.coe_mul]; norm_num

end Cert.Spec

end
-- ==== Proof.Finite.lean ====
import proofs.«430223_j86457691669062_3_alg».proof.Defs
import Idealize.ShloMosaic.Lib.ReduceAll
import Idealize.ShloMosaic.Lib.ValueIdx
import Mathlib.Data.EReal.Basic

/-! # From the precondition to "every entry is a real"

The precondition is a conjunction of fourteen "all entries satisfy `|x| < +∞`" tests, one per argument array. Over the
extended reals `|x| = max x (-x)`, and `max x (-x) < ⊤` excludes both infinities, so each entry of an array whose test
holds is the coercion of a real. Three of the fourteen arrays are read off here: the query input, the query weights and
the query bias. -/

noncomputable section

namespace Cert.Proof.Finite

open Idealize.ShloMosaic Idealize.SL.Sem

/-- The shape of rank zero has one index. -/
instance : Subsingleton Cert.Pre_finite_inputs.S_.Idx := ⟨fun a b => funext fun d => d.elim0⟩

/-- The pattern of `+∞` denotes `⊤`. -/
theorem ofBits_inf : Ideal.ofBits .f32 0x7F800000#32 = (⊤ : EReal) := by
  simp [Ideal.ofBits, Ideal.ieee]

/-- An extended real whose absolute value is below `⊤` is a real. -/
theorem real_of_abs_lt_top (x : EReal) (h : max x (-x) < ⊤) : ∃ r : ℝ, x = (r : EReal) := by
  obtain ⟨h1, h2⟩ := max_lt_iff.1 h
  refine ⟨x.toReal, (EReal.coe_toReal h1.ne ?_).symm⟩
  intro hbot
  rw [hbot] at h2
  exact absurd h2 (by simp)

/-- A pointwise conjunction that is one has both conjuncts one. -/
theorem andi_apply {s : Shape} (a b : IVec s 1) (i : s.Idx) : andi a b i = 1#1 ↔ a i = 1#1 ∧ b i = 1#1 :=
  IntOp.andi_eq_one

/-- One conjunct of the precondition, generic in the shape: if the test "all `|x| < +∞`" of an array is one, every entry
    of the array is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j0 : Cert.Pre_finite_inputs.S_.Idx)
    (e : Host.reduce IntOp.andi
          (cmpf .olt (Host.absf x) (broadcastInDim s ![] hb (constant Cert.Pre_finite_inputs.S_ .f32 0x7F800000#32)))
          init hr hu j0 = 1#1)
    (j : s.Idx) : ∃ r : ℝ, (x j : EReal) = (r : EReal) := by
  have h1 := Host.reduce_andi_all _ _ hr hu j0 e j
  have h2 : BitVec.ofBool (decide (max (x j : EReal) (-(x j : EReal)) < Ideal.ofBits .f32 0x7F800000#32)) = 1#1 := h1
  rw [ofBits_inf] at h2
  have h3 : max (x j : EReal) (-(x j : EReal)) < ⊤ := by
    by_contra hn
    rw [decide_eq_false hn] at h2
    exact absurd h2 (by decide)
  exact real_of_abs_lt_top _ h3

/-- The precondition over abstract arrays: the first, third and fourth have real entries. -/
theorem real_of_fn [Cert.Pre_finite_inputs.Facts]
    (a0 a1 : FVec Ideal Cert.Pre_finite_inputs.S4x2048x1024 .f32)
    (a2 : FVec Ideal Cert.Pre_finite_inputs.S1024x1024 .f32) (a3 : FVec Ideal Cert.Pre_finite_inputs.S1024 .f32)
    (a4 : FVec Ideal Cert.Pre_finite_inputs.S1024x1024 .f32) (a5 : FVec Ideal Cert.Pre_finite_inputs.S1024 .f32)
    (a6 : FVec Ideal Cert.Pre_finite_inputs.S1024x1024 .f32) (a7 : FVec Ideal Cert.Pre_finite_inputs.S1024 .f32)
    (a8 : FVec Ideal Cert.Pre_finite_inputs.S1024x1024 .f32) (a9 : FVec Ideal Cert.Pre_finite_inputs.S1024 .f32)
    (a10 : FVec Ideal Cert.Pre_finite_inputs.S2048x256 .f32) (a11 : FVec Ideal Cert.Pre_finite_inputs.S256 .f32)
    (a12 : FVec Ideal Cert.Pre_finite_inputs.S2048x256 .f32) (a13 : FVec Ideal Cert.Pre_finite_inputs.S256 .f32)
    (h : Cert.Pre_finite_inputs.fn (F := Ideal) a0 a1 a2 a3 a4 a5 a6 a7 a8 a9 a10 a11 a12 a13 = fun _ => 1#1) :
    (∀ j, ∃ r : ℝ, (a0 j : EReal) = (r : EReal)) ∧ (∀ j, ∃ r : ℝ, (a2 j : EReal) = (r : EReal))
      ∧ (∀ j, ∃ r : ℝ, (a3 j : EReal) = (r : EReal)) := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  simp only [andi_apply] at h0
  obtain ⟨⟨⟨⟨⟨⟨⟨⟨⟨⟨⟨⟨⟨e0, -⟩, e2⟩, e3⟩, -⟩, -⟩, -⟩, -⟩, -⟩, -⟩, -⟩, -⟩, -⟩, -⟩ := h0
  exact ⟨real_of_all a0 _ _ _ _ _ e0, real_of_all a2 _ _ _ _ _ e2, real_of_all a3 _ _ _ _ _ e3⟩

/-- The precondition gives real entries of the three arrays the scale law reads. -/
theorem finite_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j : Cert.KernelIdeal.S4x2048x1024.Idx, ∃ r : ℝ, (m ((c.tc : Thread Cert.KernelIdeal.nD Cert.KernelIdeal.τ).loc Cert.KernelIdeal.main_arg0) : Cert.KernelIdeal.S4x2048x1024.Idx → EReal) j = (r : EReal))
      ∧ (∀ j : Cert.KernelIdeal.S1024x1024.Idx, ∃ r : ℝ, (m ((c.tc : Thread Cert.KernelIdeal.nD Cert.KernelIdeal.τ).loc Cert.KernelIdeal.main_arg2) : Cert.KernelIdeal.S1024x1024.Idx → EReal) j = (r : EReal))
      ∧ (∀ j : Cert.KernelIdeal.S1024.Idx, ∃ r : ℝ, (m ((c.tc : Thread Cert.KernelIdeal.nD Cert.KernelIdeal.τ).loc Cert.KernelIdeal.main_arg3) : Cert.KernelIdeal.S1024.Idx → EReal) j = (r : EReal)) :=
  real_of_fn _ _ _ _ _ _ _ _ _ _ _ _ _ _ (h c)

end Cert.Proof.Finite

end
-- ==== Proof.lean ====
/- The certificate's claims for the low-rank multi-head attention kernel against its reference.

   Frames. The kernel program is a host stretch and two kernel regions; each region's body is run case by case over its
   grid, the first region carrying two accumulators in scratch from point to point, and the launch theorem for a list of
   segments gives termination, no fault, and every unscoped buffer at the fold of the boundaries' contents — in
   particular every argument as launched. The word-level program and its idealization share that text. The reference is
   host operations only: its frame is its run with the result dropped.

   Value, over the extended reals. Both programs apply ONE tail (scores, softmax over the 256 projected rows, context,
   output projection) to a query layer and two sequence-projected layers. The kernel spells the query layer with the
   scale 1/8 folded into weights and bias, the reference scales afterwards: equal by distributivity, which needs every
   entry real — the precondition. The kernel accumulates the 2048-row sequence sum over four row tiles from zero with the
   projection matrix as the left factor, the reference sums once: equal by associativity and commutativity alone. -/
import proofs.«430223_j86457691669062_3_alg».proof.Defs
import proofs.«430223_j86457691669062_3_alg».proof.Proof.Gen.Kernel
import proofs.«430223_j86457691669062_3_alg».proof.Proof.Gen.KernelIdeal
import proofs.«430223_j86457691669062_3_alg».proof.Proof.Gen.ReferenceIdeal
import proofs.«430223_j86457691669062_3_alg».proof.Proof.Gen.Pre_finite_inputs
import proofs.«430223_j86457691669062_3_alg».proof.Proof.Gen.ReferenceIdeal.Run
import proofs.«430223_j86457691669062_3_alg».proof.Proof.K.Run
import proofs.«430223_j86457691669062_3_alg».proof.Proof.KI.Run
import proofs.«430223_j86457691669062_3_alg».proof.Proof.KI.KValue
import proofs.«430223_j86457691669062_3_alg».proof.Proof.RefValue
import proofs.«430223_j86457691669062_3_alg».proof.Proof.Algebra
import proofs.«430223_j86457691669062_3_alg».proof.Proof.Finite
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals, from memories agreeing on the arguments, both programs end at the tail applied to the scaled
    query layer and the sequence projections of the key and value layers. -/
theorem algebraic : Cert.algebraic_KernelIdeal_ReferenceIdeal := by
  intro m ρ m' ρ' hpre hagree
  refine ⟨fun c => (Cert.KernelIdeal.Hand.dat1 (Cert.KernelIdeal.Hand.U2 m) c).arrAt 7 Cert.KernelIdeal.cfg1.N,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨fq, fW, fb⟩ := Finite.finite_of_pre m hpre c
  obtain ⟨a0, a1, a2, a3, a4, a5, a6, a7, a8, a9, a10, a11, a12, a13⟩ := hagree c
  refine (Cert.ReferenceIdeal.RefValue.result_eq m' c).trans (Eq.trans ?_ (Cert.KernelIdeal.Hand.kernel_value m c).symm)
  rw [a0, a1, a2, a3, a4, a5, a6, a7, a8, a9, a10, a11, a12, a13, Cert.Spec.seqProjTiled_eq, Cert.Spec.seqProjTiled_eq,
    Cert.Spec.linScaled_eq _ _ _ _ fq fW fb Cert.Spec.scale_real]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
